-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩
abbrev S1x64 : Shape := ⟨2, ![1, 64]⟩
abbrev S5000x1 : Shape := ⟨2, ![5000, 1]⟩
abbrev S64x128 : Shape := ⟨2, ![64, 128]⟩
abbrev S64x1 : Shape := ⟨2, ![64, 1]⟩
abbrev S5000x64 : Shape := ⟨2, ![5000, 64]⟩
abbrev S64 : Shape := ⟨1, ![64]⟩

abbrev nBuf : Space → Nat
  | .hbm => 121
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1700000x1, .f32⟩
  | .hbm, ⟨53, _⟩ => ⟨S1x128x128, .f32⟩
  | .hbm, ⟨54, _⟩ => ⟨S128x128, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S1x128x128, .f32⟩
  | .hbm, ⟨75, _⟩ => ⟨S128x128, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S1x128x128, .f32⟩
  | .hbm, ⟨96, _⟩ => ⟨S128x128, .f32⟩
  | .hbm, ⟨97, _⟩ => ⟨S100000x128, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x128, .f32⟩
  | .hbm, ⟨107, _⟩ => ⟨S1700000x128, .f32⟩
  | .hbm, ⟨108, _⟩ => ⟨S1700000x128, .f32⟩
  | .hbm, ⟨109, _⟩ => ⟨S_, .f32⟩
  | .hbm, ⟨110, _⟩ => ⟨S100000x128, .f32⟩
  | .hbm, ⟨111, _⟩ => ⟨S1700000x1, .i32⟩
  | .hbm, ⟨112, _⟩ => ⟨S100000x128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S100000x1, .i32⟩
  | .hbm, ⟨117, _⟩ => ⟨S1x128, .f32⟩
  | .hbm, ⟨118, _⟩ => ⟨S1x1, .f32⟩
  | .hbm, ⟨119, _⟩ => ⟨S1x64, .f32⟩
  | .hbm, ⟨120, _⟩ => ⟨S64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x1, .i32⟩
  | .local _ .vmem, ⟨21, _⟩ => ⟨S5000x1, .i32⟩
  | .local _ .vmem, ⟨22, _⟩ => ⟨S128x128, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S1x64, .f32⟩
  | .local _ .vmem, ⟨27, _⟩ => ⟨S64x128, .f32⟩
  | .local _ .vmem, ⟨28, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_scratch0 : Ref sig .tc := ⟨.vmem, 27, rfl⟩
abbrev cc3_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v33 : BitVec 1 := Scalar.cmpi .eq arg0 c19_i32
  let v34 : BitVec 32 := Scalar.extui v33
  let c0_i32_17 : BitVec 32 := 0#32
  let v35 : BitVec 1 := Scalar.cmpi .ne v34 c0_i32_17
  v35

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_1_0_0 : S3x128x128.Slices ![1, 0, 0] S1x128x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000_S100000x1 : S100000.ShapeCasts S100000x1
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  broadcasts_S64x1_S64x128 : S64x1.Broadcasts S64x128
  broadcasts_S1x128_S64x128 : S1x128.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  transposes_S64x1_p1_0_S1x64 : S64x1.Transposes [1, 0] S1x64
  inb_S1x64_S1x64_0_0 : ∀ a, (![0, 0] : Fin 2 → Nat) a + S1x64.size a ≤ S1x64.size a
  h_S1x64 : 0 < S1x64.numel
  shapeCasts_S1x64_S64 : S1x64.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .i32 = 32 ∨ (Rect.block (s := S100000x1) S5000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v89) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v90) S1x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S1700000x128 : Shape := ⟨2, ![1700000, 128]⟩
abbrev S1x128 : Shape := ⟨2, ![1, 128]⟩
abbrev S64 : Shape := ⟨1, ![64]⟩
abbrev S100000x1 : Shape := ⟨2, ![100000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S128x128, .f32⟩
  | 6 => ⟨S128, .f32⟩
  | 7 => ⟨S128x1, .f32⟩
  | 8 => ⟨S1, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S1x128x128, .f32⟩
  | 54 => ⟨S128x128, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S1x128x128, .f32⟩
  | 80 => ⟨S128x128, .f32⟩
  | 81 => ⟨S100000x128, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x128, .f32⟩
  | 91 => ⟨S1700000x128, .f32⟩
  | 92 => ⟨S1700000x128, .f32⟩
  | 93 => ⟨S_, .f32⟩
  | 94 => ⟨S100000x128, .f32⟩
  | 95 => ⟨S1700000x1, .i32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S1x128x128, .f32⟩
  | 106 => ⟨S128x128, .f32⟩
  | 107 => ⟨S100000x128, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S100000, .f32⟩
  | 5 => ⟨S_, .f32⟩
  | 6 => ⟨S64, .f32⟩
  | 7 => ⟨S100000x1, .i32⟩
  | 8 => ⟨S64, .f32⟩
  | 9 => ⟨S_, .f32⟩
  | 10 => ⟨S64x128, .f32⟩
  | 11 => ⟨S100000x1, .i32⟩
  | 12 => ⟨S64x128, .f32⟩
  | 13 => ⟨S_, .f32⟩
  | 14 => ⟨S64, .f32⟩
  | 15 => ⟨S64, .f32⟩
  | 16 => ⟨S64x1, .f32⟩
  | 17 => ⟨S64x128, .f32⟩
  | 18 => ⟨S64x128, .f32⟩
  | 19 => ⟨S64x128, .f32⟩
  | 20 => ⟨S1x128, .f32⟩
  | 21 => ⟨S64x128, .f32⟩
  | 22 => ⟨S64x128, .f32⟩
  | 23 => ⟨S_, .f32⟩
  | 24 => ⟨S64x128, .f32⟩
  | 25 => ⟨S64x128, .f32⟩
  | 26 => ⟨S64x1, .f32⟩
  | 27 => ⟨S1x1, .f32⟩
  | 28 => ⟨S64x1, .f32⟩
  | 29 => ⟨S64x1, .f32⟩
  | 30 => ⟨S64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call2_cst : Ref sig .tc := ⟨.hbm, 102, rfl⟩
abbrev main_call2_v0 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_13 : Ref sig .tc := ⟨.hbm, 108, rfl⟩
abbrev main_v78 : Ref sig .tc := ⟨.hbm, 109, rfl⟩
abbrev main_v79 : Ref sig .tc := ⟨.hbm, 110, rfl⟩
abbrev main_c_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call3_cst : Ref sig .tc := ⟨.hbm, 128, rfl⟩
abbrev main_call3_v0 : Ref sig .tc := ⟨.hbm, 129, rfl⟩
abbrev main_v95 : Ref sig .tc := ⟨.hbm, 130, rfl⟩
abbrev main_cst_16 : Ref sig .tc := ⟨.hbm, 131, rfl⟩
abbrev main_v96 : Ref sig .tc := ⟨.hbm, 132, rfl⟩
abbrev main_cst_17 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_18 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_19 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_call4_cst : Ref sig .tc := ⟨.hbm, 151, rfl⟩
abbrev main_call4_v0 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Reg0.lean ====
/-
  Region 0: the first layer's dense product, one block of 5000 rows per grid point.
  At a parameter `V` (what the TensorCore's buffers hold when the region is entered): each window's block at a
  point, what the body leaves in the output window's buffer (the product of the row block with the whole weight
  matrix), the body's triple, the pipeline's proof data and its body obligation.
-/
import proofs.«422429_j3118146257467_1_alg».proof.Proof.Gen.Kernel.Launch
import proofs.«422429_j3118146257467_1_alg».proof.Proof.Gen.Kernel.Skeleton
import proofs.«422429_j3118146257467_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block: its staging buffer holds the block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: fetched once, its staging buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0

/-- The output window's buffer after the body: its one store, the product of the loaded row block and weights. -/
def out0_2 (x0 : Vec F S5000x128 .f32) (x1 : Vec F S128x128 .f32) : Vec F S5000x128 .f32 :=
  View.canon [⟨r0_a, k0_pay1 (View.ld x0 r0_a) (View.ld x1 r0_b)⟩]

theorem cover0_2 (p0 : Vec F S5000x128 .f32) (y : S5000x128.Idx) :
    ∃ pc ∈ ([⟨r0_a, p0⟩] : List (View.Piece (Elt F) S5000x128 .f32)), y ∈ pc.1.set :=
  View.cover_of_tiled [⟨r0_a, p0⟩] S5000x128.size (by rfl) y

set_option maxHeartbeats 1000000 in
/-- The body on whole staging memrefs: inputs kept, the output's buffer at `out0_2` of the inputs'. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1: the second layer's fused step, one block of 5000 rows per grid point: the bias is added to the block of
  aggregated features, negatives are cut to zero, and the result is multiplied by the whole weight matrix.
  At a parameter `V` (what the TensorCore's buffers hold when the region is entered): each window's block at a
  point, what the body leaves in the output window's buffer, the body's triple, the pipeline's proof data and its
  body obligation.
-/
import proofs.«422429_j3118146257467_1_alg».proof.Proof.Gen.Kernel.Launch
import proofs.«422429_j3118146257467_1_alg».proof.Proof.Gen.Kernel.Skeleton
import proofs.«422429_j3118146257467_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of aggregated rows: its staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row: fetched once, its staging buffer holds it at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix: fetched once, its staging buffer holds it at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S5000x128 := Rect.unit (s := S5000x128) ![0, 0] S5000x128.size inb_S5000x128_S5000x128_0_0
abbrev r1_b : Rect S1x128 := Rect.unit (s := S1x128) ![0, 0] S1x128.size inb_S1x128_S1x128_0_0
abbrev r1_c : Rect S128x128 := Rect.unit (s := S128x128) ![0, 0] S128x128.size inb_S128x128_S128x128_0_0

/-- The output window's buffer after the body: its one store, the product of the rectified biased block and the weights. -/
def out1_3 (x0 : Vec F S5000x128 .f32) (x1 : Vec F S1x128 .f32) (x2 : Vec F S128x128 .f32) : Vec F S5000x128 .f32 :=
  View.canon [⟨r1_a, k1_pay1 (View.ld x0 r1_a) (View.ld x1 r1_b) (View.ld x2 r1_c)⟩]

theorem cover1_3 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in
/-- The body on whole staging memrefs: inputs kept, the output's buffer at `out1_3` of the inputs'. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__relu_bias_matmul_kernel i arg1 harg1 arg2 harg2 arg3 harg3 arg4 harg4) K := by
  simp only [cc1__relu_bias_matmul_kernel_eq_skeleton]; unfold cc1__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2: the third layer's fused step, one block of 5000 rows per grid point: the bias is added to the block of
  aggregated features, negatives are cut to zero, and the result is multiplied by the whole weight matrix.
  At a parameter `V` (what the TensorCore's buffers hold when the region is entered): each window's block at a
  point, what the body leaves in the output window's buffer, the body's triple, the pipeline's proof data and its
  body obligation.
-/
import proofs.«422429_j3118146257467_1_alg».proof.Proof.Gen.Kernel.Launch
import proofs.«422429_j3118146257467_1_alg».proof.Proof.Gen.Kernel.Skeleton
import proofs.«422429_j3118146257467_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of aggregated rows: its staging buffer holds the block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias row: fetched once, its staging buffer holds it at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight matrix: fetched once, its staging buffer holds it at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S5000x128 := Rect.unit (s := S5000x128) ![0, 0] S5000x128.size inb_S5000x128_S5000x128_0_0
abbrev r2_b : Rect S1x128 := Rect.unit (s := S1x128) ![0, 0] S1x128.size inb_S1x128_S1x128_0_0
abbrev r2_c : Rect S128x128 := Rect.unit (s := S128x128) ![0, 0] S128x128.size inb_S128x128_S128x128_0_0

/-- The output window's buffer after the body: its one store, the product of the rectified biased block and the weights. -/
def out2_3 (x0 : Vec F S5000x128 .f32) (x1 : Vec F S1x128 .f32) (x2 : Vec F S128x128 .f32) : Vec F S5000x128 .f32 :=
  View.canon [⟨r2_a, k2_pay1 (View.ld x0 r2_a) (View.ld x1 r2_b) (View.ld x2 r2_c)⟩]

theorem cover2_3 (p0 : Vec F S5000x128 .f32) (y : S5000x128.Idx) :
    ∃ pc ∈ ([⟨r2_a, p0⟩] : List (View.Piece (Elt F) S5000x128 .f32)), y ∈ pc.1.set :=
  View.cover_of_tiled [⟨r2_a, p0⟩] S5000x128.size (by rfl) y

set_option maxHeartbeats 1000000 in
/-- The body on whole staging memrefs: inputs kept, the output's buffer at `out2_3` of the inputs'. -/
theorem sound_kernel2 (c : Dev nD) (E : Set ℕ) (i : grid2.Coords) (arg1 : Memref sig .tc .vmem S5000x128 .f32) (harg1 : arg1.IsWhole)
    (arg2 : Memref sig .tc .vmem S1x128 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__relu_bias_matmul_kernel i arg1 harg1 arg2 harg2 arg3 harg3 arg4 harg4) K := by
  simp only [cc2__relu_bias_matmul_kernel_eq_skeleton]; unfold cc2__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3Runs.lean ====
/-
  Region 3 (pooling and the head), what its three control cases share. One block of 5000 rows per grid point:
  the two accumulators (per-graph feature sums, 64x128, and per-graph node counts, 64x1) are zeroed at the first
  point, every point adds its block's one-hot products to them, and the last point divides, applies the two dense
  layers and stores the 1x64 result. Here: each window's block at a point (at a parameter `V`, what the
  TensorCore's buffers hold when the region is entered), the two branch conditions in closed form, where the
  output window is idle, the accumulators as memrefs, and the region invariant with the accumulators split off.
-/
import proofs.«422429_j3118146257467_1_alg».proof.Proof.Gen.Kernel.Launch
import proofs.«422429_j3118146257467_1_alg».proof.Proof.Gen.Kernel.Skeleton
import proofs.«422429_j3118146257467_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of aggregated rows: its staging buffer holds the block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row: fetched once, its staging buffer holds it at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The block of graph ids: its staging buffer holds the block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The first dense layer's weights: fetched once, held at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The first dense layer's bias: fetched once, held at every point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The second dense layer's weights: fetched once, held at every point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The second dense layer's bias: fetched once, held at every point. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions -/

/-- The reset's condition (the grid coordinate is 0), as the body computes it. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The head's condition (the grid coordinate is 19). -/
abbrev cond3_1 (i : grid3.Coords) : Prop := k3_cond2 i = 1#1
/-- It holds at the last point only. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
/-- Away from the last point the output window is idle: nothing is stored into it, -/
theorem idleAt3_7 : ∀ t : Fin cfg3.N, ¬cond3_1 (grid3.coords t) → cfg3.idle 7 (grid3.coords t) = true := by decide +kernel
/-- and its block is not written back. -/
theorem noFlush3_7 : ∀ t : Fin cfg3.N, ¬cond3_1 (grid3.coords t) → (cfg3.win 7).flush t = false := by decide +kernel
/-- At the last point it is live. -/
theorem liveAt3_7 : ∀ t : Fin cfg3.N, cond3_1 (grid3.coords t) → cfg3.idle 7 (grid3.coords t) = false := by decide +kernel

/-! ## The output's buffer and the accumulators -/

/-- One staging buffer of the output window, through which its contents are stated. -/
abbrev VO3_7 : View sig .tc .vmem S1x64 .f32 := (Memref.whole cc3_stg7_0 : Memref sig .tc .vmem S1x64 .f32).view
/-- The accumulator of feature sums, a whole scoped buffer of the kernel's own, -/
abbrev scM3_0 : Memref sig .tc .vmem S64x128 .f32 := Memref.whole cc3_scratch0
/-- and the accumulator of node counts. -/
abbrev scM3_1 : Memref sig .tc .vmem S64x1 .f32 := Memref.whole cc3_scratch1
abbrev VS3_0 : View sig .tc .vmem S64x128 .f32 := scM3_0.view
abbrev VS3_1 : View sig .tc .vmem S64x1 .f32 := scM3_1.view

/-- Every scoped buffer of the core that is neither a staging buffer of this pipeline nor one of the two accumulators,
    at some contents each: carried through the region unopened. -/
abbrev Rest3 (c : Dev nD) : sProp 𝕄 :=
  Pipeline.scopedRestBut (Ix := Unit) (Name := ℕ) (U := UR sig nD τ) (Lvl := ℕ) (Val := Elt F) spec3 c [cc3_scratch0, cc3_scratch1]

/-- The scoped rest split at the two accumulators. -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f))
          ∗ Rest3 (F := F) c) :=
  Pipeline.scopedRest_split_of_list spec3 c [cc3_scratch0, cc3_scratch1] (by decide) (by decide)

/-- The region invariant as the launch hands it over, with the accumulators as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ Rest3 (F := F) c) ∗ (∃ r, prngReg c r)) := by
  unfold Pipeline.ΦA; rw [scopedRest3_split]; simp only [scM3_0, scM3_1, owns_whole]; try rfl

end Cert.Kernel.Hand

end
-- ==== Proof.K.Reg3RunA.lean ====
/-
  Region 3, the first point's run: the accumulators are zeroed, then this block's one-hot products are added and
  stored back; the output window is left alone. The pieces each accumulator ends with are what the run finds.
-/
import proofs.«422429_j3118146257467_1_alg».proof.Proof.K.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (reset taken, head not taken). On whole memrefs — the block of rows, the bias and the block of graph ids at their contents, the accumulators at anything — the body runs to the continuation holding the three inputs as they were and each accumulator with its pieces written (last first). The other operands are not touched. -/
noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S64x128 .f32) (harg9 : arg9.IsWhole) (arg10 : Memref sig .tc .vmem S64x1 .f32) (harg10 : arg10.IsWhole) (hc0 : cond3_0 i) (hc1 : ¬cond3_1 i)
    (x0 : Vec F S5000x128 .f32) (x1 : Vec F S1x128 .f32) (x2 : Vec F S5000x1 .i32) :
    Σ' (L7 : List (View.Piece (Elt F) S1x64 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨[], ?_, ?_, fun E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.Reg3RunB.lean ====
/-
  Region 3, a middle point's run: this block's one-hot products are added to the accumulators as the point before
  left them, and stored back; the output window is left alone.
-/
import proofs.«422429_j3118146257467_1_alg».proof.Proof.K.Reg3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (reset not taken, head not taken). On whole memrefs — the block of rows, the bias and the block of graph ids at their contents, the accumulators at what the point before left — the body runs to the continuation holding the three inputs as they were and each accumulator with its pieces written (last first). The other operands are not touched. -/
noncomputable def kernelRun3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S64x128 .f32) (harg9 : arg9.IsWhole) (arg10 : Memref sig .tc .vmem S64x1 .f32) (harg10 : arg10.IsWhole) (hc0 : ¬cond3_0 i) (hc1 : ¬cond3_1 i)
    (x0 : Vec F S5000x128 .f32) (x1 : Vec F S1x128 .f32) (x2 : Vec F S5000x1 .i32) (xs0 : Vec F S64x128 .f32) (xs1 : Vec F S64x1 .f32) :
    Σ' (L7 : List (View.Piece (Elt F) S1x64 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨[], ?_, ?_, fun E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.Reg3RunC.lean ====
/-
  Region 3, the last point's run: this block's one-hot products are added to the accumulators as the point before
  left them and stored back; then the sums are divided by the counts, the two dense layers applied, and the 1x64
  result stored into the output window's buffer.
-/
import proofs.«422429_j3118146257467_1_alg».proof.Proof.K.Reg3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (reset not taken, head taken). On whole memrefs — the seven inputs at their contents, the output's buffer at anything, the accumulators at what the point before left — the body runs to the continuation holding the inputs as they were, and the output's buffer and each accumulator with its pieces written (last first). -/
noncomputable def kernelRun3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S64x128 .f32) (harg9 : arg9.IsWhole) (arg10 : Memref sig .tc .vmem S64x1 .f32) (harg10 : arg10.IsWhole) (hc0 : ¬cond3_0 i) (hc1 : cond3_1 i)
    (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :
    Σ' (L7 : List (View.Piece (Elt F) S1x64 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.Kernel.Hand

end
-- ==== Proof.K.Reg3.lean ====
/-
  Region 3 (pooling and the head), the frame half. What each of the three control cases leaves in the output
  window's buffer and in the two accumulators (the pieces the case's run found, read back), the accumulation point
  by point (`outsAt3`), the region invariant that carries the accumulators between points, the pipeline's proof
  data, and the body obligation; then the value equations: each found piece opened into the body's arithmetic.
-/
import proofs.«422429_j3118146257467_1_alg».proof.Proof.K.Reg3RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The point's memrefs -/

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x64 .f32 := win3_7.stage (cfg3.slots t 7)
abbrev hs3_7 (t : Fin cfg3.N) : (ms3_7 t).IsWhole := hstage3_7 ((cfg3.slots t 7).cast nbuf3_7)

/-! ## What each case leaves -/

/-- The run of the first point at the point's own staging memrefs and the two accumulators. -/
abbrev runAt3_A (c : Dev nD) (t : Fin cfg3.N) (h0 : cond3_0 (grid3.coords t)) (h1 : ¬cond3_1 (grid3.coords t)) (x0 : Vec F S5000x128 .f32) (x1 : Vec F S1x128 .f32) (x2 : Vec F S5000x1 .i32) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) h0 h1 x0 x1 x2

/-- The pieces the first point stores into the accumulator of sums cover it, -/
theorem scover3_A_0 (c : Dev nD) (t : Fin cfg3.N) (h0 : cond3_0 (grid3.coords t)) (h1 : ¬cond3_1 (grid3.coords t)) (x0 : Vec F S5000x128 .f32) (x1 : Vec F S1x128 .f32) (x2 : Vec F S5000x1 .i32) (y : S64x128.Idx) :
    ∃ pc ∈ (runAt3_A c t h0 h1 x0 x1 x2).2.1, y ∈ pc.1.set :=
  View.cover_of_tiledL (runAt3_A c t h0 h1 x0 x1 x2).2.1 S64x128.size (by sl_kernel_rfl) y

/-- and so do those it stores into the accumulator of counts. -/
theorem scover3_A_1 (c : Dev nD) (t : Fin cfg3.N) (h0 : cond3_0 (grid3.coords t)) (h1 : ¬cond3_1 (grid3.coords t)) (x0 : Vec F S5000x128 .f32) (x1 : Vec F S1x128 .f32) (x2 : Vec F S5000x1 .i32) (y : S64x1.Idx) :
    ∃ pc ∈ (runAt3_A c t h0 h1 x0 x1 x2).2.2.1, y ∈ pc.1.set :=
  View.cover_of_tiledL (runAt3_A c t h0 h1 x0 x1 x2).2.2.1 S64x1.size (by sl_kernel_rfl) y

/-- What the first point leaves in the accumulator of sums: its pieces read back. -/
def sout3_A_0 (c : Dev nD) (t : Fin cfg3.N) (h0 : cond3_0 (grid3.coords t)) (h1 : ¬cond3_1 (grid3.coords t)) (x0 : Vec F S5000x128 .f32) (x1 : Vec F S1x128 .f32) (x2 : Vec F S5000x1 .i32) : Vec F S64x128 .f32 :=
  VS3_0.read (Elt F) (VS3_0.writes (Elt F) VS3_0.junk (runAt3_A c t h0 h1 x0 x1 x2).2.1)

/-- What the first point leaves in the accumulator of counts. -/
def sout3_A_1 (c : Dev nD) (t : Fin cfg3.N) (h0 : cond3_0 (grid3.coords t)) (h1 : ¬cond3_1 (grid3.coords t)) (x0 : Vec F S5000x128 .f32) (x1 : Vec F S1x128 .f32) (x2 : Vec F S5000x1 .i32) : Vec F S64x1 .f32 :=
  VS3_1.read (Elt F) (VS3_1.writes (Elt F) VS3_1.junk (runAt3_A c t h0 h1 x0 x1 x2).2.2.1)

/-- The run of a middle point at the point's own staging memrefs and the two accumulators. -/
abbrev runAt3_B (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) h0 h1 x0 x1 x2 xs0 xs1

/-- The pieces a middle point stores into the accumulator of sums cover it, -/
theorem scover3_B_0 (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) (y : S64x128.Idx) :
    ∃ pc ∈ (runAt3_B c t h0 h1 x0 x1 x2 xs0 xs1).2.1, y ∈ pc.1.set :=
  View.cover_of_tiledL (runAt3_B c t h0 h1 x0 x1 x2 xs0 xs1).2.1 S64x128.size (by sl_kernel_rfl) y

/-- and so do those it stores into the accumulator of counts. -/
theorem scover3_B_1 (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) (y : S64x1.Idx) :
    ∃ pc ∈ (runAt3_B c t h0 h1 x0 x1 x2 xs0 xs1).2.2.1, y ∈ pc.1.set :=
  View.cover_of_tiledL (runAt3_B c t h0 h1 x0 x1 x2 xs0 xs1).2.2.1 S64x1.size (by sl_kernel_rfl) y

/-- What a middle point leaves in the accumulator of sums: its pieces read back. -/
def sout3_B_0 (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) : Vec F S64x128 .f32 :=
  VS3_0.read (Elt F) (VS3_0.writes (Elt F) VS3_0.junk (runAt3_B c t h0 h1 x0 x1 x2 xs0 xs1).2.1)

/-- What a middle point leaves in the accumulator of counts. -/
def sout3_B_1 (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) : Vec F S64x1 .f32 :=
  VS3_1.read (Elt F) (VS3_1.writes (Elt F) VS3_1.junk (runAt3_B c t h0 h1 x0 x1 x2 xs0 xs1).2.2.1)

/-- The run of the last point at the point's own staging memrefs and the two accumulators. -/
abbrev runAt3_C (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) h0 h1 x0 x1 x2 x3 x4 x5 x6 xs0 xs1

/-- At the last point the pieces stored into the output's buffer cover it. -/
theorem cover3_C_7 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) (y : S1x64.Idx) :
    ∃ pc ∈ (runAt3_C c t h0 h1 x0 x1 x2 x3 x4 x5 x6 xs0 xs1).1, y ∈ pc.1.set :=
  View.cover_of_tiledL (runAt3_C c t h0 h1 x0 x1 x2 x3 x4 x5 x6 xs0 xs1).1 S1x64.size (by sl_kernel_rfl) y

/-- What the last point leaves in the output's buffer: its pieces read back. -/
def out3_C_7 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) : Vec F S1x64 .f32 :=
  VO3_7.read (Elt F) (VO3_7.writes (Elt F) VO3_7.junk (runAt3_C c t h0 h1 x0 x1 x2 x3 x4 x5 x6 xs0 xs1).1)

/-- The pieces the last point stores into the accumulator of sums cover it, -/
theorem scover3_C_0 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) (y : S64x128.Idx) :
    ∃ pc ∈ (runAt3_C c t h0 h1 x0 x1 x2 x3 x4 x5 x6 xs0 xs1).2.1, y ∈ pc.1.set :=
  View.cover_of_tiledL (runAt3_C c t h0 h1 x0 x1 x2 x3 x4 x5 x6 xs0 xs1).2.1 S64x128.size (by sl_kernel_rfl) y

/-- and so do those it stores into the accumulator of counts. -/
theorem scover3_C_1 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) (y : S64x1.Idx) :
    ∃ pc ∈ (runAt3_C c t h0 h1 x0 x1 x2 x3 x4 x5 x6 xs0 xs1).2.2.1, y ∈ pc.1.set :=
  View.cover_of_tiledL (runAt3_C c t h0 h1 x0 x1 x2 x3 x4 x5 x6 xs0 xs1).2.2.1 S64x1.size (by sl_kernel_rfl) y

/-- What the last point leaves in the accumulator of sums: its pieces read back. -/
def sout3_C_0 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) : Vec F S64x128 .f32 :=
  VS3_0.read (Elt F) (VS3_0.writes (Elt F) VS3_0.junk (runAt3_C c t h0 h1 x0 x1 x2 x3 x4 x5 x6 xs0 xs1).2.1)

/-- What the last point leaves in the accumulator of counts. -/
def sout3_C_1 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) : Vec F S64x1 .f32 :=
  VS3_1.read (Elt F) (VS3_1.writes (Elt F) VS3_1.junk (runAt3_C c t h0 h1 x0 x1 x2 x3 x4 x5 x6 xs0 xs1).2.2.1)

/-! ## What the output's buffer and the accumulators hold after each point -/

/-- The first point is not the last. -/
theorem ncond3_1_of_zero (t : Fin cfg3.N) (h : t.val = 0) : ¬cond3_1 (grid3.coords t) := fun hc => by
  have h' := (hcond3_1 t).mp hc; omega
/-- A later point is not the first. -/
theorem ncond3_0_of_pos (t : Fin cfg3.N) (h : t.val ≠ 0) : ¬cond3_0 (grid3.coords t) := fun hc => h ((hcond3_0 t).mp hc)
/-- A point other than 19 is not the last. -/
theorem ncond3_1_of_ne (t : Fin cfg3.N) (h : t.val ≠ 19) : ¬cond3_1 (grid3.coords t) := fun hc => h ((hcond3_1 t).mp hc)

/-- The output's buffer where nothing was stored into it: a placeholder nothing consults (the window is idle and
    not written back at those points). -/
abbrev idle3_7 : Vec F S1x64 .f32 := VO3_7.read (Elt F) VO3_7.junk

/-- THE ACCUMULATION. After the body at position `n`: (the output window's buffer, the accumulator of sums, the
    accumulator of counts) — the case of the point, run at the point's blocks, the accumulators at what position
    `n - 1` left. -/
def outsAt3 (c : Dev nD) : (n : ℕ) → n < cfg3.N → Vec F S1x64 .f32 × Vec F S64x128 .f32 × Vec F S64x1 .f32
  | 0, hn =>
    (idle3_7,
     sout3_A_0 c ⟨0, hn⟩ ((hcond3_0 ⟨0, hn⟩).mpr rfl) (ncond3_1_of_zero ⟨0, hn⟩ rfl) (iblk3 V c 0 ⟨0, hn⟩) (iblk3 V c 1 ⟨0, hn⟩) (iblk3 V c 2 ⟨0, hn⟩),
     sout3_A_1 c ⟨0, hn⟩ ((hcond3_0 ⟨0, hn⟩).mpr rfl) (ncond3_1_of_zero ⟨0, hn⟩ rfl) (iblk3 V c 0 ⟨0, hn⟩) (iblk3 V c 1 ⟨0, hn⟩) (iblk3 V c 2 ⟨0, hn⟩))
  | n + 1, hn =>
    if h1 : n + 1 = 19 then
      (out3_C_7 c ⟨n + 1, hn⟩ (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.1 (outsAt3 c n (Nat.lt_of_succ_lt hn)).2.2,
       sout3_C_0 c ⟨n + 1, hn⟩ (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.1 (outsAt3 c n (Nat.lt_of_succ_lt hn)).2.2,
       sout3_C_1 c ⟨n + 1, hn⟩ (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.1 (outsAt3 c n (Nat.lt_of_succ_lt hn)).2.2)
    else
      (idle3_7,
       sout3_B_0 c ⟨n + 1, hn⟩ (ncond3_0_of_pos ⟨n + 1, hn⟩ (Nat.succ_ne_zero n)) (ncond3_1_of_ne ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2,
       sout3_B_1 c ⟨n + 1, hn⟩ (ncond3_0_of_pos ⟨n + 1, hn⟩ (Nat.succ_ne_zero n)) (ncond3_1_of_ne ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2)

/-- `outsAt3` at the first point. -/
theorem outsAt3_A (c : Dev nD) (t : Fin cfg3.N) (h0 : t.val = 0) :
    outsAt3 V c t.val t.isLt = (idle3_7,
      sout3_A_0 c t ((hcond3_0 t).mpr h0) (ncond3_1_of_zero t h0) (iblk3 V c 0 t) (iblk3 V c 1 t) (iblk3 V c 2 t),
      sout3_A_1 c t ((hcond3_0 t).mpr h0) (ncond3_1_of_zero t h0) (iblk3 V c 0 t) (iblk3 V c 1 t) (iblk3 V c 2 t)) := by
  obtain ⟨n, hn⟩ := t
  cases n with
  | zero => exact rfl
  | succ n => exact absurd h0 (Nat.succ_ne_zero n)

/-- `outsAt3` at a middle point, over what the point before left. -/
theorem outsAt3_B (c : Dev nD) (t : Fin cfg3.N) (h0 : t.val ≠ 0) (h1 : t.val ≠ 19) :
    outsAt3 V c t.val t.isLt = (idle3_7,
      sout3_B_0 c t (ncond3_0_of_pos t h0) (ncond3_1_of_ne t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_1 c t (ncond3_0_of_pos t h0) (ncond3_1_of_ne t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt3` at the last point, over what the point before left. -/
theorem outsAt3_C (c : Dev nD) (t : Fin cfg3.N) (h0 : t.val ≠ 0) (h1 : t.val = 19) :
    outsAt3 V c t.val t.isLt = (
      out3_C_7 c t (ncond3_0_of_pos t h0) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_0 c t (ncond3_0_of_pos t h0) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_1 c t (ncond3_0_of_pos t h0) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant, point by point -/

/-- Before position `n`: at the first point what the launch hands over (both accumulators at anything); afterwards the
    accumulators at what the point before left in them, the other scoped buffers unopened, the generator register at
    some state. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.1 ∗ owns (c : Thread nD τ) scM3_1 fullShare (outsAt3 V c n hn).2.2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.1 ∗ owns (c : Thread nD τ) scM3_1 fullShare (outsAt3 V c n hn).2.2) ∗ Rest3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.1 ∗ owns (c : Thread nD τ) scM3_1 fullShare (outsAt3 V c (n - 1) (by omega)).2.2) ∗ Rest3 (F := F) c) ∗ (∃ r, prngReg c r)) := by
  cases n with
  | zero => exact absurd rfl hz
  | succ n => rfl

/-! ## The pipeline's proof data -/

/-- The proof data of pipeline 3 on core `c`: the arrays as the region finds them; after the body each input's
    buffer at its block and the output's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point. The inputs' memrefs hold their blocks; the point is the first, a middle or the last one;
    that case's run applies; the invariant hands the body the accumulators at what the point before left (at anything
    at the first point) and takes them back at this point's contents; away from the last point the output's buffer
    is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  have hN : t.val < 20 := lt_of_lt_of_eq t.isLt (show cfg3.N = 20 from N_3)
  by_cases h0 : t.val = 0
  · have hc0 : cond3_0 (grid3.coords t) := (hcond3_0 t).mpr h0
    have hc1 : ¬cond3_1 (grid3.coords t) := ncond3_1_of_zero t h0
    rw [Dat.leavesExact_idle (dat3 V c) 7 t (idleAt3_7 t hc1) (noFlush3_7 t hc1)]
    rw [outsAt3_A V c t h0]
    unfold sout3_A_0 sout3_A_1; (try dsimp only)
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runAt3_A c t hc0 hc1 (iblk3 V c 0 t) (iblk3 V c 1 t) (iblk3 V c 2 t)).2.2.2 Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_A_0 c t hc0 hc1 _ _ _)
          unfold owns; iexists _; isplitr
          swap; · iexact HS1
          ipureintro; exact View.read_writes_of_cover _ _ _ _ _ (scover3_A_1 c t hc0 hc1 _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond3_0 (grid3.coords t) := ncond3_0_of_pos t h0
    by_cases h1 : t.val = 19
    · have hc1 : cond3_1 (grid3.coords t) := (hcond3_1 t).mpr h1
      rw [show (dat3 V c).leavesExact 7 t = owns (c : Thread nD τ) (ms3_7 t) fullShare ((dat3 V c).after 7 t) from by
        unfold Dat.leavesExact; rw [liveAt3_7 t hc1], after3_7]
      rw [outsAt3_C V c t h0 h1]
      unfold out3_C_7 sout3_C_0 sout3_C_1; (try dsimp only)
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt3_C c t hc0 hc1 (iblk3 V c 0 t) (iblk3 V c 1 t) (iblk3 V c 2 t) (iblk3 V c 3 t) (iblk3 V c 4 t) (iblk3 V c 5 t) (iblk3 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 c t hc0 hc1 _ _ _ _ _ _ _ _ _)
            unfold owns; iexists _; isplitr
            swap; · iexact HS1
            ipureintro; exact View.read_writes_of_cover _ _ _ _ _ (scover3_C_1 c t hc0 hc1 _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover3_C_7 c t hc0 hc1 _ _ _ _ _ _ _ _ _)
    · have hc1 : ¬cond3_1 (grid3.coords t) := ncond3_1_of_ne t h1
      rw [Dat.leavesExact_idle (dat3 V c) 7 t (idleAt3_7 t hc1) (noFlush3_7 t hc1)]
      rw [outsAt3_B V c t h0 h1]
      unfold sout3_B_0 sout3_B_1; (try dsimp only)
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt3_B c t hc0 hc1 (iblk3 V c 0 t) (iblk3 V c 1 t) (iblk3 V c 2 t) _ _).2.2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 c t hc0 hc1 _ _ _ _ _)
            unfold owns; iexists _; isplitr
            swap; · iexact HS1
            ipureintro; exact View.read_writes_of_cover _ _ _ _ _ (scover3_B_1 c t hc0 hc1 _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the launch's form back: the accumulators' contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

/-! ## The value equations: each found piece opened into the body's arithmetic -/

/-- The offset (0, 0) is the zero offset. -/
theorem hz3 : (![0, 0] : Fin 2 → ℕ) = fun _ => 0 := by funext a; fin_cases a <;> rfl

/-- The first point leaves in the accumulator of sums the block's products added to zero: the reset is overwritten by the update, which read the reset back. -/
theorem sout3_A_0_eq (c : Dev nD) (t : Fin cfg3.N) (h0 : cond3_0 (grid3.coords t)) (h1 : ¬cond3_1 (grid3.coords t)) (x0 : Vec F S5000x128 .f32) (x1 : Vec F S1x128 .f32) (x2 : Vec F S5000x1 .i32) :
    sout3_A_0 c t h0 h1 x0 x1 x2 = k3_pay5 x0 x1 x2 (k3_pay2 (F := F)) := by
  unfold sout3_A_0
  rw [View.read_writes_eq_canon _ _ _ (scover3_A_0 c t h0 h1 x0 x1 x2)]
  unfold runAt3_A kernelRun3_A
  dsimp only
  sl_unfold_words
  rw [View.canon_cons_unit_zero (S := S64x128) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The same for the accumulator of counts. -/
theorem sout3_A_1_eq (c : Dev nD) (t : Fin cfg3.N) (h0 : cond3_0 (grid3.coords t)) (h1 : ¬cond3_1 (grid3.coords t)) (x0 : Vec F S5000x128 .f32) (x1 : Vec F S1x128 .f32) (x2 : Vec F S5000x1 .i32) :
    sout3_A_1 c t h0 h1 x0 x1 x2 = k3_pay6 x2 (k3_pay3 (F := F)) := by
  unfold sout3_A_1
  rw [View.read_writes_eq_canon _ _ _ (scover3_A_1 c t h0 h1 x0 x1 x2)]
  unfold runAt3_A kernelRun3_A
  dsimp only
  sl_unfold_words
  rw [View.canon_cons_unit_zero (S := S64x1) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- A middle point leaves in the accumulator of sums the block's products added to what it held. -/
theorem sout3_B_0_eq (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) :
    sout3_B_0 c t h0 h1 x0 x1 x2 xs0 xs1 = k3_pay5 x0 x1 x2 xs0 := by
  unfold sout3_B_0
  rw [View.read_writes_eq_canon _ _ _ (scover3_B_0 c t h0 h1 x0 x1 x2 xs0 xs1)]
  unfold runAt3_B kernelRun3_B
  dsimp only
  sl_unfold_words
  rw [View.canon_unit_zero (S := S64x128) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The same for the accumulator of counts. -/
theorem sout3_B_1_eq (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) :
    sout3_B_1 c t h0 h1 x0 x1 x2 xs0 xs1 = k3_pay6 x2 xs1 := by
  unfold sout3_B_1
  rw [View.read_writes_eq_canon _ _ _ (scover3_B_1 c t h0 h1 x0 x1 x2 xs0 xs1)]
  unfold runAt3_B kernelRun3_B
  dsimp only
  sl_unfold_words
  rw [View.canon_unit_zero (S := S64x1) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The last point leaves in the accumulator of sums the block's products added to what it held. -/
theorem sout3_C_0_eq (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :
    sout3_C_0 c t h0 h1 x0 x1 x2 x3 x4 x5 x6 xs0 xs1 = k3_pay5 x0 x1 x2 xs0 := by
  unfold sout3_C_0
  rw [View.read_writes_eq_canon _ _ _ (scover3_C_0 c t h0 h1 x0 x1 x2 x3 x4 x5 x6 xs0 xs1)]
  unfold runAt3_C kernelRun3_C
  dsimp only
  sl_unfold_words
  rw [View.canon_unit_zero (S := S64x128) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The same for the accumulator of counts. -/
theorem sout3_C_1_eq (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :
    sout3_C_1 c t h0 h1 x0 x1 x2 x3 x4 x5 x6 xs0 xs1 = k3_pay6 x2 xs1 := by
  unfold sout3_C_1
  rw [View.read_writes_eq_canon _ _ _ (scover3_C_1 c t h0 h1 x0 x1 x2 x3 x4 x5 x6 xs0 xs1)]
  unfold runAt3_C kernelRun3_C
  dsimp only
  sl_unfold_words
  rw [View.canon_unit_zero (S := S64x1) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The last point stores the head applied to the accumulators as it has just updated them (read back) and to the four small operands. -/
theorem out3_C_7_eq (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :
    out3_C_7 c t h0 h1 x0 x1 x2 x3 x4 x5 x6 xs0 xs1 = k3_pay1 (k3_pay5 x0 x1 x2 xs0) (k3_pay6 x2 xs1) x3 x4 x5 x6 := by
  unfold out3_C_7
  rw [View.read_writes_eq_canon _ _ _ (cover3_C_7 c t h0 h1 x0 x1 x2 x3 x4 x5 x6 xs0 xs1)]
  unfold runAt3_C kernelRun3_C
  dsimp only
  sl_unfold_words
  rw [View.canon_unit_zero (S := S1x64) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- After the first point the accumulators hold the first block's products added to zero. -/
theorem outsAt3_zero (c : Dev nD) (h : 0 < cfg3.N) : (outsAt3 V c 0 h).2 = (k3_pay5 (iblk3 V c 0 ⟨0, h⟩) (iblk3 V c 1 ⟨0, h⟩) (iblk3 V c 2 ⟨0, h⟩) (k3_pay2 (F := F)), k3_pay6 (iblk3 V c 2 ⟨0, h⟩) (k3_pay3 (F := F))) := by
  rw [show outsAt3 V c 0 h = outsAt3 V c (⟨0, h⟩ : Fin cfg3.N).val (⟨0, h⟩ : Fin cfg3.N).isLt from rfl, outsAt3_A V c ⟨0, h⟩ rfl]
  dsimp only
  rw [sout3_A_0_eq c ⟨0, h⟩ ((hcond3_0 ⟨0, h⟩).mpr rfl) (ncond3_1_of_zero ⟨0, h⟩ rfl) (iblk3 V c 0 ⟨0, h⟩) (iblk3 V c 1 ⟨0, h⟩) (iblk3 V c 2 ⟨0, h⟩),
    sout3_A_1_eq c ⟨0, h⟩ ((hcond3_0 ⟨0, h⟩).mpr rfl) (ncond3_1_of_zero ⟨0, h⟩ rfl) (iblk3 V c 0 ⟨0, h⟩) (iblk3 V c 1 ⟨0, h⟩) (iblk3 V c 2 ⟨0, h⟩)]

/-- After a later point they hold that block's products added to what the point before left. -/
theorem outsAt3_succ (c : Dev nD) (n : ℕ) (h : n + 1 < cfg3.N) : (outsAt3 V c (n + 1) h).2 = (k3_pay5 (iblk3 V c 0 ⟨n + 1, h⟩) (iblk3 V c 1 ⟨n + 1, h⟩) (iblk3 V c 2 ⟨n + 1, h⟩) (outsAt3 V c n (Nat.lt_of_succ_lt h)).2.1, k3_pay6 (iblk3 V c 2 ⟨n + 1, h⟩) (outsAt3 V c n (Nat.lt_of_succ_lt h)).2.2) := by
  by_cases h1 : n + 1 = 19
  · rw [show outsAt3 V c (n + 1) h = outsAt3 V c (⟨n + 1, h⟩ : Fin cfg3.N).val (⟨n + 1, h⟩ : Fin cfg3.N).isLt from rfl, outsAt3_C V c ⟨n + 1, h⟩ (Nat.succ_ne_zero n) h1]
    dsimp only
    rw [sout3_C_0_eq c ⟨n + 1, h⟩ (ncond3_0_of_pos ⟨n + 1, h⟩ (Nat.succ_ne_zero n)) ((hcond3_1 ⟨n + 1, h⟩).mpr h1) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) _ _,
      sout3_C_1_eq c ⟨n + 1, h⟩ (ncond3_0_of_pos ⟨n + 1, h⟩ (Nat.succ_ne_zero n)) ((hcond3_1 ⟨n + 1, h⟩).mpr h1) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) _ _]
    try rfl
  · rw [show outsAt3 V c (n + 1) h = outsAt3 V c (⟨n + 1, h⟩ : Fin cfg3.N).val (⟨n + 1, h⟩ : Fin cfg3.N).isLt from rfl, outsAt3_B V c ⟨n + 1, h⟩ (Nat.succ_ne_zero n) h1]
    dsimp only
    rw [sout3_B_0_eq c ⟨n + 1, h⟩ (ncond3_0_of_pos ⟨n + 1, h⟩ (Nat.succ_ne_zero n)) (ncond3_1_of_ne ⟨n + 1, h⟩ h1) (iblk3 V c 0 ⟨n + 1, h⟩) (iblk3 V c 1 ⟨n + 1, h⟩) (iblk3 V c 2 ⟨n + 1, h⟩) _ _,
      sout3_B_1_eq c ⟨n + 1, h⟩ (ncond3_0_of_pos ⟨n + 1, h⟩ (Nat.succ_ne_zero n)) (ncond3_1_of_ne ⟨n + 1, h⟩ h1) (iblk3 V c 0 ⟨n + 1, h⟩) (iblk3 V c 1 ⟨n + 1, h⟩) (iblk3 V c 2 ⟨n + 1, h⟩) _ _]
    try rfl

/-- After the last point the output's buffer holds the head applied to the accumulators as that point left them. -/
theorem outsAt3_last (c : Dev nD) (h : 19 < cfg3.N) : (outsAt3 V c 19 h).1 = k3_pay1 (outsAt3 V c 19 h).2.1 (outsAt3 V c 19 h).2.2 (iblk3 V c 3 ⟨19, h⟩) (iblk3 V c 4 ⟨19, h⟩) (iblk3 V c 5 ⟨19, h⟩) (iblk3 V c 6 ⟨19, h⟩) := by
  rw [show outsAt3 V c 19 h = outsAt3 V c (⟨19, h⟩ : Fin cfg3.N).val (⟨19, h⟩ : Fin cfg3.N).isLt from rfl, outsAt3_C V c ⟨19, h⟩ (Nat.succ_ne_zero 18) rfl]
  dsimp only
  rw [out3_C_7_eq c ⟨19, h⟩ (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (iblk3 V c 5 ⟨19, h⟩) (iblk3 V c 6 ⟨19, h⟩) _ _,
    sout3_C_0_eq c ⟨19, h⟩ (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (iblk3 V c 5 ⟨19, h⟩) (iblk3 V c 6 ⟨19, h⟩) _ _,
    sout3_C_1_eq c ⟨19, h⟩ (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (iblk3 V c 5 ⟨19, h⟩) (iblk3 V c 6 ⟨19, h⟩) _ _]

end Cert.Kernel.Hand

end
-- ==== Proof.K.Fold.lean ====
/-
  What the TensorCore's unscoped buffers hold at every boundary between @main's items, from the launch memory `m`:
  a host stretch applies its operations; a kernel region leaves each of its arrays at what its pipeline's write-backs
  fold to and every other buffer as it found it.
-/
import proofs.«422429_j3118146257467_1_alg».proof.Proof.Gen.Kernel.Launch
import proofs.«422429_j3118146257467_1_alg».proof.Proof.Gen.Kernel.Skeleton
import proofs.«422429_j3118146257467_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«422429_j3118146257467_1_alg».proof.Proof.K.Reg0
import proofs.«422429_j3118146257467_1_alg».proof.Proof.K.Reg1
import proofs.«422429_j3118146257467_1_alg».proof.Proof.K.Reg2
import proofs.«422429_j3118146257467_1_alg».proof.Proof.K.Reg3
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m ((c : Dev nD), b)
/-- After the first three host stretches (region 0's entry). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the message passing of layer 0 (region 1's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the message passing of layer 1 (region 2's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At region 2's exit. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the message passing of layer 2 (region 3's entry). -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- At region 3's exit. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-- At the return (after the final reshape). -/
abbrev W11 : Dev nD → Valuation τ sig (Elt F) := fun c => StableHlo.after hostOps4 (W10 m c)

end Cert.Kernel.Hand

end
-- ==== Proof.K.Run.lean ====
/-
  The launch: @main as eleven segments (seven stretches of host operations, four kernel regions), the thread state
  carried across them, and what the run leaves in the TensorCore's unscoped buffers.
-/
import proofs.«422429_j3118146257467_1_alg».proof.Proof.K.Fold
import proofs.«422429_j3118146257467_1_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer no operation of a stretch writes is left as the stretch found it -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W2_keep (c : Dev nD) (r : Ref sig .tc) (h : r ∉ hostOps0_1_W) : W2 m c (Proc.devRef .tc r) = W1 m c (Proc.devRef .tc r) :=
  StableHlo.after_of_writes_sub hostOps0_1 _ hostOps0_1_writes h
theorem W3_keep (c : Dev nD) (r : Ref sig .tc) (h : r ∉ hostOps0_2_W) : W3 m c (Proc.devRef .tc r) = W2 m c (Proc.devRef .tc r) :=
  StableHlo.after_of_writes_sub hostOps0_2 _ hostOps0_2_writes h
theorem W5_keep (c : Dev nD) (r : Ref sig .tc) (h : r ∉ hostOps1_W) : W5 m c (Proc.devRef .tc r) = W4 m c (Proc.devRef .tc r) :=
  StableHlo.after_of_writes_sub hostOps1 _ hostOps1_writes h
theorem W7_keep (c : Dev nD) (r : Ref sig .tc) (h : r ∉ hostOps2_W) : W7 m c (Proc.devRef .tc r) = W6 m c (Proc.devRef .tc r) :=
  StableHlo.after_of_writes_sub hostOps2 _ hostOps2_writes h
theorem W9_keep (c : Dev nD) (r : Ref sig .tc) (h : r ∉ hostOps3_W) : W9 m c (Proc.devRef .tc r) = W8 m c (Proc.devRef .tc r) :=
  StableHlo.after_of_writes_sub hostOps3 _ hostOps3_writes h
theorem W11_keep (c : Dev nD) (r : Ref sig .tc) (h : r ∉ hostOps4_W) : W11 m c (Proc.devRef .tc r) = W10 m c (Proc.devRef .tc r) :=
  StableHlo.after_of_writes_sub hostOps4 _ hostOps4_writes h

/-- The three stretches before the first region leave a buffer none of them writes at its launch contents. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_keep m c r h2).trans <| (W2_keep m c r h1).trans <| (W1_keep m c r h0).trans rfl

/-! ## Every argument ends at its launch contents

No host operation writes an argument; a region reads one through an input window (whose array the pipeline
leaves as entered) or does not touch it. -/
theorem W11_main_arg0 (c : Dev nD) : W11 m c (Proc.devRef .tc main_arg0) = m ((c : Thread nD τ).loc main_arg0) :=
  (W11_keep m c main_arg0 (by decide)).trans <|
    (W10_of_ne m c main_arg0 (by decide)).trans <|
    (W9_keep m c main_arg0 (by decide)).trans <|
    (W8_of_ne m c main_arg0 (by decide)).trans <|
    (W7_keep m c main_arg0 (by decide)).trans <|
    (W6_of_ne m c main_arg0 (by decide)).trans <|
    (W5_keep m c main_arg0 (by decide)).trans <|
    ((W4_arr m c 0).trans (((dat0 (V3 m) c).arrAt_in 0 rfl _).trans (A_eq0 (V3 m) c 0))).trans <|
    W3_launch m c main_arg0 (by decide) (by decide) (by decide)
theorem W11_main_arg1 (c : Dev nD) : W11 m c (Proc.devRef .tc main_arg1) = m ((c : Thread nD τ).loc main_arg1) :=
  (W11_keep m c main_arg1 (by decide)).trans <|
    (W10_of_ne m c main_arg1 (by decide)).trans <|
    (W9_keep m c main_arg1 (by decide)).trans <|
    (W8_of_ne m c main_arg1 (by decide)).trans <|
    (W7_keep m c main_arg1 (by decide)).trans <|
    (W6_of_ne m c main_arg1 (by decide)).trans <|
    (W5_keep m c main_arg1 (by decide)).trans <|
    (W4_of_ne m c main_arg1 (by decide)).trans <|
    W3_launch m c main_arg1 (by decide) (by decide) (by decide)
theorem W11_main_arg2 (c : Dev nD) : W11 m c (Proc.devRef .tc main_arg2) = m ((c : Thread nD τ).loc main_arg2) :=
  (W11_keep m c main_arg2 (by decide)).trans <|
    (W10_of_ne m c main_arg2 (by decide)).trans <|
    (W9_keep m c main_arg2 (by decide)).trans <|
    (W8_of_ne m c main_arg2 (by decide)).trans <|
    (W7_keep m c main_arg2 (by decide)).trans <|
    (W6_of_ne m c main_arg2 (by decide)).trans <|
    (W5_keep m c main_arg2 (by decide)).trans <|
    (W4_of_ne m c main_arg2 (by decide)).trans <|
    W3_launch m c main_arg2 (by decide) (by decide) (by decide)
theorem W11_main_arg3 (c : Dev nD) : W11 m c (Proc.devRef .tc main_arg3) = m ((c : Thread nD τ).loc main_arg3) :=
  (W11_keep m c main_arg3 (by decide)).trans <|
    (W10_of_ne m c main_arg3 (by decide)).trans <|
    (W9_keep m c main_arg3 (by decide)).trans <|
    (W8_of_ne m c main_arg3 (by decide)).trans <|
    (W7_keep m c main_arg3 (by decide)).trans <|
    (W6_of_ne m c main_arg3 (by decide)).trans <|
    (W5_keep m c main_arg3 (by decide)).trans <|
    (W4_of_ne m c main_arg3 (by decide)).trans <|
    W3_launch m c main_arg3 (by decide) (by decide) (by decide)
theorem W11_main_arg4 (c : Dev nD) : W11 m c (Proc.devRef .tc main_arg4) = m ((c : Thread nD τ).loc main_arg4) :=
  (W11_keep m c main_arg4 (by decide)).trans <|
    (W10_of_ne m c main_arg4 (by decide)).trans <|
    (W9_keep m c main_arg4 (by decide)).trans <|
    (W8_of_ne m c main_arg4 (by decide)).trans <|
    (W7_keep m c main_arg4 (by decide)).trans <|
    (W6_of_ne m c main_arg4 (by decide)).trans <|
    (W5_keep m c main_arg4 (by decide)).trans <|
    (W4_of_ne m c main_arg4 (by decide)).trans <|
    W3_launch m c main_arg4 (by decide) (by decide) (by decide)
theorem W11_main_arg5 (c : Dev nD) : W11 m c (Proc.devRef .tc main_arg5) = m ((c : Thread nD τ).loc main_arg5) :=
  (W11_keep m c main_arg5 (by decide)).trans <|
    ((W10_arr m c 3).trans (((dat3 (V9 m) c).arrAt_in 3 rfl _).trans (A_eq3 (V9 m) c 3))).trans <|
    (W9_keep m c main_arg5 (by decide)).trans <|
    (W8_of_ne m c main_arg5 (by decide)).trans <|
    (W7_keep m c main_arg5 (by decide)).trans <|
    (W6_of_ne m c main_arg5 (by decide)).trans <|
    (W5_keep m c main_arg5 (by decide)).trans <|
    (W4_of_ne m c main_arg5 (by decide)).trans <|
    W3_launch m c main_arg5 (by decide) (by decide) (by decide)
theorem W11_main_arg6 (c : Dev nD) : W11 m c (Proc.devRef .tc main_arg6) = m ((c : Thread nD τ).loc main_arg6) :=
  (W11_keep m c main_arg6 (by decide)).trans <|
    (W10_of_ne m c main_arg6 (by decide)).trans <|
    (W9_keep m c main_arg6 (by decide)).trans <|
    (W8_of_ne m c main_arg6 (by decide)).trans <|
    (W7_keep m c main_arg6 (by decide)).trans <|
    (W6_of_ne m c main_arg6 (by decide)).trans <|
    (W5_keep m c main_arg6 (by decide)).trans <|
    (W4_of_ne m c main_arg6 (by decide)).trans <|
    W3_launch m c main_arg6 (by decide) (by decide) (by decide)
theorem W11_main_arg7 (c : Dev nD) : W11 m c (Proc.devRef .tc main_arg7) = m ((c : Thread nD τ).loc main_arg7) :=
  (W11_keep m c main_arg7 (by decide)).trans <|
    ((W10_arr m c 5).trans (((dat3 (V9 m) c).arrAt_in 5 rfl _).trans (A_eq3 (V9 m) c 5))).trans <|
    (W9_keep m c main_arg7 (by decide)).trans <|
    (W8_of_ne m c main_arg7 (by decide)).trans <|
    (W7_keep m c main_arg7 (by decide)).trans <|
    (W6_of_ne m c main_arg7 (by decide)).trans <|
    (W5_keep m c main_arg7 (by decide)).trans <|
    (W4_of_ne m c main_arg7 (by decide)).trans <|
    W3_launch m c main_arg7 (by decide) (by decide) (by decide)
theorem W11_main_arg8 (c : Dev nD) : W11 m c (Proc.devRef .tc main_arg8) = m ((c : Thread nD τ).loc main_arg8) :=
  (W11_keep m c main_arg8 (by decide)).trans <|
    (W10_of_ne m c main_arg8 (by decide)).trans <|
    (W9_keep m c main_arg8 (by decide)).trans <|
    (W8_of_ne m c main_arg8 (by decide)).trans <|
    (W7_keep m c main_arg8 (by decide)).trans <|
    (W6_of_ne m c main_arg8 (by decide)).trans <|
    (W5_keep m c main_arg8 (by decide)).trans <|
    (W4_of_ne m c main_arg8 (by decide)).trans <|
    W3_launch m c main_arg8 (by decide) (by decide) (by decide)

/-! ## The proof data of the four pipelines and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment over the unscoped buffers at contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered from every unscoped buffer at `W3`, left at `W4`. Its arrays are
    split out of the unscoped buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are
    split out of the unscoped buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are
    split out of the unscoped buffers and put back at the exit contents; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V9 m) c).Φ 0 from rfl]
    refine BIBase.Entails.trans ?_ (hin3 (V9 m) c)
    unfold Pipeline.ΦA
    iintro ⟨Hp, -, Hr⟩
    isplitl [Hr]; · iexact Hr
    iexact Hp
  hout c := by
    rw [Pipeline.ownSems0_none, show (pdats m 3 c).Φ (Fin.last _) = (dat3 (V9 m) c).Φ (Fin.last cfg3.N) from rfl]
    refine BIBase.Entails.trans (hout3 (V9 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

set_option backward.isDefEq.respectTransparency.types false in
/-- The run: from any memory with zero counters, every weakly fair execution of @main on the TensorCores terminates,
    nothing faulting, and every final state has every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- Every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_all m ρ)

/-- The result buffer ends at the last boundary's contents, and every argument array as launched. -/
theorem run_value (ρ : Dev nD → PrngReg) : θ_run defs (onTc (τ := τ) (main (F := F))) ⟨m, fun _ => 0, ρ⟩ (fun r => ∀ c : Dev nD,
      r.2.mem ((c.tc : Thread nD τ).loc main_v91) = W11 m c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c =>
    ⟨h c _ (mem_uc main_v91 (by decide)),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_all m ρ)

end Cert.Kernel.Hand

end
-- ==== Proof.KI.Reg0.lean ====
/-
  Region 0: the first layer's dense product, one block of 5000 rows per grid point.
  At a parameter `V` (what the TensorCore's buffers hold when the region is entered): each window's block at a
  point, what the body leaves in the output window's buffer (the product of the row block with the whole weight
  matrix), the body's triple, the pipeline's proof data and its body obligation.
-/
import proofs.«422429_j3118146257467_1_alg».proof.Proof.Gen.KernelIdeal.Launch
import proofs.«422429_j3118146257467_1_alg».proof.Proof.Gen.KernelIdeal.Skeleton
import proofs.«422429_j3118146257467_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block: its staging buffer holds the block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: fetched once, its staging buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S5000x128 := Rect.unit (s := S5000x128) ![0, 0] S5000x128.size inb_S5000x128_S5000x128_0_0
abbrev r0_b : Rect S128x128 := Rect.unit (s := S128x128) ![0, 0] S128x128.size inb_S128x128_S128x128_0_0

/-- The output window's buffer after the body: its one store, the product of the loaded row block and weights. -/
def out0_2 (x0 : Vec F S5000x128 .f32) (x1 : Vec F S128x128 .f32) : Vec F S5000x128 .f32 :=
  View.canon [⟨r0_a, k0_pay1 (View.ld x0 r0_a) (View.ld x1 r0_b)⟩]

theorem cover0_2 (p0 : Vec F S5000x128 .f32) (y : S5000x128.Idx) :
    ∃ pc ∈ ([⟨r0_a, p0⟩] : List (View.Piece (Elt F) S5000x128 .f32)), y ∈ pc.1.set :=
  View.cover_of_tiled [⟨r0_a, p0⟩] S5000x128.size (by rfl) y

set_option maxHeartbeats 1000000 in
/-- The body on whole staging memrefs: inputs kept, the output's buffer at `out0_2` of the inputs'. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1: the second layer's fused step, one block of 5000 rows per grid point: the bias is added to the block of
  aggregated features, negatives are cut to zero, and the result is multiplied by the whole weight matrix.
  At a parameter `V` (what the TensorCore's buffers hold when the region is entered): each window's block at a
  point, what the body leaves in the output window's buffer, the body's triple, the pipeline's proof data and its
  body obligation.
-/
import proofs.«422429_j3118146257467_1_alg».proof.Proof.Gen.KernelIdeal.Launch
import proofs.«422429_j3118146257467_1_alg».proof.Proof.Gen.KernelIdeal.Skeleton
import proofs.«422429_j3118146257467_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of aggregated rows: its staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row: fetched once, its staging buffer holds it at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix: fetched once, its staging buffer holds it at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S5000x128 := Rect.unit (s := S5000x128) ![0, 0] S5000x128.size inb_S5000x128_S5000x128_0_0
abbrev r1_b : Rect S1x128 := Rect.unit (s := S1x128) ![0, 0] S1x128.size inb_S1x128_S1x128_0_0
abbrev r1_c : Rect S128x128 := Rect.unit (s := S128x128) ![0, 0] S128x128.size inb_S128x128_S128x128_0_0

/-- The output window's buffer after the body: its one store, the product of the rectified biased block and the weights. -/
def out1_3 (x0 : Vec F S5000x128 .f32) (x1 : Vec F S1x128 .f32) (x2 : Vec F S128x128 .f32) : Vec F S5000x128 .f32 :=
  View.canon [⟨r1_a, k1_pay1 (View.ld x0 r1_a) (View.ld x1 r1_b) (View.ld x2 r1_c)⟩]

theorem cover1_3 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

set_option maxHeartbeats 1000000 in
/-- The body on whole staging memrefs: inputs kept, the output's buffer at `out1_3` of the inputs'. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__relu_bias_matmul_kernel i arg1 harg1 arg2 harg2 arg3 harg3 arg4 harg4) K := by
  simp only [cc1__relu_bias_matmul_kernel_eq_skeleton]; unfold cc1__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2: the third layer's fused step, one block of 5000 rows per grid point: the bias is added to the block of
  aggregated features, negatives are cut to zero, and the result is multiplied by the whole weight matrix.
  At a parameter `V` (what the TensorCore's buffers hold when the region is entered): each window's block at a
  point, what the body leaves in the output window's buffer, the body's triple, the pipeline's proof data and its
  body obligation.
-/
import proofs.«422429_j3118146257467_1_alg».proof.Proof.Gen.KernelIdeal.Launch
import proofs.«422429_j3118146257467_1_alg».proof.Proof.Gen.KernelIdeal.Skeleton
import proofs.«422429_j3118146257467_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of aggregated rows: its staging buffer holds the block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias row: fetched once, its staging buffer holds it at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight matrix: fetched once, its staging buffer holds it at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S5000x128 := Rect.unit (s := S5000x128) ![0, 0] S5000x128.size inb_S5000x128_S5000x128_0_0
abbrev r2_b : Rect S1x128 := Rect.unit (s := S1x128) ![0, 0] S1x128.size inb_S1x128_S1x128_0_0
abbrev r2_c : Rect S128x128 := Rect.unit (s := S128x128) ![0, 0] S128x128.size inb_S128x128_S128x128_0_0

/-- The output window's buffer after the body: its one store, the product of the rectified biased block and the weights. -/
def out2_3 (x0 : Vec F S5000x128 .f32) (x1 : Vec F S1x128 .f32) (x2 : Vec F S128x128 .f32) : Vec F S5000x128 .f32 :=
  View.canon [⟨r2_a, k2_pay1 (View.ld x0 r2_a) (View.ld x1 r2_b) (View.ld x2 r2_c)⟩]

theorem cover2_3 (p0 : Vec F S5000x128 .f32) (y : S5000x128.Idx) :
    ∃ pc ∈ ([⟨r2_a, p0⟩] : List (View.Piece (Elt F) S5000x128 .f32)), y ∈ pc.1.set :=
  View.cover_of_tiled [⟨r2_a, p0⟩] S5000x128.size (by rfl) y

set_option maxHeartbeats 1000000 in
/-- The body on whole staging memrefs: inputs kept, the output's buffer at `out2_3` of the inputs'. -/
theorem sound_kernel2 (c : Dev nD) (E : Set ℕ) (i : grid2.Coords) (arg1 : Memref sig .tc .vmem S5000x128 .f32) (harg1 : arg1.IsWhole)
    (arg2 : Memref sig .tc .vmem S1x128 .f32) (harg2 : arg2.IsWhole)
    (arg3 : Memref sig .tc .vmem S128x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__relu_bias_matmul_kernel i arg1 harg1 arg2 harg2 arg3 harg3 arg4 harg4) K := by
  simp only [cc2__relu_bias_matmul_kernel_eq_skeleton]; unfold cc2__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3Runs.lean ====
/-
  Region 3 (pooling and the head), what its three control cases share. One block of 5000 rows per grid point:
  the two accumulators (per-graph feature sums, 64x128, and per-graph node counts, 64x1) are zeroed at the first
  point, every point adds its block's one-hot products to them, and the last point divides, applies the two dense
  layers and stores the 1x64 result. Here: each window's block at a point (at a parameter `V`, what the
  TensorCore's buffers hold when the region is entered), the two branch conditions in closed form, where the
  output window is idle, the accumulators as memrefs, and the region invariant with the accumulators split off.
-/
import proofs.«422429_j3118146257467_1_alg».proof.Proof.Gen.KernelIdeal.Launch
import proofs.«422429_j3118146257467_1_alg».proof.Proof.Gen.KernelIdeal.Skeleton
import proofs.«422429_j3118146257467_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of aggregated rows: its staging buffer holds the block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row: fetched once, its staging buffer holds it at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The block of graph ids: its staging buffer holds the block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The first dense layer's weights: fetched once, held at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The first dense layer's bias: fetched once, held at every point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The second dense layer's weights: fetched once, held at every point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The second dense layer's bias: fetched once, held at every point. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions -/

/-- The reset's condition (the grid coordinate is 0), as the body computes it. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The head's condition (the grid coordinate is 19). -/
abbrev cond3_1 (i : grid3.Coords) : Prop := k3_cond2 i = 1#1
/-- It holds at the last point only. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
/-- Away from the last point the output window is idle: nothing is stored into it, -/
theorem idleAt3_7 : ∀ t : Fin cfg3.N, ¬cond3_1 (grid3.coords t) → cfg3.idle 7 (grid3.coords t) = true := by decide +kernel
/-- and its block is not written back. -/
theorem noFlush3_7 : ∀ t : Fin cfg3.N, ¬cond3_1 (grid3.coords t) → (cfg3.win 7).flush t = false := by decide +kernel
/-- At the last point it is live. -/
theorem liveAt3_7 : ∀ t : Fin cfg3.N, cond3_1 (grid3.coords t) → cfg3.idle 7 (grid3.coords t) = false := by decide +kernel

/-! ## The output's buffer and the accumulators -/

/-- One staging buffer of the output window, through which its contents are stated. -/
abbrev VO3_7 : View sig .tc .vmem S1x64 .f32 := (Memref.whole cc3_stg7_0 : Memref sig .tc .vmem S1x64 .f32).view
/-- The accumulator of feature sums, a whole scoped buffer of the kernel's own, -/
abbrev scM3_0 : Memref sig .tc .vmem S64x128 .f32 := Memref.whole cc3_scratch0
/-- and the accumulator of node counts. -/
abbrev scM3_1 : Memref sig .tc .vmem S64x1 .f32 := Memref.whole cc3_scratch1
abbrev VS3_0 : View sig .tc .vmem S64x128 .f32 := scM3_0.view
abbrev VS3_1 : View sig .tc .vmem S64x1 .f32 := scM3_1.view

/-- Every scoped buffer of the core that is neither a staging buffer of this pipeline nor one of the two accumulators,
    at some contents each: carried through the region unopened. -/
abbrev Rest3 (c : Dev nD) : sProp 𝕄 :=
  Pipeline.scopedRestBut (Ix := Unit) (Name := ℕ) (U := UR sig nD τ) (Lvl := ℕ) (Val := Elt F) spec3 c [cc3_scratch0, cc3_scratch1]

/-- The scoped rest split at the two accumulators. -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f))
          ∗ Rest3 (F := F) c) :=
  Pipeline.scopedRest_split_of_list spec3 c [cc3_scratch0, cc3_scratch1] (by decide) (by decide)

/-- The region invariant as the launch hands it over, with the accumulators as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ Rest3 (F := F) c) ∗ (∃ r, prngReg c r)) := by
  unfold Pipeline.ΦA; rw [scopedRest3_split]; simp only [scM3_0, scM3_1, owns_whole]; try rfl

end Cert.KernelIdeal.Hand

end
-- ==== Proof.KI.Reg3RunA.lean ====
/-
  Region 3, the first point's run: the accumulators are zeroed, then this block's one-hot products are added and
  stored back; the output window is left alone. The pieces each accumulator ends with are what the run finds.
-/
import proofs.«422429_j3118146257467_1_alg».proof.Proof.KI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (reset taken, head not taken). On whole memrefs — the block of rows, the bias and the block of graph ids at their contents, the accumulators at anything — the body runs to the continuation holding the three inputs as they were and each accumulator with its pieces written (last first). The other operands are not touched. -/
noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S64x128 .f32) (harg9 : arg9.IsWhole) (arg10 : Memref sig .tc .vmem S64x1 .f32) (harg10 : arg10.IsWhole) (hc0 : cond3_0 i) (hc1 : ¬cond3_1 i)
    (x0 : Vec F S5000x128 .f32) (x1 : Vec F S1x128 .f32) (x2 : Vec F S5000x1 .i32) :
    Σ' (L7 : List (View.Piece (Elt F) S1x64 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨[], ?_, ?_, fun E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.Reg3RunB.lean ====
/-
  Region 3, a middle point's run: this block's one-hot products are added to the accumulators as the point before
  left them, and stored back; the output window is left alone.
-/
import proofs.«422429_j3118146257467_1_alg».proof.Proof.KI.Reg3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (reset not taken, head not taken). On whole memrefs — the block of rows, the bias and the block of graph ids at their contents, the accumulators at what the point before left — the body runs to the continuation holding the three inputs as they were and each accumulator with its pieces written (last first). The other operands are not touched. -/
noncomputable def kernelRun3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S64x128 .f32) (harg9 : arg9.IsWhole) (arg10 : Memref sig .tc .vmem S64x1 .f32) (harg10 : arg10.IsWhole) (hc0 : ¬cond3_0 i) (hc1 : ¬cond3_1 i)
    (x0 : Vec F S5000x128 .f32) (x1 : Vec F S1x128 .f32) (x2 : Vec F S5000x1 .i32) (xs0 : Vec F S64x128 .f32) (xs1 : Vec F S64x1 .f32) :
    Σ' (L7 : List (View.Piece (Elt F) S1x64 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨[], ?_, ?_, fun E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.Reg3RunC.lean ====
/-
  Region 3, the last point's run: this block's one-hot products are added to the accumulators as the point before
  left them and stored back; then the sums are divided by the counts, the two dense layers applied, and the 1x64
  result stored into the output window's buffer.
-/
import proofs.«422429_j3118146257467_1_alg».proof.Proof.KI.Reg3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (reset not taken, head taken). On whole memrefs — the seven inputs at their contents, the output's buffer at anything, the accumulators at what the point before left — the body runs to the continuation holding the inputs as they were, and the output's buffer and each accumulator with its pieces written (last first). -/
noncomputable def kernelRun3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x64 .f32) (harg8 : arg8.IsWhole) (arg9 : Memref sig .tc .vmem S64x128 .f32) (harg9 : arg9.IsWhole) (arg10 : Memref sig .tc .vmem S64x1 .f32) (harg10 : arg10.IsWhole) (hc0 : ¬cond3_0 i) (hc1 : cond3_1 i)
    (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :
    Σ' (L7 : List (View.Piece (Elt F) S1x64 .f32)) (LS0 : List (View.Piece (Elt F) S64x128 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelIdeal.Hand

end
-- ==== Proof.KI.Reg3.lean ====
/-
  Region 3 (pooling and the head), the frame half. What each of the three control cases leaves in the output
  window's buffer and in the two accumulators (the pieces the case's run found, read back), the accumulation point
  by point (`outsAt3`), the region invariant that carries the accumulators between points, the pipeline's proof
  data, and the body obligation; then the value equations: each found piece opened into the body's arithmetic.
-/
import proofs.«422429_j3118146257467_1_alg».proof.Proof.KI.Reg3RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The point's memrefs -/

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x64 .f32 := win3_7.stage (cfg3.slots t 7)
abbrev hs3_7 (t : Fin cfg3.N) : (ms3_7 t).IsWhole := hstage3_7 ((cfg3.slots t 7).cast nbuf3_7)

/-! ## What each case leaves -/

/-- The run of the first point at the point's own staging memrefs and the two accumulators. -/
abbrev runAt3_A (c : Dev nD) (t : Fin cfg3.N) (h0 : cond3_0 (grid3.coords t)) (h1 : ¬cond3_1 (grid3.coords t)) (x0 : Vec F S5000x128 .f32) (x1 : Vec F S1x128 .f32) (x2 : Vec F S5000x1 .i32) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) h0 h1 x0 x1 x2

/-- The pieces the first point stores into the accumulator of sums cover it, -/
theorem scover3_A_0 (c : Dev nD) (t : Fin cfg3.N) (h0 : cond3_0 (grid3.coords t)) (h1 : ¬cond3_1 (grid3.coords t)) (x0 : Vec F S5000x128 .f32) (x1 : Vec F S1x128 .f32) (x2 : Vec F S5000x1 .i32) (y : S64x128.Idx) :
    ∃ pc ∈ (runAt3_A c t h0 h1 x0 x1 x2).2.1, y ∈ pc.1.set :=
  View.cover_of_tiledL (runAt3_A c t h0 h1 x0 x1 x2).2.1 S64x128.size (by sl_kernel_rfl) y

/-- and so do those it stores into the accumulator of counts. -/
theorem scover3_A_1 (c : Dev nD) (t : Fin cfg3.N) (h0 : cond3_0 (grid3.coords t)) (h1 : ¬cond3_1 (grid3.coords t)) (x0 : Vec F S5000x128 .f32) (x1 : Vec F S1x128 .f32) (x2 : Vec F S5000x1 .i32) (y : S64x1.Idx) :
    ∃ pc ∈ (runAt3_A c t h0 h1 x0 x1 x2).2.2.1, y ∈ pc.1.set :=
  View.cover_of_tiledL (runAt3_A c t h0 h1 x0 x1 x2).2.2.1 S64x1.size (by sl_kernel_rfl) y

/-- What the first point leaves in the accumulator of sums: its pieces read back. -/
def sout3_A_0 (c : Dev nD) (t : Fin cfg3.N) (h0 : cond3_0 (grid3.coords t)) (h1 : ¬cond3_1 (grid3.coords t)) (x0 : Vec F S5000x128 .f32) (x1 : Vec F S1x128 .f32) (x2 : Vec F S5000x1 .i32) : Vec F S64x128 .f32 :=
  VS3_0.read (Elt F) (VS3_0.writes (Elt F) VS3_0.junk (runAt3_A c t h0 h1 x0 x1 x2).2.1)

/-- What the first point leaves in the accumulator of counts. -/
def sout3_A_1 (c : Dev nD) (t : Fin cfg3.N) (h0 : cond3_0 (grid3.coords t)) (h1 : ¬cond3_1 (grid3.coords t)) (x0 : Vec F S5000x128 .f32) (x1 : Vec F S1x128 .f32) (x2 : Vec F S5000x1 .i32) : Vec F S64x1 .f32 :=
  VS3_1.read (Elt F) (VS3_1.writes (Elt F) VS3_1.junk (runAt3_A c t h0 h1 x0 x1 x2).2.2.1)

/-- The run of a middle point at the point's own staging memrefs and the two accumulators. -/
abbrev runAt3_B (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) h0 h1 x0 x1 x2 xs0 xs1

/-- The pieces a middle point stores into the accumulator of sums cover it, -/
theorem scover3_B_0 (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) (y : S64x128.Idx) :
    ∃ pc ∈ (runAt3_B c t h0 h1 x0 x1 x2 xs0 xs1).2.1, y ∈ pc.1.set :=
  View.cover_of_tiledL (runAt3_B c t h0 h1 x0 x1 x2 xs0 xs1).2.1 S64x128.size (by sl_kernel_rfl) y

/-- and so do those it stores into the accumulator of counts. -/
theorem scover3_B_1 (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) (y : S64x1.Idx) :
    ∃ pc ∈ (runAt3_B c t h0 h1 x0 x1 x2 xs0 xs1).2.2.1, y ∈ pc.1.set :=
  View.cover_of_tiledL (runAt3_B c t h0 h1 x0 x1 x2 xs0 xs1).2.2.1 S64x1.size (by sl_kernel_rfl) y

/-- What a middle point leaves in the accumulator of sums: its pieces read back. -/
def sout3_B_0 (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) : Vec F S64x128 .f32 :=
  VS3_0.read (Elt F) (VS3_0.writes (Elt F) VS3_0.junk (runAt3_B c t h0 h1 x0 x1 x2 xs0 xs1).2.1)

/-- What a middle point leaves in the accumulator of counts. -/
def sout3_B_1 (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) : Vec F S64x1 .f32 :=
  VS3_1.read (Elt F) (VS3_1.writes (Elt F) VS3_1.junk (runAt3_B c t h0 h1 x0 x1 x2 xs0 xs1).2.2.1)

/-- The run of the last point at the point's own staging memrefs and the two accumulators. -/
abbrev runAt3_C (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) h0 h1 x0 x1 x2 x3 x4 x5 x6 xs0 xs1

/-- At the last point the pieces stored into the output's buffer cover it. -/
theorem cover3_C_7 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) (y : S1x64.Idx) :
    ∃ pc ∈ (runAt3_C c t h0 h1 x0 x1 x2 x3 x4 x5 x6 xs0 xs1).1, y ∈ pc.1.set :=
  View.cover_of_tiledL (runAt3_C c t h0 h1 x0 x1 x2 x3 x4 x5 x6 xs0 xs1).1 S1x64.size (by sl_kernel_rfl) y

/-- What the last point leaves in the output's buffer: its pieces read back. -/
def out3_C_7 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) : Vec F S1x64 .f32 :=
  VO3_7.read (Elt F) (VO3_7.writes (Elt F) VO3_7.junk (runAt3_C c t h0 h1 x0 x1 x2 x3 x4 x5 x6 xs0 xs1).1)

/-- The pieces the last point stores into the accumulator of sums cover it, -/
theorem scover3_C_0 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) (y : S64x128.Idx) :
    ∃ pc ∈ (runAt3_C c t h0 h1 x0 x1 x2 x3 x4 x5 x6 xs0 xs1).2.1, y ∈ pc.1.set :=
  View.cover_of_tiledL (runAt3_C c t h0 h1 x0 x1 x2 x3 x4 x5 x6 xs0 xs1).2.1 S64x128.size (by sl_kernel_rfl) y

/-- and so do those it stores into the accumulator of counts. -/
theorem scover3_C_1 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) (y : S64x1.Idx) :
    ∃ pc ∈ (runAt3_C c t h0 h1 x0 x1 x2 x3 x4 x5 x6 xs0 xs1).2.2.1, y ∈ pc.1.set :=
  View.cover_of_tiledL (runAt3_C c t h0 h1 x0 x1 x2 x3 x4 x5 x6 xs0 xs1).2.2.1 S64x1.size (by sl_kernel_rfl) y

/-- What the last point leaves in the accumulator of sums: its pieces read back. -/
def sout3_C_0 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) : Vec F S64x128 .f32 :=
  VS3_0.read (Elt F) (VS3_0.writes (Elt F) VS3_0.junk (runAt3_C c t h0 h1 x0 x1 x2 x3 x4 x5 x6 xs0 xs1).2.1)

/-- What the last point leaves in the accumulator of counts. -/
def sout3_C_1 (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) : Vec F S64x1 .f32 :=
  VS3_1.read (Elt F) (VS3_1.writes (Elt F) VS3_1.junk (runAt3_C c t h0 h1 x0 x1 x2 x3 x4 x5 x6 xs0 xs1).2.2.1)

/-! ## What the output's buffer and the accumulators hold after each point -/

/-- The first point is not the last. -/
theorem ncond3_1_of_zero (t : Fin cfg3.N) (h : t.val = 0) : ¬cond3_1 (grid3.coords t) := fun hc => by
  have h' := (hcond3_1 t).mp hc; omega
/-- A later point is not the first. -/
theorem ncond3_0_of_pos (t : Fin cfg3.N) (h : t.val ≠ 0) : ¬cond3_0 (grid3.coords t) := fun hc => h ((hcond3_0 t).mp hc)
/-- A point other than 19 is not the last. -/
theorem ncond3_1_of_ne (t : Fin cfg3.N) (h : t.val ≠ 19) : ¬cond3_1 (grid3.coords t) := fun hc => h ((hcond3_1 t).mp hc)

/-- The output's buffer where nothing was stored into it: a placeholder nothing consults (the window is idle and
    not written back at those points). -/
abbrev idle3_7 : Vec F S1x64 .f32 := VO3_7.read (Elt F) VO3_7.junk

/-- THE ACCUMULATION. After the body at position `n`: (the output window's buffer, the accumulator of sums, the
    accumulator of counts) — the case of the point, run at the point's blocks, the accumulators at what position
    `n - 1` left. -/
def outsAt3 (c : Dev nD) : (n : ℕ) → n < cfg3.N → Vec F S1x64 .f32 × Vec F S64x128 .f32 × Vec F S64x1 .f32
  | 0, hn =>
    (idle3_7,
     sout3_A_0 c ⟨0, hn⟩ ((hcond3_0 ⟨0, hn⟩).mpr rfl) (ncond3_1_of_zero ⟨0, hn⟩ rfl) (iblk3 V c 0 ⟨0, hn⟩) (iblk3 V c 1 ⟨0, hn⟩) (iblk3 V c 2 ⟨0, hn⟩),
     sout3_A_1 c ⟨0, hn⟩ ((hcond3_0 ⟨0, hn⟩).mpr rfl) (ncond3_1_of_zero ⟨0, hn⟩ rfl) (iblk3 V c 0 ⟨0, hn⟩) (iblk3 V c 1 ⟨0, hn⟩) (iblk3 V c 2 ⟨0, hn⟩))
  | n + 1, hn =>
    if h1 : n + 1 = 19 then
      (out3_C_7 c ⟨n + 1, hn⟩ (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.1 (outsAt3 c n (Nat.lt_of_succ_lt hn)).2.2,
       sout3_C_0 c ⟨n + 1, hn⟩ (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.1 (outsAt3 c n (Nat.lt_of_succ_lt hn)).2.2,
       sout3_C_1 c ⟨n + 1, hn⟩ (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (outsAt3 c n (Nat.lt_of_succ_lt hn)).2.1 (outsAt3 c n (Nat.lt_of_succ_lt hn)).2.2)
    else
      (idle3_7,
       sout3_B_0 c ⟨n + 1, hn⟩ (ncond3_0_of_pos ⟨n + 1, hn⟩ (Nat.succ_ne_zero n)) (ncond3_1_of_ne ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2,
       sout3_B_1 c ⟨n + 1, hn⟩ (ncond3_0_of_pos ⟨n + 1, hn⟩ (Nat.succ_ne_zero n)) (ncond3_1_of_ne ⟨n + 1, hn⟩ h1) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2)

/-- `outsAt3` at the first point. -/
theorem outsAt3_A (c : Dev nD) (t : Fin cfg3.N) (h0 : t.val = 0) :
    outsAt3 V c t.val t.isLt = (idle3_7,
      sout3_A_0 c t ((hcond3_0 t).mpr h0) (ncond3_1_of_zero t h0) (iblk3 V c 0 t) (iblk3 V c 1 t) (iblk3 V c 2 t),
      sout3_A_1 c t ((hcond3_0 t).mpr h0) (ncond3_1_of_zero t h0) (iblk3 V c 0 t) (iblk3 V c 1 t) (iblk3 V c 2 t)) := by
  obtain ⟨n, hn⟩ := t
  cases n with
  | zero => exact rfl
  | succ n => exact absurd h0 (Nat.succ_ne_zero n)

/-- `outsAt3` at a middle point, over what the point before left. -/
theorem outsAt3_B (c : Dev nD) (t : Fin cfg3.N) (h0 : t.val ≠ 0) (h1 : t.val ≠ 19) :
    outsAt3 V c t.val t.isLt = (idle3_7,
      sout3_B_0 c t (ncond3_0_of_pos t h0) (ncond3_1_of_ne t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_1 c t (ncond3_0_of_pos t h0) (ncond3_1_of_ne t h1) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt3` at the last point, over what the point before left. -/
theorem outsAt3_C (c : Dev nD) (t : Fin cfg3.N) (h0 : t.val ≠ 0) (h1 : t.val = 19) :
    outsAt3 V c t.val t.isLt = (
      out3_C_7 c t (ncond3_0_of_pos t h0) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_0 c t (ncond3_0_of_pos t h0) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_1 c t (ncond3_0_of_pos t h0) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant, point by point -/

/-- Before position `n`: at the first point what the launch hands over (both accumulators at anything); afterwards the
    accumulators at what the point before left in them, the other scoped buffers unopened, the generator register at
    some state. -/
def PhiS3 (c : Dev nD) : (n : ℕ) → n ≤ cfg3.N → sProp 𝕄
  | 0, _ => Pipeline.ΦA spec3 c
  | n + 1, hn => iprop(iprop(iprop(owns (c : Thread nD τ) scM3_0 fullShare (outsAt3 V c n hn).2.1 ∗ owns (c : Thread nD τ) scM3_1 fullShare (outsAt3 V c n hn).2.2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (outsAt3 V c n hn).2.1 ∗ owns (c : Thread nD τ) scM3_1 fullShare (outsAt3 V c n hn).2.2) ∗ Rest3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (outsAt3 V c (n - 1) (by omega)).2.1 ∗ owns (c : Thread nD τ) scM3_1 fullShare (outsAt3 V c (n - 1) (by omega)).2.2) ∗ Rest3 (F := F) c) ∗ (∃ r, prngReg c r)) := by
  cases n with
  | zero => exact absurd rfl hz
  | succ n => rfl

/-! ## The pipeline's proof data -/

/-- The proof data of pipeline 3 on core `c`: the arrays as the region finds them; after the body each input's
    buffer at its block and the output's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point. The inputs' memrefs hold their blocks; the point is the first, a middle or the last one;
    that case's run applies; the invariant hands the body the accumulators at what the point before left (at anything
    at the first point) and takes them back at this point's contents; away from the last point the output's buffer
    is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  have hN : t.val < 20 := lt_of_lt_of_eq t.isLt (show cfg3.N = 20 from N_3)
  by_cases h0 : t.val = 0
  · have hc0 : cond3_0 (grid3.coords t) := (hcond3_0 t).mpr h0
    have hc1 : ¬cond3_1 (grid3.coords t) := ncond3_1_of_zero t h0
    rw [Dat.leavesExact_idle (dat3 V c) 7 t (idleAt3_7 t hc1) (noFlush3_7 t hc1)]
    rw [outsAt3_A V c t h0]
    unfold sout3_A_0 sout3_A_1; (try dsimp only)
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runAt3_A c t hc0 hc1 (iblk3 V c 0 t) (iblk3 V c 1 t) (iblk3 V c 2 t)).2.2.2 Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_A_0 c t hc0 hc1 _ _ _)
          unfold owns; iexists _; isplitr
          swap; · iexact HS1
          ipureintro; exact View.read_writes_of_cover _ _ _ _ _ (scover3_A_1 c t hc0 hc1 _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond3_0 (grid3.coords t) := ncond3_0_of_pos t h0
    by_cases h1 : t.val = 19
    · have hc1 : cond3_1 (grid3.coords t) := (hcond3_1 t).mpr h1
      rw [show (dat3 V c).leavesExact 7 t = owns (c : Thread nD τ) (ms3_7 t) fullShare ((dat3 V c).after 7 t) from by
        unfold Dat.leavesExact; rw [liveAt3_7 t hc1], after3_7]
      rw [outsAt3_C V c t h0 h1]
      unfold out3_C_7 sout3_C_0 sout3_C_1; (try dsimp only)
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt3_C c t hc0 hc1 (iblk3 V c 0 t) (iblk3 V c 1 t) (iblk3 V c 2 t) (iblk3 V c 3 t) (iblk3 V c 4 t) (iblk3 V c 5 t) (iblk3 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 c t hc0 hc1 _ _ _ _ _ _ _ _ _)
            unfold owns; iexists _; isplitr
            swap; · iexact HS1
            ipureintro; exact View.read_writes_of_cover _ _ _ _ _ (scover3_C_1 c t hc0 hc1 _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover3_C_7 c t hc0 hc1 _ _ _ _ _ _ _ _ _)
    · have hc1 : ¬cond3_1 (grid3.coords t) := ncond3_1_of_ne t h1
      rw [Dat.leavesExact_idle (dat3 V c) 7 t (idleAt3_7 t hc1) (noFlush3_7 t hc1)]
      rw [outsAt3_B V c t h0 h1]
      unfold sout3_B_0 sout3_B_1; (try dsimp only)
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runAt3_B c t hc0 hc1 (iblk3 V c 0 t) (iblk3 V c 1 t) (iblk3 V c 2 t) _ _).2.2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 c t hc0 hc1 _ _ _ _ _)
            unfold owns; iexists _; isplitr
            swap; · iexact HS1
            ipureintro; exact View.read_writes_of_cover _ _ _ _ _ (scover3_B_1 c t hc0 hc1 _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the launch's form back: the accumulators' contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

/-! ## The value equations: each found piece opened into the body's arithmetic -/

/-- The offset (0, 0) is the zero offset. -/
theorem hz3 : (![0, 0] : Fin 2 → ℕ) = fun _ => 0 := by funext a; fin_cases a <;> rfl

/-- The first point leaves in the accumulator of sums the block's products added to zero: the reset is overwritten by the update, which read the reset back. -/
theorem sout3_A_0_eq (c : Dev nD) (t : Fin cfg3.N) (h0 : cond3_0 (grid3.coords t)) (h1 : ¬cond3_1 (grid3.coords t)) (x0 : Vec F S5000x128 .f32) (x1 : Vec F S1x128 .f32) (x2 : Vec F S5000x1 .i32) :
    sout3_A_0 c t h0 h1 x0 x1 x2 = k3_pay5 x0 x1 x2 (k3_pay2 (F := F)) := by
  unfold sout3_A_0
  rw [View.read_writes_eq_canon _ _ _ (scover3_A_0 c t h0 h1 x0 x1 x2)]
  unfold runAt3_A kernelRun3_A
  dsimp only
  sl_unfold_words
  rw [View.canon_cons_unit_zero (S := S64x128) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The same for the accumulator of counts. -/
theorem sout3_A_1_eq (c : Dev nD) (t : Fin cfg3.N) (h0 : cond3_0 (grid3.coords t)) (h1 : ¬cond3_1 (grid3.coords t)) (x0 : Vec F S5000x128 .f32) (x1 : Vec F S1x128 .f32) (x2 : Vec F S5000x1 .i32) :
    sout3_A_1 c t h0 h1 x0 x1 x2 = k3_pay6 x2 (k3_pay3 (F := F)) := by
  unfold sout3_A_1
  rw [View.read_writes_eq_canon _ _ _ (scover3_A_1 c t h0 h1 x0 x1 x2)]
  unfold runAt3_A kernelRun3_A
  dsimp only
  sl_unfold_words
  rw [View.canon_cons_unit_zero (S := S64x1) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- A middle point leaves in the accumulator of sums the block's products added to what it held. -/
theorem sout3_B_0_eq (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) :
    sout3_B_0 c t h0 h1 x0 x1 x2 xs0 xs1 = k3_pay5 x0 x1 x2 xs0 := by
  unfold sout3_B_0
  rw [View.read_writes_eq_canon _ _ _ (scover3_B_0 c t h0 h1 x0 x1 x2 xs0 xs1)]
  unfold runAt3_B kernelRun3_B
  dsimp only
  sl_unfold_words
  rw [View.canon_unit_zero (S := S64x128) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The same for the accumulator of counts. -/
theorem sout3_B_1_eq (c : Dev nD) (t : Fin cfg3.N) (h0 : ¬cond3_0 (grid3.coords t)) (h1 : ¬cond3_1 (grid3.coords t)) (x0 : Vec F S5000x128 .f32) (x1 : Vec F S1x128 .f32) (x2 : Vec F S5000x1 .i32) (xs0 : Vec F S64x128 .f32) (xs1 : Vec F S64x1 .f32) :
    sout3_B_1 c t h0 h1 x0 x1 x2 xs0 xs1 = k3_pay6 x2 xs1 := by
  unfold sout3_B_1
  rw [View.read_writes_eq_canon _ _ _ (scover3_B_1 c t h0 h1 x0 x1 x2 xs0 xs1)]
  unfold runAt3_B kernelRun3_B
  dsimp only
  sl_unfold_words
  rw [View.canon_unit_zero (S := S64x1) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The last point leaves in the accumulator of sums the block's products added to what it held. -/
theorem sout3_C_0_eq (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :
    sout3_C_0 c t h0 h1 x0 x1 x2 x3 x4 x5 x6 xs0 xs1 = k3_pay5 x0 x1 x2 xs0 := by
  unfold sout3_C_0
  rw [View.read_writes_eq_canon _ _ _ (scover3_C_0 c t h0 h1 x0 x1 x2 x3 x4 x5 x6 xs0 xs1)]
  unfold runAt3_C kernelRun3_C
  dsimp only
  sl_unfold_words
  rw [View.canon_unit_zero (S := S64x128) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The same for the accumulator of counts. -/
theorem sout3_C_1_eq (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :
    sout3_C_1 c t h0 h1 x0 x1 x2 x3 x4 x5 x6 xs0 xs1 = k3_pay6 x2 xs1 := by
  unfold sout3_C_1
  rw [View.read_writes_eq_canon _ _ _ (scover3_C_1 c t h0 h1 x0 x1 x2 x3 x4 x5 x6 xs0 xs1)]
  unfold runAt3_C kernelRun3_C
  dsimp only
  sl_unfold_words
  rw [View.canon_unit_zero (S := S64x1) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- The last point stores the head applied to the accumulators as it has just updated them (read back) and to the four small operands. -/
theorem out3_C_7_eq (c : Dev nD) (t : Fin cfg3.N) (h0 : ¬cond3_0 (grid3.coords t)) (h1 : cond3_1 (grid3.coords t)) (x0 : Vec F S5000x128 .f32) (x1 : Vec F S1x128 .f32) (x2 : Vec F S5000x1 .i32) (x3 : Vec F S128x128 .f32) (x4 : Vec F S1x128 .f32) (x5 : Vec F S128x1 .f32) (x6 : Vec F S1x1 .f32) (xs0 : Vec F S64x128 .f32) (xs1 : Vec F S64x1 .f32) :
    out3_C_7 c t h0 h1 x0 x1 x2 x3 x4 x5 x6 xs0 xs1 = k3_pay1 (k3_pay5 x0 x1 x2 xs0) (k3_pay6 x2 xs1) x3 x4 x5 x6 := by
  unfold out3_C_7
  rw [View.read_writes_eq_canon _ _ _ (cover3_C_7 c t h0 h1 x0 x1 x2 x3 x4 x5 x6 xs0 xs1)]
  unfold runAt3_C kernelRun3_C
  dsimp only
  sl_unfold_words
  rw [View.canon_unit_zero (S := S1x64) hz3]
  simp only [View.readAt_eq_ld, Memref.IsWhole.read_unread, (Memref.isWhole_whole cc3_scratch0).read_unread, (Memref.isWhole_whole cc3_scratch1).read_unread,
    View.ld_unit_zero (S := S5000x128) hz3, View.ld_unit_zero (S := S1x128) hz3, View.ld_unit_zero (S := S5000x1) hz3,
    View.ld_unit_zero (S := S128x128) hz3, View.ld_unit_zero (S := S128x1) hz3, View.ld_unit_zero (S := S1x1) hz3,
    View.ld_unit_zero (S := S64x128) hz3, View.ld_unit_zero (S := S64x1) hz3, View.ld_unit_zero (S := S1x64) hz3,
    View.readCov_unit_zero (S := S64x128) _ hz3, View.readCov_unit_zero (S := S64x1) _ hz3]

/-- After the first point the accumulators hold the first block's products added to zero. -/
theorem outsAt3_zero (c : Dev nD) (h : 0 < cfg3.N) : (outsAt3 V c 0 h).2 = (k3_pay5 (iblk3 V c 0 ⟨0, h⟩) (iblk3 V c 1 ⟨0, h⟩) (iblk3 V c 2 ⟨0, h⟩) (k3_pay2 (F := F)), k3_pay6 (iblk3 V c 2 ⟨0, h⟩) (k3_pay3 (F := F))) := by
  rw [show outsAt3 V c 0 h = outsAt3 V c (⟨0, h⟩ : Fin cfg3.N).val (⟨0, h⟩ : Fin cfg3.N).isLt from rfl, outsAt3_A V c ⟨0, h⟩ rfl]
  dsimp only
  rw [sout3_A_0_eq c ⟨0, h⟩ ((hcond3_0 ⟨0, h⟩).mpr rfl) (ncond3_1_of_zero ⟨0, h⟩ rfl) (iblk3 V c 0 ⟨0, h⟩) (iblk3 V c 1 ⟨0, h⟩) (iblk3 V c 2 ⟨0, h⟩),
    sout3_A_1_eq c ⟨0, h⟩ ((hcond3_0 ⟨0, h⟩).mpr rfl) (ncond3_1_of_zero ⟨0, h⟩ rfl) (iblk3 V c 0 ⟨0, h⟩) (iblk3 V c 1 ⟨0, h⟩) (iblk3 V c 2 ⟨0, h⟩)]

/-- After a later point they hold that block's products added to what the point before left. -/
theorem outsAt3_succ (c : Dev nD) (n : ℕ) (h : n + 1 < cfg3.N) : (outsAt3 V c (n + 1) h).2 = (k3_pay5 (iblk3 V c 0 ⟨n + 1, h⟩) (iblk3 V c 1 ⟨n + 1, h⟩) (iblk3 V c 2 ⟨n + 1, h⟩) (outsAt3 V c n (Nat.lt_of_succ_lt h)).2.1, k3_pay6 (iblk3 V c 2 ⟨n + 1, h⟩) (outsAt3 V c n (Nat.lt_of_succ_lt h)).2.2) := by
  by_cases h1 : n + 1 = 19
  · rw [show outsAt3 V c (n + 1) h = outsAt3 V c (⟨n + 1, h⟩ : Fin cfg3.N).val (⟨n + 1, h⟩ : Fin cfg3.N).isLt from rfl, outsAt3_C V c ⟨n + 1, h⟩ (Nat.succ_ne_zero n) h1]
    dsimp only
    rw [sout3_C_0_eq c ⟨n + 1, h⟩ (ncond3_0_of_pos ⟨n + 1, h⟩ (Nat.succ_ne_zero n)) ((hcond3_1 ⟨n + 1, h⟩).mpr h1) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) _ _,
      sout3_C_1_eq c ⟨n + 1, h⟩ (ncond3_0_of_pos ⟨n + 1, h⟩ (Nat.succ_ne_zero n)) ((hcond3_1 ⟨n + 1, h⟩).mpr h1) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) _ _]
    try rfl
  · rw [show outsAt3 V c (n + 1) h = outsAt3 V c (⟨n + 1, h⟩ : Fin cfg3.N).val (⟨n + 1, h⟩ : Fin cfg3.N).isLt from rfl, outsAt3_B V c ⟨n + 1, h⟩ (Nat.succ_ne_zero n) h1]
    dsimp only
    rw [sout3_B_0_eq c ⟨n + 1, h⟩ (ncond3_0_of_pos ⟨n + 1, h⟩ (Nat.succ_ne_zero n)) (ncond3_1_of_ne ⟨n + 1, h⟩ h1) (iblk3 V c 0 ⟨n + 1, h⟩) (iblk3 V c 1 ⟨n + 1, h⟩) (iblk3 V c 2 ⟨n + 1, h⟩) _ _,
      sout3_B_1_eq c ⟨n + 1, h⟩ (ncond3_0_of_pos ⟨n + 1, h⟩ (Nat.succ_ne_zero n)) (ncond3_1_of_ne ⟨n + 1, h⟩ h1) (iblk3 V c 0 ⟨n + 1, h⟩) (iblk3 V c 1 ⟨n + 1, h⟩) (iblk3 V c 2 ⟨n + 1, h⟩) _ _]
    try rfl

/-- After the last point the output's buffer holds the head applied to the accumulators as that point left them. -/
theorem outsAt3_last (c : Dev nD) (h : 19 < cfg3.N) : (outsAt3 V c 19 h).1 = k3_pay1 (outsAt3 V c 19 h).2.1 (outsAt3 V c 19 h).2.2 (iblk3 V c 3 ⟨19, h⟩) (iblk3 V c 4 ⟨19, h⟩) (iblk3 V c 5 ⟨19, h⟩) (iblk3 V c 6 ⟨19, h⟩) := by
  rw [show outsAt3 V c 19 h = outsAt3 V c (⟨19, h⟩ : Fin cfg3.N).val (⟨19, h⟩ : Fin cfg3.N).isLt from rfl, outsAt3_C V c ⟨19, h⟩ (Nat.succ_ne_zero 18) rfl]
  dsimp only
  rw [out3_C_7_eq c ⟨19, h⟩ (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (iblk3 V c 5 ⟨19, h⟩) (iblk3 V c 6 ⟨19, h⟩) _ _,
    sout3_C_0_eq c ⟨19, h⟩ (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (iblk3 V c 5 ⟨19, h⟩) (iblk3 V c 6 ⟨19, h⟩) _ _,
    sout3_C_1_eq c ⟨19, h⟩ (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (iblk3 V c 5 ⟨19, h⟩) (iblk3 V c 6 ⟨19, h⟩) _ _]

end Cert.KernelIdeal.Hand

end
-- ==== Proof.KI.Fold.lean ====
/-
  What the TensorCore's unscoped buffers hold at every boundary between @main's items, from the launch memory `m`:
  a host stretch applies its operations; a kernel region leaves each of its arrays at what its pipeline's write-backs
  fold to and every other buffer as it found it.
-/
import proofs.«422429_j3118146257467_1_alg».proof.Proof.Gen.KernelIdeal.Launch
import proofs.«422429_j3118146257467_1_alg».proof.Proof.Gen.KernelIdeal.Skeleton
import proofs.«422429_j3118146257467_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«422429_j3118146257467_1_alg».proof.Proof.KI.Reg0
import proofs.«422429_j3118146257467_1_alg».proof.Proof.KI.Reg1
import proofs.«422429_j3118146257467_1_alg».proof.Proof.KI.Reg2
import proofs.«422429_j3118146257467_1_alg».proof.Proof.KI.Reg3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m ((c : Dev nD), b)
/-- After the first three host stretches (region 0's entry). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the message passing of layer 0 (region 1's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the message passing of layer 1 (region 2's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At region 2's exit. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the message passing of layer 2 (region 3's entry). -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- At region 3's exit. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-- At the return (after the final reshape). -/
abbrev W11 : Dev nD → Valuation τ sig (Elt F) := fun c => StableHlo.after hostOps4 (W10 m c)

end Cert.KernelIdeal.Hand

end
-- ==== Proof.KI.Run.lean ====
/-
  The launch: @main as eleven segments (seven stretches of host operations, four kernel regions), the thread state
  carried across them, and what the run leaves in the TensorCore's unscoped buffers.
-/
import proofs.«422429_j3118146257467_1_alg».proof.Proof.KI.Fold
import proofs.«422429_j3118146257467_1_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer no operation of a stretch writes is left as the stretch found it -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W2_keep (c : Dev nD) (r : Ref sig .tc) (h : r ∉ hostOps0_1_W) : W2 m c (Proc.devRef .tc r) = W1 m c (Proc.devRef .tc r) :=
  StableHlo.after_of_writes_sub hostOps0_1 _ hostOps0_1_writes h
theorem W3_keep (c : Dev nD) (r : Ref sig .tc) (h : r ∉ hostOps0_2_W) : W3 m c (Proc.devRef .tc r) = W2 m c (Proc.devRef .tc r) :=
  StableHlo.after_of_writes_sub hostOps0_2 _ hostOps0_2_writes h
theorem W5_keep (c : Dev nD) (r : Ref sig .tc) (h : r ∉ hostOps1_W) : W5 m c (Proc.devRef .tc r) = W4 m c (Proc.devRef .tc r) :=
  StableHlo.after_of_writes_sub hostOps1 _ hostOps1_writes h
theorem W7_keep (c : Dev nD) (r : Ref sig .tc) (h : r ∉ hostOps2_W) : W7 m c (Proc.devRef .tc r) = W6 m c (Proc.devRef .tc r) :=
  StableHlo.after_of_writes_sub hostOps2 _ hostOps2_writes h
theorem W9_keep (c : Dev nD) (r : Ref sig .tc) (h : r ∉ hostOps3_W) : W9 m c (Proc.devRef .tc r) = W8 m c (Proc.devRef .tc r) :=
  StableHlo.after_of_writes_sub hostOps3 _ hostOps3_writes h
theorem W11_keep (c : Dev nD) (r : Ref sig .tc) (h : r ∉ hostOps4_W) : W11 m c (Proc.devRef .tc r) = W10 m c (Proc.devRef .tc r) :=
  StableHlo.after_of_writes_sub hostOps4 _ hostOps4_writes h

/-- The three stretches before the first region leave a buffer none of them writes at its launch contents. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_keep m c r h2).trans <| (W2_keep m c r h1).trans <| (W1_keep m c r h0).trans rfl

/-! ## Every argument ends at its launch contents

No host operation writes an argument; a region reads one through an input window (whose array the pipeline
leaves as entered) or does not touch it. -/
theorem W11_main_arg0 (c : Dev nD) : W11 m c (Proc.devRef .tc main_arg0) = m ((c : Thread nD τ).loc main_arg0) :=
  (W11_keep m c main_arg0 (by decide)).trans <|
    (W10_of_ne m c main_arg0 (by decide)).trans <|
    (W9_keep m c main_arg0 (by decide)).trans <|
    (W8_of_ne m c main_arg0 (by decide)).trans <|
    (W7_keep m c main_arg0 (by decide)).trans <|
    (W6_of_ne m c main_arg0 (by decide)).trans <|
    (W5_keep m c main_arg0 (by decide)).trans <|
    ((W4_arr m c 0).trans (((dat0 (V3 m) c).arrAt_in 0 rfl _).trans (A_eq0 (V3 m) c 0))).trans <|
    W3_launch m c main_arg0 (by decide) (by decide) (by decide)
theorem W11_main_arg1 (c : Dev nD) : W11 m c (Proc.devRef .tc main_arg1) = m ((c : Thread nD τ).loc main_arg1) :=
  (W11_keep m c main_arg1 (by decide)).trans <|
    (W10_of_ne m c main_arg1 (by decide)).trans <|
    (W9_keep m c main_arg1 (by decide)).trans <|
    (W8_of_ne m c main_arg1 (by decide)).trans <|
    (W7_keep m c main_arg1 (by decide)).trans <|
    (W6_of_ne m c main_arg1 (by decide)).trans <|
    (W5_keep m c main_arg1 (by decide)).trans <|
    (W4_of_ne m c main_arg1 (by decide)).trans <|
    W3_launch m c main_arg1 (by decide) (by decide) (by decide)
theorem W11_main_arg2 (c : Dev nD) : W11 m c (Proc.devRef .tc main_arg2) = m ((c : Thread nD τ).loc main_arg2) :=
  (W11_keep m c main_arg2 (by decide)).trans <|
    (W10_of_ne m c main_arg2 (by decide)).trans <|
    (W9_keep m c main_arg2 (by decide)).trans <|
    (W8_of_ne m c main_arg2 (by decide)).trans <|
    (W7_keep m c main_arg2 (by decide)).trans <|
    (W6_of_ne m c main_arg2 (by decide)).trans <|
    (W5_keep m c main_arg2 (by decide)).trans <|
    (W4_of_ne m c main_arg2 (by decide)).trans <|
    W3_launch m c main_arg2 (by decide) (by decide) (by decide)
theorem W11_main_arg3 (c : Dev nD) : W11 m c (Proc.devRef .tc main_arg3) = m ((c : Thread nD τ).loc main_arg3) :=
  (W11_keep m c main_arg3 (by decide)).trans <|
    (W10_of_ne m c main_arg3 (by decide)).trans <|
    (W9_keep m c main_arg3 (by decide)).trans <|
    (W8_of_ne m c main_arg3 (by decide)).trans <|
    (W7_keep m c main_arg3 (by decide)).trans <|
    (W6_of_ne m c main_arg3 (by decide)).trans <|
    (W5_keep m c main_arg3 (by decide)).trans <|
    (W4_of_ne m c main_arg3 (by decide)).trans <|
    W3_launch m c main_arg3 (by decide) (by decide) (by decide)
theorem W11_main_arg4 (c : Dev nD) : W11 m c (Proc.devRef .tc main_arg4) = m ((c : Thread nD τ).loc main_arg4) :=
  (W11_keep m c main_arg4 (by decide)).trans <|
    (W10_of_ne m c main_arg4 (by decide)).trans <|
    (W9_keep m c main_arg4 (by decide)).trans <|
    (W8_of_ne m c main_arg4 (by decide)).trans <|
    (W7_keep m c main_arg4 (by decide)).trans <|
    (W6_of_ne m c main_arg4 (by decide)).trans <|
    (W5_keep m c main_arg4 (by decide)).trans <|
    (W4_of_ne m c main_arg4 (by decide)).trans <|
    W3_launch m c main_arg4 (by decide) (by decide) (by decide)
theorem W11_main_arg5 (c : Dev nD) : W11 m c (Proc.devRef .tc main_arg5) = m ((c : Thread nD τ).loc main_arg5) :=
  (W11_keep m c main_arg5 (by decide)).trans <|
    ((W10_arr m c 3).trans (((dat3 (V9 m) c).arrAt_in 3 rfl _).trans (A_eq3 (V9 m) c 3))).trans <|
    (W9_keep m c main_arg5 (by decide)).trans <|
    (W8_of_ne m c main_arg5 (by decide)).trans <|
    (W7_keep m c main_arg5 (by decide)).trans <|
    (W6_of_ne m c main_arg5 (by decide)).trans <|
    (W5_keep m c main_arg5 (by decide)).trans <|
    (W4_of_ne m c main_arg5 (by decide)).trans <|
    W3_launch m c main_arg5 (by decide) (by decide) (by decide)
theorem W11_main_arg6 (c : Dev nD) : W11 m c (Proc.devRef .tc main_arg6) = m ((c : Thread nD τ).loc main_arg6) :=
  (W11_keep m c main_arg6 (by decide)).trans <|
    (W10_of_ne m c main_arg6 (by decide)).trans <|
    (W9_keep m c main_arg6 (by decide)).trans <|
    (W8_of_ne m c main_arg6 (by decide)).trans <|
    (W7_keep m c main_arg6 (by decide)).trans <|
    (W6_of_ne m c main_arg6 (by decide)).trans <|
    (W5_keep m c main_arg6 (by decide)).trans <|
    (W4_of_ne m c main_arg6 (by decide)).trans <|
    W3_launch m c main_arg6 (by decide) (by decide) (by decide)
theorem W11_main_arg7 (c : Dev nD) : W11 m c (Proc.devRef .tc main_arg7) = m ((c : Thread nD τ).loc main_arg7) :=
  (W11_keep m c main_arg7 (by decide)).trans <|
    ((W10_arr m c 5).trans (((dat3 (V9 m) c).arrAt_in 5 rfl _).trans (A_eq3 (V9 m) c 5))).trans <|
    (W9_keep m c main_arg7 (by decide)).trans <|
    (W8_of_ne m c main_arg7 (by decide)).trans <|
    (W7_keep m c main_arg7 (by decide)).trans <|
    (W6_of_ne m c main_arg7 (by decide)).trans <|
    (W5_keep m c main_arg7 (by decide)).trans <|
    (W4_of_ne m c main_arg7 (by decide)).trans <|
    W3_launch m c main_arg7 (by decide) (by decide) (by decide)
theorem W11_main_arg8 (c : Dev nD) : W11 m c (Proc.devRef .tc main_arg8) = m ((c : Thread nD τ).loc main_arg8) :=
  (W11_keep m c main_arg8 (by decide)).trans <|
    (W10_of_ne m c main_arg8 (by decide)).trans <|
    (W9_keep m c main_arg8 (by decide)).trans <|
    (W8_of_ne m c main_arg8 (by decide)).trans <|
    (W7_keep m c main_arg8 (by decide)).trans <|
    (W6_of_ne m c main_arg8 (by decide)).trans <|
    (W5_keep m c main_arg8 (by decide)).trans <|
    (W4_of_ne m c main_arg8 (by decide)).trans <|
    W3_launch m c main_arg8 (by decide) (by decide) (by decide)

/-! ## The proof data of the four pipelines and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of host operations as a segment over the unscoped buffers at contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered from every unscoped buffer at `W3`, left at `W4`. Its arrays are
    split out of the unscoped buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are
    split out of the unscoped buffers and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are
    split out of the unscoped buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are
    split out of the unscoped buffers and put back at the exit contents; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V9 m) c).Φ 0 from rfl]
    refine BIBase.Entails.trans ?_ (hin3 (V9 m) c)
    unfold Pipeline.ΦA
    iintro ⟨Hp, -, Hr⟩
    isplitl [Hr]; · iexact Hr
    iexact Hp
  hout c := by
    rw [Pipeline.ownSems0_none, show (pdats m 3 c).Φ (Fin.last _) = (dat3 (V9 m) c).Φ (Fin.last cfg3.N) from rfl]
    refine BIBase.Entails.trans (hout3 (V9 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

set_option backward.isDefEq.respectTransparency.types false in
/-- The run: from any memory with zero counters, every weakly fair execution of @main on the TensorCores terminates,
    nothing faulting, and every final state has every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-- Every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_all m ρ)

/-- The result buffer ends at the last boundary's contents, and every argument array as launched. -/
theorem run_value (ρ : Dev nD → PrngReg) : θ_run defs (onTc (τ := τ) (main (F := F))) ⟨m, fun _ => 0, ρ⟩ (fun r => ∀ c : Dev nD,
      r.2.mem ((c.tc : Thread nD τ).loc main_v91) = W11 m c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c =>
    ⟨h c _ (mem_uc main_v91 (by decide)),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c),
     (h c _ (mem_uc main_arg5 (by decide))).trans (W11_main_arg5 m c),
     (h c _ (mem_uc main_arg6 (by decide))).trans (W11_main_arg6 m c),
     (h c _ (mem_uc main_arg7 (by decide))).trans (W11_main_arg7 m c),
     (h c _ (mem_uc main_arg8 (by decide))).trans (W11_main_arg8 m c)⟩) (run_all m ρ)

end Cert.KernelIdeal.Hand

end
-- ==== Proof.Spec.Chain.lean ====
/-
  The host-side functions both programs share, each named once: the edge lists with the self loops appended, the
  symmetric normalisation coefficients D^(-1/2) (A + I) D^(-1/2) of the edges, the slices of the stacked weights and
  biases, and one layer's message passing (gather the source rows, scale by the edge coefficient, sum into the target
  rows). Stated over the kernel program's shapes and dimension records, at any float family.
-/
import proofs.«422429_j3118146257467_1_alg».proof.Proof.Gen.KernelIdeal

noncomputable section

namespace Cert.Spec

open Cert.KernelIdeal Cert.KernelIdeal.Facts₀ Cert.KernelIdeal.Facts Idealize.ShloMosaic

variable {F : FTy → Type} [FloatOps F]

/-- Source nodes of the edges, then every node once (the self loops). -/
def rowOf (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Target nodes of the edges, then every node once. -/
def colOf (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- In-degree of every node (self loop included): ones summed into the target nodes. -/
def degOf (e : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (colOf e))
    (broadcastInDim S1700000 ![] bcast_S_S1700000 (constant S_ .f32 0x3F800000#32))

/-- deg^(-1/2) where the degree is positive, zero elsewhere. -/
def dinvOf (e : IVec S2x1600000 32) : FVec F S100000 .f32 :=
  select (cmpf .ogt (degOf (F := F) e) (broadcastInDim S100000 ![] bcast_S_S100000 (constant S_ .f32 0x00000000#32)))
    (Host.rsqrt (maximumf (degOf (F := F) e) (broadcastInDim S100000 ![] bcast_S_S100000 (constant S_ .f32 0x2B8CBCCC#32))))
    (broadcastInDim S100000 ![] bcast_S_S100000 (constant S_ .f32 0x00000000#32))

/-- A node index list made ready for a row gather: a negative index counts from the end. -/
def wrapIdx (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-- The edge coefficients dinv[row] * dinv[col], as a column. -/
def normOf (e : IVec S2x1600000 32) : FVec F S1700000x1 .f32 :=
  broadcastInDim S1700000x1 ![0] bcast_S1700000_S1700000x1_0
    (mulf (Host.gather gather_S100000_S1700000x1_S1700000_n_0_n_n_0_1_1 (dinvOf (F := F) e) (wrapIdx (rowOf e)))
          (Host.gather gather_S100000_S1700000x1_S1700000_n_0_n_n_0_1_1 (dinvOf (F := F) e) (wrapIdx (colOf e))))

/-- One layer's message passing on transformed features `hw`: gather the source rows, scale each by its edge's
    coefficient, sum into the target rows. -/
def layer (e : IVec S2x1600000 32) (hw : FVec F S100000x128 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (colOf e))
    (mulf (Host.gather gather_S100000x128_S1700000x1_S1700000x128_1_0_n_n_0_1_1128 hw (wrapIdx (rowOf e)))
          (broadcastInDim S1700000x128 ![0, 1] bcast_S1700000x1_S1700000x128_0_1 (normOf (F := F) e)))

/-- Layer weights out of the stacked tensor. -/
def w0Of (w : FVec F S3x128x128 .f32) : FVec F S128x128 .f32 :=
  shapeCast S128x128 (extractStridedSlice S1x128x128 ![0, 0, 0] w slices_S3x128x128_S1x128x128_0_0_0) shapeCasts_S1x128x128_S128x128
def w1Of (w : FVec F S3x128x128 .f32) : FVec F S128x128 .f32 :=
  shapeCast S128x128 (extractStridedSlice S1x128x128 ![1, 0, 0] w slices_S3x128x128_S1x128x128_1_0_0) shapeCasts_S1x128x128_S128x128
def w2Of (w : FVec F S3x128x128 .f32) : FVec F S128x128 .f32 :=
  shapeCast S128x128 (extractStridedSlice S1x128x128 ![2, 0, 0] w slices_S3x128x128_S1x128x128_2_0_0) shapeCasts_S1x128x128_S128x128

/-- Layer biases out of the stacked matrix, as the kernel program reshapes them: one row of 128. -/
def b0Of (b : FVec F S3x128 .f32) : FVec F S1x128 .f32 :=
  shapeCast S1x128 (shapeCast S128 (extractStridedSlice S1x128 ![0, 0] b slices_S3x128_S1x128_0_0) shapeCasts_S1x128_S128) shapeCasts_S128_S1x128
def b1Of (b : FVec F S3x128 .f32) : FVec F S1x128 .f32 :=
  shapeCast S1x128 (shapeCast S128 (extractStridedSlice S1x128 ![1, 0] b slices_S3x128_S1x128_1_0) shapeCasts_S1x128_S128) shapeCasts_S128_S1x128
def b2Of (b : FVec F S3x128 .f32) : FVec F S1x128 .f32 :=
  shapeCast S1x128 (shapeCast S128 (extractStridedSlice S1x128 ![2, 0] b slices_S3x128_S1x128_2_0) shapeCasts_S1x128_S128) shapeCasts_S128_S1x128

end Cert.Spec

end
-- ==== Proof.KI.HostReads.lean ====
/-
  What the host stretches of @main leave in the buffers the kernel regions read, as the shared host functions of the
  launch contents: the edge lists with the self loops appended, the edge coefficients, each layer's weights and bias
  row, one layer's message passing applied to the matmul region's output, the reshaped operands of the pooling
  region, and the flattened result. First each stretch over ANY contents before it (the buffers an earlier stretch
  wrote enter as hypotheses), then the boundaries `W1 … W11` of the run from the launch memory.
-/
import proofs.«422429_j3118146257467_1_alg».proof.Proof.KI.Fold
import proofs.«422429_j3118146257467_1_alg».proof.Proof.Spec.Chain
import proofs.«422429_j3118146257467_1_alg».proof.Proof.Gen.KernelIdeal.Regions
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo

variable {F : FTy → Type} [FloatOps F]

section BeforeRegion0

variable (V : Valuation τ sig (Elt F))

/-! ## The first stretch: edge lists with self loops, the degrees, the two halves of the guarded inverse root -/

theorem ops0_v3 : StableHlo.after hostOps0 V (Proc.devRef .tc main_v3) = Cert.Spec.rowOf (V (Proc.devRef .tc main_arg1)) := by
  after_results; rfl
theorem ops0_v6 : StableHlo.after hostOps0 V (Proc.devRef .tc main_v6) = Cert.Spec.colOf (V (Proc.devRef .tc main_arg1)) := by
  after_results; rfl
theorem ops0_v12 : StableHlo.after hostOps0 V (Proc.devRef .tc main_v12)
    = cmpf .ogt (Cert.Spec.degOf (F := F) (V (Proc.devRef .tc main_arg1))) (broadcastInDim S100000 ![] bcast_S_S100000 (constant S_ .f32 0x00000000#32)) := by
  after_results; rfl
theorem ops0_v15 : StableHlo.after hostOps0 V (Proc.devRef .tc main_v15)
    = Host.rsqrt (maximumf (Cert.Spec.degOf (F := F) (V (Proc.devRef .tc main_arg1))) (broadcastInDim S100000 ![] bcast_S_S100000 (constant S_ .f32 0x2B8CBCCC#32))) := by
  after_results; rfl
theorem ops0_cst3 : StableHlo.after hostOps0 V (Proc.devRef .tc main_cst_3) = constant (F := F) S_ .f32 0x00000000#32 := by
  after_results

/-! ## The second stretch: the select that makes deg^(-1/2), zero where the degree is not positive -/

theorem ops01_v16 (e : IVec S2x1600000 32)
    (h12 : (V (Proc.devRef .tc main_v12) : IVec S100000 1) = cmpf .ogt (Cert.Spec.degOf (F := F) e) (broadcastInDim S100000 ![] bcast_S_S100000 (constant S_ .f32 0x00000000#32)))
    (h15 : (V (Proc.devRef .tc main_v15) : FVec F S100000 .f32) = Host.rsqrt (maximumf (Cert.Spec.degOf (F := F) e) (broadcastInDim S100000 ![] bcast_S_S100000 (constant S_ .f32 0x2B8CBCCC#32))))
    (hc : (V (Proc.devRef .tc main_cst_3) : FVec F S_ .f32) = constant (F := F) S_ .f32 0x00000000#32) :
    StableHlo.after hostOps0_1 V (Proc.devRef .tc main_v16) = Cert.Spec.dinvOf (F := F) e := by
  after_results
  rw [h12, h15, hc]; rfl

/-! ## The third stretch: the edge coefficients and the first layer's weights -/

theorem ops02_v32 (e : IVec S2x1600000 32)
    (h3 : (V (Proc.devRef .tc main_v3) : IVec S1700000 32) = Cert.Spec.rowOf e)
    (h6 : (V (Proc.devRef .tc main_v6) : IVec S1700000 32) = Cert.Spec.colOf e)
    (h16 : (V (Proc.devRef .tc main_v16) : FVec F S100000 .f32) = Cert.Spec.dinvOf (F := F) e) :
    StableHlo.after hostOps0_2 V (Proc.devRef .tc main_v32) = Cert.Spec.normOf (F := F) e := by
  after_results_simp
  rw [h3, h6, h16]; rfl
theorem ops02_v34 : StableHlo.after hostOps0_2 V (Proc.devRef .tc main_v34) = Cert.Spec.w0Of (F := F) (V (Proc.devRef .tc main_arg3)) := by
  after_results_simp; rfl

end BeforeRegion0

section Layer0

variable (V : Valuation τ sig (Elt F))

/-! ## The message passing after layer 0's matmul, and the next region's bias row and weights -/

theorem ops1_layer (e : IVec S2x1600000 32)
    (h3 : (V (Proc.devRef .tc main_v3) : IVec S1700000 32) = Cert.Spec.rowOf e)
    (h6 : (V (Proc.devRef .tc main_v6) : IVec S1700000 32) = Cert.Spec.colOf e)
    (h32 : (V (Proc.devRef .tc main_v32) : FVec F S1700000x1 .f32) = Cert.Spec.normOf (F := F) e) :
    StableHlo.after hostOps1 V (Proc.devRef .tc main_v47) = Cert.Spec.layer (F := F) e (V (Proc.devRef .tc main_v35)) := by
  after_results_simp
  rw [h3, h6, h32]; rfl
theorem ops1_bias : StableHlo.after hostOps1 V (Proc.devRef .tc main_v50) = Cert.Spec.b0Of (F := F) (V (Proc.devRef .tc main_arg4)) := by
  after_results_simp; rfl
theorem ops1_weight : StableHlo.after hostOps1 V (Proc.devRef .tc main_v52) = Cert.Spec.w1Of (F := F) (V (Proc.devRef .tc main_arg3)) := by
  after_results_simp; rfl

end Layer0

section Layer1

variable (V : Valuation τ sig (Elt F))

/-! ## The message passing after layer 1's matmul, and the next region's bias row and weights -/

theorem ops2_layer (e : IVec S2x1600000 32)
    (h3 : (V (Proc.devRef .tc main_v3) : IVec S1700000 32) = Cert.Spec.rowOf e)
    (h6 : (V (Proc.devRef .tc main_v6) : IVec S1700000 32) = Cert.Spec.colOf e)
    (h32 : (V (Proc.devRef .tc main_v32) : FVec F S1700000x1 .f32) = Cert.Spec.normOf (F := F) e) :
    StableHlo.after hostOps2 V (Proc.devRef .tc main_v65) = Cert.Spec.layer (F := F) e (V (Proc.devRef .tc main_v53)) := by
  after_results_simp
  rw [h3, h6, h32]; rfl
theorem ops2_bias : StableHlo.after hostOps2 V (Proc.devRef .tc main_v68) = Cert.Spec.b1Of (F := F) (V (Proc.devRef .tc main_arg4)) := by
  after_results_simp; rfl
theorem ops2_weight : StableHlo.after hostOps2 V (Proc.devRef .tc main_v70) = Cert.Spec.w2Of (F := F) (V (Proc.devRef .tc main_arg3)) := by
  after_results_simp; rfl

end Layer1

section Layer2

variable (V : Valuation τ sig (Elt F))

/-! ## The message passing after layer 2's matmul, and the next region's bias row -/

theorem ops3_layer (e : IVec S2x1600000 32)
    (h3 : (V (Proc.devRef .tc main_v3) : IVec S1700000 32) = Cert.Spec.rowOf e)
    (h6 : (V (Proc.devRef .tc main_v6) : IVec S1700000 32) = Cert.Spec.colOf e)
    (h32 : (V (Proc.devRef .tc main_v32) : FVec F S1700000x1 .f32) = Cert.Spec.normOf (F := F) e) :
    StableHlo.after hostOps3 V (Proc.devRef .tc main_v83) = Cert.Spec.layer (F := F) e (V (Proc.devRef .tc main_v71)) := by
  after_results_simp
  rw [h3, h6, h32]; rfl
theorem ops3_bias : StableHlo.after hostOps3 V (Proc.devRef .tc main_v86) = Cert.Spec.b2Of (F := F) (V (Proc.devRef .tc main_arg4)) := by
  after_results_simp; rfl

/-! The pooling region's other operands: the graph index as a column, the head's bias rows. -/
theorem ops3_v87 : StableHlo.after hostOps3 V (Proc.devRef .tc main_v87)
    = shapeCast S100000x1 (V (Proc.devRef .tc main_arg2) : IVec S100000 32) shapeCasts_S100000_S100000x1 := by
  after_results_simp; rfl
theorem ops3_v88 : StableHlo.after hostOps3 V (Proc.devRef .tc main_v88)
    = shapeCast S1x128 (V (Proc.devRef .tc main_arg6) : FVec F S128 .f32) shapeCasts_S128_S1x128 := by
  after_results_simp; rfl
theorem ops3_v89 : StableHlo.after hostOps3 V (Proc.devRef .tc main_v89)
    = shapeCast S1x1 (V (Proc.devRef .tc main_arg8) : FVec F S1 .f32) shapeCasts_S1_S1x1 := by
  after_results_simp; rfl

/-! ## The last stretch: the result row flattened -/
theorem ops4_v91 : StableHlo.after hostOps4 V (Proc.devRef .tc main_v91)
    = shapeCast S64 (V (Proc.devRef .tc main_v90) : FVec F S1x64 .f32) shapeCasts_S1x64_S64 := by
  after_results; rfl

end Layer2

variable (m : (ℓ : Loc nD τ sig) → Buf (Elt F) ℓ)

/-- The edge list at launch. -/
abbrev edges (c : Dev nD) : IVec S2x1600000 32 := m ((c : Thread nD τ).loc main_arg1)

/-! ## Buffers that nothing writes

A stretch leaves a buffer none of its operations writes; a region leaves every buffer that is not one of its windows'
arrays. `KeptK r`: up to boundary `K` (counted as the valuations `W4 … W10` are), nothing after the third stretch
writes `r` and no region has it for a window. -/

theorem W1_at (c : Dev nD) (r : Ref sig .tc) (h0 : r ∉ hostOps0_W) :
    W1 m c (Proc.devRef .tc r) = m ((c : Thread nD τ).loc r) :=
  StableHlo.after_of_writes_sub hostOps0 _ hostOps0_writes h0
theorem W2_at (c : Dev nD) (r : Ref sig .tc) (h0 : r ∉ hostOps0_W) (h1 : r ∉ hostOps0_1_W) :
    W2 m c (Proc.devRef .tc r) = m ((c : Thread nD τ).loc r) :=
  (StableHlo.after_of_writes_sub hostOps0_1 _ hostOps0_1_writes h1).trans (W1_at m c r h0)
theorem W3_at (c : Dev nD) (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans (W2_at m c r h0 h1)

abbrev Kept4 (r : Ref sig .tc) : Prop := ∀ w, Pipeline.arrRef spec0 w ≠ r
abbrev Kept5 (r : Ref sig .tc) : Prop := Kept4 r ∧ r ∉ hostOps1_W
abbrev Kept6 (r : Ref sig .tc) : Prop := Kept5 r ∧ ∀ w, Pipeline.arrRef spec1 w ≠ r
abbrev Kept7 (r : Ref sig .tc) : Prop := Kept6 r ∧ r ∉ hostOps2_W
abbrev Kept8 (r : Ref sig .tc) : Prop := Kept7 r ∧ ∀ w, Pipeline.arrRef spec2 w ≠ r
abbrev Kept9 (r : Ref sig .tc) : Prop := Kept8 r ∧ r ∉ hostOps3_W
abbrev Kept10 (r : Ref sig .tc) : Prop := Kept9 r ∧ ∀ w, Pipeline.arrRef spec3 w ≠ r

theorem W4_kept (c : Dev nD) {r : Ref sig .tc} (h : Kept4 r) : W4 m c (Proc.devRef .tc r) = W3 m c (Proc.devRef .tc r) :=
  W4_of_ne m c r h
theorem W5_kept (c : Dev nD) {r : Ref sig .tc} (h : Kept5 r) : W5 m c (Proc.devRef .tc r) = W3 m c (Proc.devRef .tc r) :=
  (StableHlo.after_of_writes_sub hostOps1 _ hostOps1_writes h.2).trans (W4_kept m c h.1)
theorem W6_kept (c : Dev nD) {r : Ref sig .tc} (h : Kept6 r) : W6 m c (Proc.devRef .tc r) = W3 m c (Proc.devRef .tc r) :=
  (W6_of_ne m c r h.2).trans (W5_kept m c h.1)
theorem W7_kept (c : Dev nD) {r : Ref sig .tc} (h : Kept7 r) : W7 m c (Proc.devRef .tc r) = W3 m c (Proc.devRef .tc r) :=
  (StableHlo.after_of_writes_sub hostOps2 _ hostOps2_writes h.2).trans (W6_kept m c h.1)
theorem W8_kept (c : Dev nD) {r : Ref sig .tc} (h : Kept8 r) : W8 m c (Proc.devRef .tc r) = W3 m c (Proc.devRef .tc r) :=
  (W8_of_ne m c r h.2).trans (W7_kept m c h.1)
theorem W9_kept (c : Dev nD) {r : Ref sig .tc} (h : Kept9 r) : W9 m c (Proc.devRef .tc r) = W3 m c (Proc.devRef .tc r) :=
  (StableHlo.after_of_writes_sub hostOps3 _ hostOps3_writes h.2).trans (W8_kept m c h.1)
theorem W10_kept (c : Dev nD) {r : Ref sig .tc} (h : Kept10 r) : W10 m c (Proc.devRef .tc r) = W3 m c (Proc.devRef .tc r) :=
  (W10_of_ne m c r h.2).trans (W9_kept m c h.1)

/-- The edge lists, the edge coefficients and seven of the arguments are written by nothing after the third stretch and
    are no region's window; the two weight matrices of the head are windows of the last region only. -/
theorem kept_v3 : Kept10 main_v3 := by decide
theorem kept_v6 : Kept10 main_v6 := by decide
theorem kept_v32 : Kept10 main_v32 := by decide
theorem kept_arg2 : Kept10 main_arg2 := by decide
theorem kept_arg3 : Kept10 main_arg3 := by decide
theorem kept_arg4 : Kept10 main_arg4 := by decide
theorem kept_arg6 : Kept10 main_arg6 := by decide
theorem kept_arg8 : Kept10 main_arg8 := by decide
theorem kept_arg5 : Kept9 main_arg5 := by decide
theorem kept_arg7 : Kept9 main_arg7 := by decide

/-! ## At region 0's entry -/

theorem W1_v3 (c : Dev nD) : W1 m c (Proc.devRef .tc main_v3) = Cert.Spec.rowOf (edges m c) := ops0_v3 (W0 m c)
theorem W1_v6 (c : Dev nD) : W1 m c (Proc.devRef .tc main_v6) = Cert.Spec.colOf (edges m c) := ops0_v6 (W0 m c)
theorem W2_v3 (c : Dev nD) : W2 m c (Proc.devRef .tc main_v3) = Cert.Spec.rowOf (edges m c) :=
  (StableHlo.after_of_writes_sub hostOps0_1 _ hostOps0_1_writes (by decide)).trans (W1_v3 m c)
theorem W2_v6 (c : Dev nD) : W2 m c (Proc.devRef .tc main_v6) = Cert.Spec.colOf (edges m c) :=
  (StableHlo.after_of_writes_sub hostOps0_1 _ hostOps0_1_writes (by decide)).trans (W1_v6 m c)
theorem W2_v16 (c : Dev nD) : W2 m c (Proc.devRef .tc main_v16) = Cert.Spec.dinvOf (F := F) (edges m c) :=
  ops01_v16 (W1 m c) (edges m c) (ops0_v12 (W0 m c)) (ops0_v15 (W0 m c)) (ops0_cst3 (W0 m c))

theorem W3_v3 (c : Dev nD) : W3 m c (Proc.devRef .tc main_v3) = Cert.Spec.rowOf (edges m c) :=
  (StableHlo.after_of_writes_sub hostOps0_2 _ hostOps0_2_writes (by decide)).trans (W2_v3 m c)
theorem W3_v6 (c : Dev nD) : W3 m c (Proc.devRef .tc main_v6) = Cert.Spec.colOf (edges m c) :=
  (StableHlo.after_of_writes_sub hostOps0_2 _ hostOps0_2_writes (by decide)).trans (W2_v6 m c)
theorem W3_v32 (c : Dev nD) : W3 m c (Proc.devRef .tc main_v32) = Cert.Spec.normOf (F := F) (edges m c) :=
  ops02_v32 (W2 m c) (edges m c) (W2_v3 m c) (W2_v6 m c) (W2_v16 m c)
theorem W3_v34 (c : Dev nD) : W3 m c (Proc.devRef .tc main_v34) = Cert.Spec.w0Of (F := F) (m ((c : Thread nD τ).loc main_arg3)) :=
  (ops02_v34 (W2 m c)).trans (congrArg (Cert.Spec.w0Of (F := F)) (W2_at m c main_arg3 (by decide) (by decide)))
theorem W3_arg0 (c : Dev nD) : W3 m c (Proc.devRef .tc main_arg0) = m ((c : Thread nD τ).loc main_arg0) := W3_at m c main_arg0 (by decide) (by decide) (by decide)
theorem W3_arg1 (c : Dev nD) : W3 m c (Proc.devRef .tc main_arg1) = m ((c : Thread nD τ).loc main_arg1) := W3_at m c main_arg1 (by decide) (by decide) (by decide)
theorem W3_arg2 (c : Dev nD) : W3 m c (Proc.devRef .tc main_arg2) = m ((c : Thread nD τ).loc main_arg2) := W3_at m c main_arg2 (by decide) (by decide) (by decide)
theorem W3_arg3 (c : Dev nD) : W3 m c (Proc.devRef .tc main_arg3) = m ((c : Thread nD τ).loc main_arg3) := W3_at m c main_arg3 (by decide) (by decide) (by decide)
theorem W3_arg4 (c : Dev nD) : W3 m c (Proc.devRef .tc main_arg4) = m ((c : Thread nD τ).loc main_arg4) := W3_at m c main_arg4 (by decide) (by decide) (by decide)
theorem W3_arg5 (c : Dev nD) : W3 m c (Proc.devRef .tc main_arg5) = m ((c : Thread nD τ).loc main_arg5) := W3_at m c main_arg5 (by decide) (by decide) (by decide)
theorem W3_arg6 (c : Dev nD) : W3 m c (Proc.devRef .tc main_arg6) = m ((c : Thread nD τ).loc main_arg6) := W3_at m c main_arg6 (by decide) (by decide) (by decide)
theorem W3_arg7 (c : Dev nD) : W3 m c (Proc.devRef .tc main_arg7) = m ((c : Thread nD τ).loc main_arg7) := W3_at m c main_arg7 (by decide) (by decide) (by decide)
theorem W3_arg8 (c : Dev nD) : W3 m c (Proc.devRef .tc main_arg8) = m ((c : Thread nD τ).loc main_arg8) := W3_at m c main_arg8 (by decide) (by decide) (by decide)

/-! ## The edge lists and coefficients at every later boundary -/

theorem W4_v3 (c : Dev nD) : W4 m c (Proc.devRef .tc main_v3) = Cert.Spec.rowOf (edges m c) := (W4_kept m c kept_v3.1.1.1.1.1.1).trans (W3_v3 m c)
theorem W4_v6 (c : Dev nD) : W4 m c (Proc.devRef .tc main_v6) = Cert.Spec.colOf (edges m c) := (W4_kept m c kept_v6.1.1.1.1.1.1).trans (W3_v6 m c)
theorem W4_v32 (c : Dev nD) : W4 m c (Proc.devRef .tc main_v32) = Cert.Spec.normOf (F := F) (edges m c) := (W4_kept m c kept_v32.1.1.1.1.1.1).trans (W3_v32 m c)
theorem W5_v3 (c : Dev nD) : W5 m c (Proc.devRef .tc main_v3) = Cert.Spec.rowOf (edges m c) := (W5_kept m c kept_v3.1.1.1.1.1).trans (W3_v3 m c)
theorem W5_v6 (c : Dev nD) : W5 m c (Proc.devRef .tc main_v6) = Cert.Spec.colOf (edges m c) := (W5_kept m c kept_v6.1.1.1.1.1).trans (W3_v6 m c)
theorem W5_v32 (c : Dev nD) : W5 m c (Proc.devRef .tc main_v32) = Cert.Spec.normOf (F := F) (edges m c) := (W5_kept m c kept_v32.1.1.1.1.1).trans (W3_v32 m c)
theorem W6_v3 (c : Dev nD) : W6 m c (Proc.devRef .tc main_v3) = Cert.Spec.rowOf (edges m c) := (W6_kept m c kept_v3.1.1.1.1).trans (W3_v3 m c)
theorem W6_v6 (c : Dev nD) : W6 m c (Proc.devRef .tc main_v6) = Cert.Spec.colOf (edges m c) := (W6_kept m c kept_v6.1.1.1.1).trans (W3_v6 m c)
theorem W6_v32 (c : Dev nD) : W6 m c (Proc.devRef .tc main_v32) = Cert.Spec.normOf (F := F) (edges m c) := (W6_kept m c kept_v32.1.1.1.1).trans (W3_v32 m c)
theorem W7_v3 (c : Dev nD) : W7 m c (Proc.devRef .tc main_v3) = Cert.Spec.rowOf (edges m c) := (W7_kept m c kept_v3.1.1.1).trans (W3_v3 m c)
theorem W7_v6 (c : Dev nD) : W7 m c (Proc.devRef .tc main_v6) = Cert.Spec.colOf (edges m c) := (W7_kept m c kept_v6.1.1.1).trans (W3_v6 m c)
theorem W7_v32 (c : Dev nD) : W7 m c (Proc.devRef .tc main_v32) = Cert.Spec.normOf (F := F) (edges m c) := (W7_kept m c kept_v32.1.1.1).trans (W3_v32 m c)
theorem W8_v3 (c : Dev nD) : W8 m c (Proc.devRef .tc main_v3) = Cert.Spec.rowOf (edges m c) := (W8_kept m c kept_v3.1.1).trans (W3_v3 m c)
theorem W8_v6 (c : Dev nD) : W8 m c (Proc.devRef .tc main_v6) = Cert.Spec.colOf (edges m c) := (W8_kept m c kept_v6.1.1).trans (W3_v6 m c)
theorem W8_v32 (c : Dev nD) : W8 m c (Proc.devRef .tc main_v32) = Cert.Spec.normOf (F := F) (edges m c) := (W8_kept m c kept_v32.1.1).trans (W3_v32 m c)
theorem W9_v3 (c : Dev nD) : W9 m c (Proc.devRef .tc main_v3) = Cert.Spec.rowOf (edges m c) := (W9_kept m c kept_v3.1).trans (W3_v3 m c)
theorem W9_v6 (c : Dev nD) : W9 m c (Proc.devRef .tc main_v6) = Cert.Spec.colOf (edges m c) := (W9_kept m c kept_v6.1).trans (W3_v6 m c)
theorem W9_v32 (c : Dev nD) : W9 m c (Proc.devRef .tc main_v32) = Cert.Spec.normOf (F := F) (edges m c) := (W9_kept m c kept_v32.1).trans (W3_v32 m c)
theorem W10_v3 (c : Dev nD) : W10 m c (Proc.devRef .tc main_v3) = Cert.Spec.rowOf (edges m c) := (W10_kept m c kept_v3).trans (W3_v3 m c)
theorem W10_v6 (c : Dev nD) : W10 m c (Proc.devRef .tc main_v6) = Cert.Spec.colOf (edges m c) := (W10_kept m c kept_v6).trans (W3_v6 m c)
theorem W10_v32 (c : Dev nD) : W10 m c (Proc.devRef .tc main_v32) = Cert.Spec.normOf (F := F) (edges m c) := (W10_kept m c kept_v32).trans (W3_v32 m c)

/-! A buffer that nothing writes and no region up to boundary `K` has for a window is at its launch contents there. -/
theorem W4_arg (c : Dev nD) {r : Ref sig .tc} (h : Kept4 r) (h0 : r ∉ hostOps0_W) (h1 : r ∉ hostOps0_1_W) (h2 : r ∉ hostOps0_2_W) :
    W4 m c (Proc.devRef .tc r) = m ((c : Thread nD τ).loc r) := (W4_kept m c h).trans (W3_at m c r h0 h1 h2)
theorem W5_arg (c : Dev nD) {r : Ref sig .tc} (h : Kept5 r) (h0 : r ∉ hostOps0_W) (h1 : r ∉ hostOps0_1_W) (h2 : r ∉ hostOps0_2_W) :
    W5 m c (Proc.devRef .tc r) = m ((c : Thread nD τ).loc r) := (W5_kept m c h).trans (W3_at m c r h0 h1 h2)
theorem W6_arg (c : Dev nD) {r : Ref sig .tc} (h : Kept6 r) (h0 : r ∉ hostOps0_W) (h1 : r ∉ hostOps0_1_W) (h2 : r ∉ hostOps0_2_W) :
    W6 m c (Proc.devRef .tc r) = m ((c : Thread nD τ).loc r) := (W6_kept m c h).trans (W3_at m c r h0 h1 h2)
theorem W7_arg (c : Dev nD) {r : Ref sig .tc} (h : Kept7 r) (h0 : r ∉ hostOps0_W) (h1 : r ∉ hostOps0_1_W) (h2 : r ∉ hostOps0_2_W) :
    W7 m c (Proc.devRef .tc r) = m ((c : Thread nD τ).loc r) := (W7_kept m c h).trans (W3_at m c r h0 h1 h2)
theorem W8_arg (c : Dev nD) {r : Ref sig .tc} (h : Kept8 r) (h0 : r ∉ hostOps0_W) (h1 : r ∉ hostOps0_1_W) (h2 : r ∉ hostOps0_2_W) :
    W8 m c (Proc.devRef .tc r) = m ((c : Thread nD τ).loc r) := (W8_kept m c h).trans (W3_at m c r h0 h1 h2)
theorem W9_arg (c : Dev nD) {r : Ref sig .tc} (h : Kept9 r) (h0 : r ∉ hostOps0_W) (h1 : r ∉ hostOps0_1_W) (h2 : r ∉ hostOps0_2_W) :
    W9 m c (Proc.devRef .tc r) = m ((c : Thread nD τ).loc r) := (W9_kept m c h).trans (W3_at m c r h0 h1 h2)
theorem W10_arg (c : Dev nD) {r : Ref sig .tc} (h : Kept10 r) (h0 : r ∉ hostOps0_W) (h1 : r ∉ hostOps0_1_W) (h2 : r ∉ hostOps0_2_W) :
    W10 m c (Proc.devRef .tc r) = m ((c : Thread nD τ).loc r) := (W10_kept m c h).trans (W3_at m c r h0 h1 h2)

/-! ## At region 1's entry -/

theorem W5_v47 (c : Dev nD) : W5 m c (Proc.devRef .tc main_v47) = Cert.Spec.layer (F := F) (edges m c) (W4 m c (Proc.devRef .tc main_v35)) :=
  ops1_layer (W4 m c) (edges m c) (W4_v3 m c) (W4_v6 m c) (W4_v32 m c)
theorem W5_v50 (c : Dev nD) : W5 m c (Proc.devRef .tc main_v50) = Cert.Spec.b0Of (F := F) (m ((c : Thread nD τ).loc main_arg4)) :=
  (ops1_bias (W4 m c)).trans (congrArg (Cert.Spec.b0Of (F := F)) (W4_arg m c kept_arg4.1.1.1.1.1.1 (by decide) (by decide) (by decide)))
theorem W5_v52 (c : Dev nD) : W5 m c (Proc.devRef .tc main_v52) = Cert.Spec.w1Of (F := F) (m ((c : Thread nD τ).loc main_arg3)) :=
  (ops1_weight (W4 m c)).trans (congrArg (Cert.Spec.w1Of (F := F)) (W4_arg m c kept_arg3.1.1.1.1.1.1 (by decide) (by decide) (by decide)))

/-! ## At region 2's entry -/

theorem W7_v65 (c : Dev nD) : W7 m c (Proc.devRef .tc main_v65) = Cert.Spec.layer (F := F) (edges m c) (W6 m c (Proc.devRef .tc main_v53)) :=
  ops2_layer (W6 m c) (edges m c) (W6_v3 m c) (W6_v6 m c) (W6_v32 m c)
theorem W7_v68 (c : Dev nD) : W7 m c (Proc.devRef .tc main_v68) = Cert.Spec.b1Of (F := F) (m ((c : Thread nD τ).loc main_arg4)) :=
  (ops2_bias (W6 m c)).trans (congrArg (Cert.Spec.b1Of (F := F)) (W6_arg m c kept_arg4.1.1.1.1 (by decide) (by decide) (by decide)))
theorem W7_v70 (c : Dev nD) : W7 m c (Proc.devRef .tc main_v70) = Cert.Spec.w2Of (F := F) (m ((c : Thread nD τ).loc main_arg3)) :=
  (ops2_weight (W6 m c)).trans (congrArg (Cert.Spec.w2Of (F := F)) (W6_arg m c kept_arg3.1.1.1.1 (by decide) (by decide) (by decide)))

/-! ## At region 3's entry -/

theorem W9_v83 (c : Dev nD) : W9 m c (Proc.devRef .tc main_v83) = Cert.Spec.layer (F := F) (edges m c) (W8 m c (Proc.devRef .tc main_v71)) :=
  ops3_layer (W8 m c) (edges m c) (W8_v3 m c) (W8_v6 m c) (W8_v32 m c)
theorem W9_v86 (c : Dev nD) : W9 m c (Proc.devRef .tc main_v86) = Cert.Spec.b2Of (F := F) (m ((c : Thread nD τ).loc main_arg4)) :=
  (ops3_bias (W8 m c)).trans (congrArg (Cert.Spec.b2Of (F := F)) (W8_arg m c kept_arg4.1.1 (by decide) (by decide) (by decide)))
theorem W9_v87 (c : Dev nD) : W9 m c (Proc.devRef .tc main_v87)
    = shapeCast S100000x1 (m ((c : Thread nD τ).loc main_arg2) : IVec S100000 32) shapeCasts_S100000_S100000x1 :=
  (ops3_v87 (W8 m c)).trans (congrArg (fun x : IVec S100000 32 => shapeCast S100000x1 x shapeCasts_S100000_S100000x1)
    (W8_arg m c kept_arg2.1.1 (by decide) (by decide) (by decide)))
theorem W9_v88 (c : Dev nD) : W9 m c (Proc.devRef .tc main_v88)
    = shapeCast S1x128 (m ((c : Thread nD τ).loc main_arg6) : FVec F S128 .f32) shapeCasts_S128_S1x128 :=
  (ops3_v88 (W8 m c)).trans (congrArg (fun x : FVec F S128 .f32 => shapeCast S1x128 x shapeCasts_S128_S1x128)
    (W8_arg m c kept_arg6.1.1 (by decide) (by decide) (by decide)))
theorem W9_v89 (c : Dev nD) : W9 m c (Proc.devRef .tc main_v89)
    = shapeCast S1x1 (m ((c : Thread nD τ).loc main_arg8) : FVec F S1 .f32) shapeCasts_S1_S1x1 :=
  (ops3_v89 (W8 m c)).trans (congrArg (fun x : FVec F S1 .f32 => shapeCast S1x1 x shapeCasts_S1_S1x1)
    (W8_arg m c kept_arg8.1.1 (by decide) (by decide) (by decide)))
theorem W9_arg5 (c : Dev nD) : W9 m c (Proc.devRef .tc main_arg5) = m ((c : Thread nD τ).loc main_arg5) :=
  W9_arg m c kept_arg5 (by decide) (by decide) (by decide)
theorem W9_arg7 (c : Dev nD) : W9 m c (Proc.devRef .tc main_arg7) = m ((c : Thread nD τ).loc main_arg7) :=
  W9_arg m c kept_arg7 (by decide) (by decide) (by decide)

/-! ## At the return -/

theorem W11_v91 (c : Dev nD) : W11 m c (Proc.devRef .tc main_v91)
    = shapeCast S64 (W10 m c (Proc.devRef .tc main_v90) : FVec F S1x64 .f32) shapeCasts_S1x64_S64 :=
  ops4_v91 (W10 m c)

end Cert.KernelIdeal.Hand

end
-- ==== Proof.Spec.Maps.lean ====
/-
  What the kernel program's four regions compute, written once in the reference program's own operations (at any
  float family): the dense product of a feature matrix with a layer's weights; the rectified biased features; and the
  head — per-graph mean of the rectified biased features (sums and counts scattered by graph id), a dense layer with
  bias and rectification, and a last dense layer with bias.
-/
import proofs.«422429_j3118146257467_1_alg».proof.Proof.Gen.ReferenceIdeal

noncomputable section

namespace Cert.Spec

open Cert.ReferenceIdeal Cert.ReferenceIdeal.Facts₀ Cert.ReferenceIdeal.Facts Idealize.ShloMosaic

variable {F : FTy → Type} [FloatOps F]

/-- Features times a layer's weights. -/
def mm (x : FVec F S100000x128 .f32) (w : FVec F S128x128 .f32) : FVec F S100000x128 .f32 :=
  Host.dotGeneral dot_S100000x128_S128x128_S100000x128_1_0_0_1_n_n none x w

/-- max(agg + bias, 0), the bias a row of 128 spread over the 100000 rows. -/
def rbias (agg : FVec F S100000x128 .f32) (b : FVec F S1x128 .f32) : FVec F S100000x128 .f32 :=
  maximumf (addf agg (broadcastInDim S100000x128 ![0, 1] bcast_S1x128_S100000x128_0_1 b))
    (broadcastInDim S100000x128 ![] bcast_S_S100000x128 (constant S_ .f32 0x00000000#32))

/-- Number of nodes of each of the 64 graphs: ones summed by graph id (an id outside 0..63 counts nowhere). -/
def cntOf (batch : IVec S100000x1 32) : FVec F S64 .f32 :=
  Host.scatterAdd scatter_S64_S100000x1_S100000_n_0_0_1
    (broadcastInDim S64 ![] bcast_S_S64 (constant S_ .f32 0x00000000#32)) batch
    (broadcastInDim S100000 ![] bcast_S_S100000 (constant S_ .f32 0x3F800000#32))

/-- Per-graph sums of the node features `h`. -/
def sumOf (batch : IVec S100000x1 32) (h : FVec F S100000x128 .f32) : FVec F S64x128 .f32 :=
  Host.scatterAdd scatter_S64x128_S100000x1_S100000x128_1_0_0_1
    (broadcastInDim S64x128 ![] bcast_S_S64x128 (constant S_ .f32 0x00000000#32)) batch h

/-- Per-graph means: the sums over max(count, 1). -/
def meanOf (batch : IVec S100000x1 32) (h : FVec F S100000x128 .f32) : FVec F S64x128 .f32 :=
  Host.divf (sumOf batch h)
    (broadcastInDim S64x128 ![0, 1] bcast_S64x1_S64x128_0_1
      (broadcastInDim S64x1 ![0] bcast_S64_S64x1_0
        (maximumf (cntOf (F := F) batch) (broadcastInDim S64 ![] bcast_S_S64 (constant S_ .f32 0x3F800000#32)))))

/-- The head on the per-graph means `g`: max(g @ w1 + b1, 0) @ w2 + b2, a column of 64. -/
def mlpOf (g : FVec F S64x128 .f32) (w1 : FVec F S128x128 .f32) (b1 : FVec F S1x128 .f32) (w2 : FVec F S128x1 .f32)
    (b2 : FVec F S1x1 .f32) : FVec F S64x1 .f32 :=
  addf (Host.dotGeneral dot_S64x128_S128x1_S64x1_1_0_0_1_n_n none
      (maximumf (addf (Host.dotGeneral dot_S64x128_S128x128_S64x128_1_0_0_1_n_n none g w1)
          (broadcastInDim S64x128 ![0, 1] bcast_S1x128_S64x128_0_1 b1))
        (broadcastInDim S64x128 ![] bcast_S_S64x128 (constant S_ .f32 0x00000000#32))) w2)
    (broadcastInDim S64x1 ![0, 1] bcast_S1x1_S64x1_0_1 b2)

/-- The whole head from the last layer's aggregated features: one number per graph. -/
def headOf (agg : FVec F S100000x128 .f32) (b : FVec F S1x128 .f32) (batch : IVec S100000x1 32)
    (w1 : FVec F S128x128 .f32) (b1 : FVec F S1x128 .f32) (w2 : FVec F S128x1 .f32) (b2 : FVec F S1x1 .f32) :
    FVec F S64 .f32 :=
  shapeCast S64 (mlpOf (meanOf batch (rbias agg b)) w1 b1 w2 b2) shapeCasts_S64x1_S64

end Cert.Spec

end
-- ==== Proof.KI.Val0.lean ====
/-
  Region 0, the value: what the first layer's dense product leaves in its output array, as one function of the two
  arrays the region finds — the feature matrix times the weight matrix. The body's block product read at an index
  (a sum over the 128 contracted positions), the reference's product read at an index (the same sum), each grid
  point's write-back as the block of the whole product, and the cover of the 100000 rows by the 20 blocks of 5000.
-/
import proofs.«422429_j3118146257467_1_alg».proof.Proof.KI.Reg0
import proofs.«422429_j3118146257467_1_alg».proof.Proof.Spec.Maps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The block product at an index -/

theorem lhs_blockdot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blockdot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blockdot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blockdot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times the weights, accumulated into zero: entry (p, q) is the sum over k of x(p,k)·w(k,q). -/
theorem blockdot_apply {φ₁ φ₂ : FTy} (x : FVec Ideal S5000x128 φ₁) (w : FVec Ideal S128x128 φ₂) (p : Fin 5000) (q : Fin 128) :
    matmul (F := Ideal) dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [el, er]

/-! ## The whole product at an index -/

theorem lhs_wholedot_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_wholedot_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_wholedot_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_wholedot_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The features times the weights: entry (r, q) is the sum over k of x(r,k)·w(k,q). -/
theorem mm_apply (x : FVec Ideal Cert.ReferenceIdeal.S100000x128 .f32) (w : FVec Ideal Cert.ReferenceIdeal.S128x128 .f32) (r : Fin 100000) (q : Fin 128) :
    Cert.Spec.mm (F := Ideal) x w (ix2 r q) = ∑ k : Fin 128, x (ix2 r k) * w (ix2 k q) := by
  unfold Cert.Spec.mm
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact lhs_wholedot_0 _ _
    | ⟨1, _⟩ => exact (lhs_wholedot_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (rhs_wholedot_0 _ _).trans hk
    | ⟨1, _⟩ => exact rhs_wholedot_1 _ _)
  rw [el, er]

/-! ## The body's result at an index -/

/-- The body's arithmetic at an index of the block: the format changes are the identity at the ideal values. -/
theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  rw [blockdot_apply]
  simp only [shapeCast_self]
  rfl

theorem zero_offsets : (![0, 0] : Fin 2 → Nat) = fun _ => 0 := funext fun a => by fin_cases a <;> rfl

/-- What the body leaves in the output window's buffer, at an index. -/
theorem out0_2_apply (x0 : Vec Ideal S5000x128 .f32) (x1 : Vec Ideal S128x128 .f32) (p : Fin 5000) (q : Fin 128) :
    out0_2 (F := Ideal) x0 x1 (ix2 p q) = ∑ k : Fin 128, x0 (ix2 p k) * x1 (ix2 k q) := by
  unfold out0_2
  rw [View.canon_unit_zero zero_offsets]
  simp only [View.ld_unit_zero (S := S5000x128) zero_offsets, View.ld_unit_zero (S := S128x128) zero_offsets]
  exact pay0_apply _ _ p q

/-! ## From the blocks to the array -/

variable (V : (c : Dev nD) → (b : Ref sig .tc) → Buf (Elt Ideal) ((c : Thread nD τ).loc b))

/-- The printed index maps, decided over the grid: the row block moves with the output block, the weights stay. -/
theorem index_facts0 : ∀ t : Fin cfg0.N, win0_0.index t (0 : Fin 2) = win0_2.index t (0 : Fin 2) + 0
    ∧ win0_0.index t (1 : Fin 2) = win0_2.index t (1 : Fin 2) + 0
    ∧ win0_1.index t (0 : Fin 2) = 0
    ∧ win0_1.index t (1 : Fin 2) = 0
    ∧ win0_2.index t (0 : Fin 2) ≤ 19
    ∧ win0_2.index t (1 : Fin 2) ≤ 0 :=
  (by decide +kernel : ∀ t : Fin grid0.N, _)

/-- Every block of rows is some point's. -/
theorem index_onto0 : ∀ (q0 : Fin 20) (q1 : Fin 1), ∃ t : Fin cfg0.N, win0_2.index t = ![q0.val + 0, q1.val + 0] :=
  (by decide +kernel : ∀ (q0 : Fin 20) (q1 : Fin 1), ∃ t : Fin grid0.N, win0_2.index t = ![q0.val + 0, q1.val + 0])

/-- What point `t` writes back is block `t` of the product of the two arrays as the region finds them. -/
theorem flushed0_eq (c : Dev nD) (t : Fin cfg0.N) :
    (dat0 (F := Ideal) V c).flushed 2 t
      = ((cfg0.win 2).blk t).view.read (Elt Ideal) (Cert.Spec.mm (F := Ideal) (V c main_arg0) (V c main_v34)) := by
  show (cfg0.win 2).cut (grid0.coords t) ((dat0 (F := Ideal) V c).after 2 t) = _
  rw [after0_2]
  obtain ⟨e0, e1, e2, e3, e4, e5⟩ := index_facts0 t
  funext j
  obtain ⟨p, q, rfl⟩ : ∃ (p : Fin 5000) (q : Fin 128), j = ix2 p q := ⟨j 0, j 1, eq_ix2 j⟩
  have hp : p.val < 5000 := p.isLt
  have hr : win0_2.index t (0 : Fin 2) * 5000 + p.val < 100000 := by omega
  show out0_2 (F := Ideal) (iblk0 V c 0 t) (iblk0 V c 1 t) (ix2 p q)
    = Cert.Spec.mm (F := Ideal) (V c main_arg0) (V c main_v34) (((cfg0.win 2).blk t).view.emb (ix2 p q))
  have eo : ((cfg0.win 2).blk t).view.emb (ix2 p q) = ix2 (⟨win0_2.index t (0 : Fin 2) * 5000 + p.val, hr⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  have h0 : ∀ k : Fin 128, iblk0 V c 0 t (ix2 p k) = V c main_arg0 (ix2 (⟨win0_2.index t (0 : Fin 2) * 5000 + p.val, hr⟩ : Fin 100000) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  have h1 : ∀ k : Fin 128, iblk0 V c 1 t (ix2 k q) = V c main_v34 (ix2 k q) := fun k => by
    show V c main_v34 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [eo, mm_apply]
  refine (out0_2_apply _ _ p q).trans ?_
  exact Finset.sum_congr rfl fun k _ => congrArg₂ (· * ·) (h0 k) (h1 k)

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Row `r` is in the block of point `r / 5000`: the 20 blocks cover the array. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto0 ⟨(i 0).val / 5000, by omega⟩ ⟨(i 1).val / 128, by omega⟩
  have q0 : win0_2.index t (0 : Fin 2) = (i 0).val / 5000 + 0 := congrFun ht 0
  have q1 : win0_2.index t (1 : Fin 2) = (i 1).val / 128 + 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the run: the features times the weights. -/
theorem final0 (c : Dev nD) :
    (dat0 (F := Ideal) V c).arrAt 2 cfg0.N = Cert.Spec.mm (F := Ideal) (V c main_arg0) (V c main_v34) :=
  (dat0 (F := Ideal) V c).arrAt_eq_of_cover 2 _ (fun t _ => flushed0_eq V c t) covered0

end Cert.KernelIdeal.Hand

end
-- ==== Proof.KI.Val1.lean ====
/-
  Region 1, the value: what the second layer's fused step leaves in its output array, as one function of the three
  arrays the region finds — the rectified biased aggregated features times the weight matrix. The body's arithmetic
  read at an index of a block (the bias row added along every row, the maximum with zero, then the block product), the
  reference's rectified biased features read at an index, each grid point's write-back as the block of the whole
  product, and the cover of the 100000 rows by the 20 blocks of 5000.
-/
import proofs.«422429_j3118146257467_1_alg».proof.Proof.KI.Reg1
import proofs.«422429_j3118146257467_1_alg».proof.Proof.KI.Val0
import proofs.«422429_j3118146257467_1_alg».proof.Proof.Spec.Maps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The body's result at an index -/

/-- A row of 128 laid along each of the 5000 rows of a block, at an index: the row's entry in that column. -/
theorem bias_row1_apply (b : Vec Ideal S1x128 .f32) (h : S1x128.Broadcasts S5000x128) (p : Fin 5000) (k : Fin 128) :
    broadcastTo S5000x128 b h (ix2 p k) = b (ix2 (0 : Fin 1) k) :=
  broadcastTo_apply b h (ix2 p k) (ix2 (0 : Fin 1) k) (by
    intro a
    match a with
    | ⟨0, _⟩ => rfl
    | ⟨1, _⟩ => rfl)

/-- The body's arithmetic at an index of the block: max(x + b, 0) times the weights, summed over the 128 contracted
    positions; the casts and the format changes are the identity at the ideal values. -/
theorem pay1_apply (x : Vec Ideal S5000x128 .f32) (b : Vec Ideal S1x128 .f32) (w : Vec Ideal S128x128 .f32) (p : Fin 5000) (q : Fin 128) :
    k1_pay1 (F := Ideal) x b w (ix2 p q)
      = ∑ k : Fin 128, max (x (ix2 p k) + b (ix2 (0 : Fin 1) k)) (Scalar.ofBits (F := Ideal) .f32 0x00000000#32) * w (ix2 k q) := by
  unfold k1_pay1
  rw [blockdot_apply]
  simp only [shapeCast_self]
  refine Finset.sum_congr rfl fun k _ => ?_
  refine congrArg₂ (· * ·) ?_ rfl
  show max (x (ix2 p k) + broadcastTo S5000x128 b _ (ix2 p k)) (Scalar.ofBits (F := Ideal) .f32 0x00000000#32) = _
  rw [bias_row1_apply]

/-- What the body leaves in the output window's buffer, at an index. -/
theorem out1_3_apply (x0 : Vec Ideal S5000x128 .f32) (x1 : Vec Ideal S1x128 .f32) (x2 : Vec Ideal S128x128 .f32) (p : Fin 5000) (q : Fin 128) :
    out1_3 (F := Ideal) x0 x1 x2 (ix2 p q)
      = ∑ k : Fin 128, max (x0 (ix2 p k) + x1 (ix2 (0 : Fin 1) k)) (Scalar.ofBits (F := Ideal) .f32 0x00000000#32) * x2 (ix2 k q) := by
  unfold out1_3
  rw [View.canon_unit_zero zero_offsets]
  simp only [View.ld_unit_zero (S := S5000x128) zero_offsets, View.ld_unit_zero (S := S1x128) zero_offsets, View.ld_unit_zero (S := S128x128) zero_offsets]
  exact pay1_apply _ _ _ p q

/-! ## The rectified biased features at an index -/

/-- A row of 128 laid along each of the 100000 rows, at an index: the row's entry in that column. -/
theorem bias_rows1_apply (b : FVec Ideal Cert.ReferenceIdeal.S1x128 .f32)
    (h : Cert.ReferenceIdeal.S1x128.BroadcastsInDim Cert.ReferenceIdeal.S100000x128 ![0, 1]) (r : Fin 100000) (k : Fin 128) :
    broadcastInDim Cert.ReferenceIdeal.S100000x128 ![0, 1] h b (ix2 r k) = b (ix2 (0 : Fin 1) k) :=
  broadcastInDim_apply ![0, 1] h b (ix2 r k) (ix2 (0 : Fin 1) k) (by
    intro a
    match a with
    | ⟨0, _⟩ => rfl
    | ⟨1, _⟩ => rfl)

/-- max(agg + bias, 0) at (r, k): the bias row's entry in column k is added to every row. -/
theorem rbias1_apply (agg : FVec Ideal Cert.ReferenceIdeal.S100000x128 .f32) (b : FVec Ideal Cert.ReferenceIdeal.S1x128 .f32) (r : Fin 100000) (k : Fin 128) :
    Cert.Spec.rbias (F := Ideal) agg b (ix2 r k)
      = max (agg (ix2 r k) + b (ix2 (0 : Fin 1) k)) (Scalar.ofBits (F := Ideal) .f32 0x00000000#32) := by
  unfold Cert.Spec.rbias
  show max (agg (ix2 r k) + broadcastInDim Cert.ReferenceIdeal.S100000x128 ![0, 1] _ b (ix2 r k)) (Scalar.ofBits (F := Ideal) .f32 0x00000000#32) = _
  rw [bias_rows1_apply]

/-! ## From the blocks to the array -/

variable (V : (c : Dev nD) → (b : Ref sig .tc) → Buf (Elt Ideal) ((c : Thread nD τ).loc b))

/-- The printed index maps, decided over the grid: the block of aggregated rows moves with the output block, the bias
    row and the weights stay. -/
theorem index_facts1 : ∀ t : Fin cfg1.N, win1_0.index t (0 : Fin 2) = win1_3.index t (0 : Fin 2) + 0
    ∧ win1_0.index t (1 : Fin 2) = win1_3.index t (1 : Fin 2) + 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 19
    ∧ win1_3.index t (1 : Fin 2) ≤ 0 :=
  (by decide +kernel : ∀ t : Fin grid1.N, _)

/-- Every block of rows is some point's. -/
theorem index_onto1 : ∀ (q0 : Fin 20) (q1 : Fin 1), ∃ t : Fin cfg1.N, win1_3.index t = ![q0.val + 0, q1.val + 0] :=
  (by decide +kernel : ∀ (q0 : Fin 20) (q1 : Fin 1), ∃ t : Fin grid1.N, win1_3.index t = ![q0.val + 0, q1.val + 0])

/-- What point `t` writes back is block `t` of the product of the rectified biased features with the weights, of the
    three arrays as the region finds them. -/
theorem flushed1_eq (c : Dev nD) (t : Fin cfg1.N) :
    (dat1 (F := Ideal) V c).flushed 3 t
      = ((cfg1.win 3).blk t).view.read (Elt Ideal)
          (Cert.Spec.mm (F := Ideal) (Cert.Spec.rbias (F := Ideal) (V c main_v47) (V c main_v50)) (V c main_v52)) := by
  show (cfg1.win 3).cut (grid1.coords t) ((dat1 (F := Ideal) V c).after 3 t) = _
  rw [after1_3]
  obtain ⟨e0, e1, e2, e3, e4, e5, e6, e7⟩ := index_facts1 t
  funext j
  obtain ⟨p, q, rfl⟩ : ∃ (p : Fin 5000) (q : Fin 128), j = ix2 p q := ⟨j 0, j 1, eq_ix2 j⟩
  have hp : p.val < 5000 := p.isLt
  have hr : win1_3.index t (0 : Fin 2) * 5000 + p.val < 100000 := by omega
  show out1_3 (F := Ideal) (iblk1 V c 0 t) (iblk1 V c 1 t) (iblk1 V c 2 t) (ix2 p q)
    = Cert.Spec.mm (F := Ideal) (Cert.Spec.rbias (F := Ideal) (V c main_v47) (V c main_v50)) (V c main_v52)
        (((cfg1.win 3).blk t).view.emb (ix2 p q))
  have eo : ((cfg1.win 3).blk t).view.emb (ix2 p q) = ix2 (⟨win1_3.index t (0 : Fin 2) * 5000 + p.val, hr⟩ : Fin 100000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * q.val = q.val; omega
  have h0 : ∀ k : Fin 128, iblk1 V c 0 t (ix2 p k) = V c main_v47 (ix2 (⟨win1_3.index t (0 : Fin 2) * 5000 + p.val, hr⟩ : Fin 100000) k) := fun k => by
    show V c main_v47 (((cfg1.win 0).blk t).view.emb (ix2 p k)) = _
    refine congrArg _ (funext fun a => Fin.ext ?_)
    match a with
    | ⟨0, _⟩ => show win1_0.index t (0 : Fin 2) * 5000 + 1 * p.val = win1_3.index t (0 : Fin 2) * 5000 + p.val; omega
    | ⟨1, _⟩ => show win1_0.index t (1 : Fin 2) * 128 + 1 * k.val = k.val; omega
  have h1 : ∀ k : Fin 128, iblk1 V c 1 t (ix2 (0 : Fin 1) k) = V c main_v50 (ix2 (0 : Fin 1) k) := fun k => by
    show V c main_v50 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have h2 : ∀ k : Fin 128, iblk1 V c 2 t (ix2 k q) = V c main_v52 (ix2 k q) := fun k => by
    show V c main_v52 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  rw [eo, mm_apply]
  refine (out1_3_apply _ _ _ p q).trans ?_
  refine Finset.sum_congr rfl fun k _ => ?_
  rw [rbias1_apply]
  exact congrArg₂ (· * ·) (congrArg₂ (fun u v => max (u + v) (Scalar.ofBits (F := Ideal) .f32 0x00000000#32)) (h0 k) (h1 k)) (h2 k)

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v53).slice (win1_3.rect t)).set ↔ _
  rw [View.set_slice_whole, Rect.mem_set_unit]
  exact Iff.rfl

/-- Row `r` is in the block of point `r / 5000`: the 20 blocks cover the array. -/
theorem covered1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto1 ⟨(i 0).val / 5000, by omega⟩ ⟨(i 1).val / 128, by omega⟩
  have q0 : win1_3.index t (0 : Fin 2) = (i 0).val / 5000 + 0 := congrFun ht 0
  have q1 : win1_3.index t (1 : Fin 2) = (i 1).val / 128 + 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the run: the rectified biased features times the weights. -/
theorem final1 (c : Dev nD) :
    (dat1 (F := Ideal) V c).arrAt 3 cfg1.N
      = Cert.Spec.mm (F := Ideal) (Cert.Spec.rbias (F := Ideal) (V c main_v47) (V c main_v50)) (V c main_v52) :=
  (dat1 (F := Ideal) V c).arrAt_eq_of_cover 3 _ (fun t _ => flushed1_eq V c t) covered1

end Cert.KernelIdeal.Hand

end
-- ==== Proof.KI.Val2.lean ====
/-
  Region 2, the value: what the third layer's fused step leaves in its output array, as one function of the three
  arrays the region finds — the rectified biased aggregated features times the weight matrix. The body's arithmetic
  read at an index of a block (the bias row added along every row, the maximum with zero, then the block product), the
  reference's rectified biased features read at an index, each grid point's write-back as the block of the whole
  product, and the cover of the 100000 rows by the 20 blocks of 5000.
-/
import proofs.«422429_j3118146257467_1_alg».proof.Proof.KI.Reg2
import proofs.«422429_j3118146257467_1_alg».proof.Proof.KI.Val0
import proofs.«422429_j3118146257467_1_alg».proof.Proof.Spec.Maps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The body's result at an index -/

/-- A row of 128 laid along each of the 5000 rows of a block, at an index: the row's entry in that column. -/
theorem bias_row2_apply (b : Vec Ideal S1x128 .f32) (h : S1x128.Broadcasts S5000x128) (p : Fin 5000) (k : Fin 128) :
    broadcastTo S5000x128 b h (ix2 p k) = b (ix2 (0 : Fin 1) k) :=
  broadcastTo_apply b h (ix2 p k) (ix2 (0 : Fin 1) k) (by
    intro a
    match a with
    | ⟨0, _⟩ => rfl
    | ⟨1, _⟩ => rfl)

/-- The body's arithmetic at an index of the block: max(x + b, 0) times the weights, summed over the 128 contracted
    positions; the casts and the format changes are the identity at the ideal values. -/
theorem pay2_apply (x : Vec Ideal S5000x128 .f32) (b : Vec Ideal S1x128 .f32) (w : Vec Ideal S128x128 .f32) (p : Fin 5000) (q : Fin 128) :
    k2_pay1 (F := Ideal) x b w (ix2 p q)
      = ∑ k : Fin 128, max (x (ix2 p k) + b (ix2 (0 : Fin 1) k)) (Scalar.ofBits (F := Ideal) .f32 0x00000000#32) * w (ix2 k q) := by
  unfold k2_pay1
  rw [blockdot_apply]
  simp only [shapeCast_self]
  refine Finset.sum_congr rfl fun k _ => ?_
  refine congrArg₂ (· * ·) ?_ rfl
  show max (x (ix2 p k) + broadcastTo S5000x128 b _ (ix2 p k)) (Scalar.ofBits (F := Ideal) .f32 0x00000000#32) = _
  rw [bias_row2_apply]

/-- What the body leaves in the output window's buffer, at an index. -/
theorem out2_3_apply (x0 : Vec Ideal S5000x128 .f32) (x1 : Vec Ideal S1x128 .f32) (x2 : Vec Ideal S128x128 .f32) (p : Fin 5000) (q : Fin 128) :
    out2_3 (F := Ideal) x0 x1 x2 (ix2 p q)
      = ∑ k : Fin 128, max (x0 (ix2 p k) + x1 (ix2 (0 : Fin 1) k)) (Scalar.ofBits (F := Ideal) .f32 0x00000000#32) * x2 (ix2 k q) := by
  unfold out2_3
  rw [View.canon_unit_zero zero_offsets]
  simp only [View.ld_unit_zero (S := S5000x128) zero_offsets, View.ld_unit_zero (S := S1x128) zero_offsets, View.ld_unit_zero (S := S128x128) zero_offsets]
  exact pay2_apply _ _ _ p q

/-! ## The rectified biased features at an index -/

/-- A row of 128 laid along each of the 100000 rows, at an index: the row's entry in that column. -/
theorem bias_rows2_apply (b : FVec Ideal Cert.ReferenceIdeal.S1x128 .f32)
    (h : Cert.ReferenceIdeal.S1x128.BroadcastsInDim Cert.ReferenceIdeal.S100000x128 ![0, 1]) (r : Fin 100000) (k : Fin 128) :
    broadcastInDim Cert.ReferenceIdeal.S100000x128 ![0, 1] h b (ix2 r k) = b (ix2 (0 : Fin 1) k) :=
  broadcastInDim_apply ![0, 1] h b (ix2 r k) (ix2 (0 : Fin 1) k) (by
    intro a
    match a with
    | ⟨0, _⟩ => rfl
    | ⟨1, _⟩ => rfl)

/-- max(agg + bias, 0) at (r, k): the bias row's entry in column k is added to every row. -/
theorem rbias2_apply (agg : FVec Ideal Cert.ReferenceIdeal.S100000x128 .f32) (b : FVec Ideal Cert.ReferenceIdeal.S1x128 .f32) (r : Fin 100000) (k : Fin 128) :
    Cert.Spec.rbias (F := Ideal) agg b (ix2 r k)
      = max (agg (ix2 r k) + b (ix2 (0 : Fin 1) k)) (Scalar.ofBits (F := Ideal) .f32 0x00000000#32) := by
  unfold Cert.Spec.rbias
  show max (agg (ix2 r k) + broadcastInDim Cert.ReferenceIdeal.S100000x128 ![0, 1] _ b (ix2 r k)) (Scalar.ofBits (F := Ideal) .f32 0x00000000#32) = _
  rw [bias_rows2_apply]

/-! ## From the blocks to the array -/

variable (V : (c : Dev nD) → (b : Ref sig .tc) → Buf (Elt Ideal) ((c : Thread nD τ).loc b))

/-- The printed index maps, decided over the grid: the block of aggregated rows moves with the output block, the bias
    row and the weights stay. -/
theorem index_facts2 : ∀ t : Fin cfg2.N, win2_0.index t (0 : Fin 2) = win2_3.index t (0 : Fin 2) + 0
    ∧ win2_0.index t (1 : Fin 2) = win2_3.index t (1 : Fin 2) + 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 19
    ∧ win2_3.index t (1 : Fin 2) ≤ 0 :=
  (by decide +kernel : ∀ t : Fin grid2.N, _)

/-- Every block of rows is some point's. -/
theorem index_onto2 : ∀ (q0 : Fin 20) (q1 : Fin 1), ∃ t : Fin cfg2.N, win2_3.index t = ![q0.val + 0, q1.val + 0] :=
  (by decide +kernel : ∀ (q0 : Fin 20) (q1 : Fin 1), ∃ t : Fin grid2.N, win2_3.index t = ![q0.val + 0, q1.val + 0])

/-- What point `t` writes back is block `t` of the product of the rectified biased features with the weights, of the
    three arrays as the region finds them. -/
theorem flushed2_eq (c : Dev nD) (t : Fin cfg2.N) :
    (dat2 (F := Ideal) V c).flushed 3 t
      = ((cfg2.win 3).blk t).view.read (Elt Ideal)
          (Cert.Spec.mm (F := Ideal) (Cert.Spec.rbias (F := Ideal) (V c main_v65) (V c main_v68)) (V c main_v70)) := by
  show (cfg2.win 3).cut (grid2.coords t) ((dat2 (F := Ideal) V c).after 3 t) = _
  rw [after2_3]
  obtain ⟨e0, e1, e2, e3, e4, e5, e6, e7⟩ := index_facts2 t
  funext j
  obtain ⟨p, q, rfl⟩ : ∃ (p : Fin 5000) (q : Fin 128), j = ix2 p q := ⟨j 0, j 1, eq_ix2 j⟩
  have hp : p.val < 5000 := p.isLt
  have hr : win2_3.index t (0 : Fin 2) * 5000 + p.val < 100000 := by omega
  show out2_3 (F := Ideal) (iblk2 V c 0 t) (iblk2 V c 1 t) (iblk2 V c 2 t) (ix2 p q)
    = Cert.Spec.mm (F := Ideal) (Cert.Spec.rbias (F := Ideal) (V c main_v65) (V c main_v68)) (V c main_v70)
        (((cfg2.win 3).blk t).view.emb (ix2 p q))
  have eo : ((cfg2.win 3).blk t).view.emb (ix2 p q) = ix2 (⟨win2_3.index t (0 : Fin 2) * 5000 + p.val, hr⟩ : Fin 100000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 128 + 1 * q.val = q.val; omega
  have h0 : ∀ k : Fin 128, iblk2 V c 0 t (ix2 p k) = V c main_v65 (ix2 (⟨win2_3.index t (0 : Fin 2) * 5000 + p.val, hr⟩ : Fin 100000) k) := fun k => by
    show V c main_v65 (((cfg2.win 0).blk t).view.emb (ix2 p k)) = _
    refine congrArg _ (funext fun a => Fin.ext ?_)
    match a with
    | ⟨0, _⟩ => show win2_0.index t (0 : Fin 2) * 5000 + 1 * p.val = win2_3.index t (0 : Fin 2) * 5000 + p.val; omega
    | ⟨1, _⟩ => show win2_0.index t (1 : Fin 2) * 128 + 1 * k.val = k.val; omega
  have h1 : ∀ k : Fin 128, iblk2 V c 1 t (ix2 (0 : Fin 1) k) = V c main_v68 (ix2 (0 : Fin 1) k) := fun k => by
    show V c main_v68 (((cfg2.win 1).blk t).view.emb (ix2 (0 : Fin 1) k)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  have h2 : ∀ k : Fin 128, iblk2 V c 2 t (ix2 k q) = V c main_v70 (ix2 k q) := fun k => by
    show V c main_v70 (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  rw [eo, mm_apply]
  refine (out2_3_apply _ _ _ p q).trans ?_
  refine Finset.sum_congr rfl fun k _ => ?_
  rw [rbias2_apply]
  exact congrArg₂ (· * ·) (congrArg₂ (fun u v => max (u + v) (Scalar.ofBits (F := Ideal) .f32 0x00000000#32)) (h0 k) (h1 k)) (h2 k)

/-- An index of the array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v71).slice (win2_3.rect t)).set ↔ _
  rw [View.set_slice_whole, Rect.mem_set_unit]
  exact Iff.rfl

/-- Row `r` is in the block of point `r / 5000`: the 20 blocks cover the array. -/
theorem covered2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := index_onto2 ⟨(i 0).val / 5000, by omega⟩ ⟨(i 1).val / 128, by omega⟩
  have q0 : win2_3.index t (0 : Fin 2) = (i 0).val / 5000 + 0 := congrFun ht 0
  have q1 : win2_3.index t (1 : Fin 2) = (i 1).val / 128 + 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the run: the rectified biased features times the weights. -/
theorem final2 (c : Dev nD) :
    (dat2 (F := Ideal) V c).arrAt 3 cfg2.N
      = Cert.Spec.mm (F := Ideal) (Cert.Spec.rbias (F := Ideal) (V c main_v65) (V c main_v68)) (V c main_v70) :=
  (dat2 (F := Ideal) V c).arrAt_eq_of_cover 3 _ (fun t _ => flushed2_eq V c t) covered2

end Cert.KernelIdeal.Hand

end
-- ==== Proof.Spec.Pool.lean ====
/-
  Pooling by graph id, index by index over the extended reals: the sum over all 100000 nodes of the features of the
  nodes whose graph id is `g`, and the number of such nodes. Both programs' pooled sums are this function.
-/
import Idealize.ShloMosaic.PureOps.Ideal
import Idealize.ShloMosaic.Lib.ValueIdx

noncomputable section

namespace Cert.Spec

open Idealize.ShloMosaic Idealize.ShloMosaic.ValueIdx

/-- Sum of feature `f` over the nodes whose graph id is `g`. -/
def poolSum (batch : (⟨2, ![100000, 1]⟩ : Shape).Idx → BitVec 32) (h : (⟨2, ![100000, 128]⟩ : Shape).Idx → EReal)
    (g : Fin 64) (f : Fin 128) : EReal :=
  ∑ n : Fin 100000, if batch (ix2 n (0 : Fin 1)) = BitVec.ofNat 32 g.val then h (ix2 n f) else 0

/-- Number of nodes whose graph id is `g`. -/
def poolCnt (batch : (⟨2, ![100000, 1]⟩ : Shape).Idx → BitVec 32) (g : Fin 64) : EReal :=
  ∑ n : Fin 100000, if batch (ix2 n (0 : Fin 1)) = BitVec.ofNat 32 g.val then 1 else 0

/-- max(agg + bias, 0) index by index, the bias a row of 128. -/
def reluBias (agg : (⟨2, ![100000, 128]⟩ : Shape).Idx → EReal) (b : (⟨2, ![1, 128]⟩ : Shape).Idx → EReal) :
    (⟨2, ![100000, 128]⟩ : Shape).Idx → EReal :=
  fun i => max (agg i + b (ix2 (0 : Fin 1) (i 1))) 0

end Cert.Spec

end
-- ==== Proof.KI.Val3Acc.lean ====
/-
  Region 3's accumulated scratch at the ideal instance: after the last grid point the two carried buffers hold, for
  each graph id, the sum of max(agg + bias, 0) over the nodes with that id, and the number of such nodes.
-/
import proofs.«422429_j3118146257467_1_alg».proof.Proof.Gen.KernelIdeal.Launch
import proofs.«422429_j3118146257467_1_alg».proof.Proof.Gen.KernelIdeal.Skeleton
import proofs.«422429_j3118146257467_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«422429_j3118146257467_1_alg».proof.Proof.KI.Reg3
import proofs.«422429_j3118146257467_1_alg».proof.Proof.Spec.Pool
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.IdealHost
import Idealize.ShloMosaic.PureOps.Ideal.Laws
import Mathlib.Algebra.BigOperators.Fin
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## One grid point's payloads at an index -/

/-- A column broadcast along the lanes reads its row's entry. -/
theorem acc3_bcast_col {a b : ℕ} {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The membership matrix: entry (r, g) is one when row r's graph id is g, else zero. -/
theorem onehot_apply (x2 : Vec Ideal S5000x1 .i32) (r : Fin 5000) (g : Fin 64) :
    k3_pay4 (F := Ideal) x2 (ix2 r g) = if x2 (ix2 r (0 : Fin 1)) = BitVec.ofNat 32 g.val then (1 : EReal) else 0 := by
  unfold k3_pay4
  rw [truncf_apply, sitofp_apply, extui_apply]
  show FloatOps.sitofp .f32 ((IntOp.cmpi .eq (broadcastTo S5000x64 (shapeCast S5000x1 x2 shapeCasts_S5000x1_S5000x1) broadcasts_S5000x1_S5000x64 (ix2 r g)) (iota .tc S5000x64 32 [1] iota_S5000x64_d1_w32 (ix2 r g))).setWidth 32) = _
  rw [shapeCast_self, acc3_bcast_col, iota_single_apply]
  show ((((IntOp.cmpi .eq (x2 (ix2 r (0 : Fin 1))) (BitVec.ofNat 32 g.val)).setWidth 32).toInt : ℝ) : EReal) = _
  by_cases hx : x2 (ix2 r (0 : Fin 1)) = BitVec.ofNat 32 g.val
  · rw [if_pos hx, StableHlo.Predicate.cmpi_eq_iff.mpr hx, show ((1#1 : BitVec 1).setWidth 32).toInt = 1 from by decide, Int.cast_one, EReal.coe_one]
  · rw [if_neg hx, eq_zero_of_ne_one (fun h1 => hx (StableHlo.Predicate.cmpi_eq_iff.mp h1)), show ((0#1 : BitVec 1).setWidth 32).toInt = 0 from by decide, Int.cast_zero, EReal.coe_zero]

/-! The sums' contraction (rows of the block against rows of the block), its operand indices axis by axis. -/

theorem lhs_sums_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_sums_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_sums_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_sums_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product into the zero accumulator at (g, f): the sum over the block's rows. -/
theorem sums_matmul_apply (oh : FVec Ideal S5000x64 .bf16) (hv : FVec Ideal S5000x128 .bf16) (g : Fin 64) (f : Fin 128) :
    matmul dot_S5000x64_S5000x128_S64x128_0_0_1_1_n_n none oh hv (constant (F := Ideal) S64x128 .f32 0x00000000#32) (ix2 g f)
      = ∑ r : Fin 5000, oh (ix2 r g) * hv (ix2 r f) := by
  refine (Ideal.matmul_constant_zero_apply dot_S5000x64_S5000x128_S64x128_0_0_1_1_n_n none oh hv (ix2 g f)).trans ?_
  rw [← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g f) ((contrEquiv1 dot_S5000x64_S5000x128_S64x128_0_0_1_1_n_n 5000 rfl rfl).symm k) = ix2 k g := funext fun a => Fin.ext (by
    match a with
    | ⟨0, _⟩ => exact (lhs_sums_0 _ _).trans hk
    | ⟨1, _⟩ => exact lhs_sums_1 _ _)
  have er : dot_S5000x64_S5000x128_S64x128_0_0_1_1_n_n.rhsIdx (ix2 g f) ((contrEquiv1 dot_S5000x64_S5000x128_S64x128_0_0_1_1_n_n 5000 rfl rfl).symm k) = ix2 k f := funext fun a => Fin.ext (by
    match a with
    | ⟨0, _⟩ => exact (rhs_sums_0 _ _).trans hk
    | ⟨1, _⟩ => exact rhs_sums_1 _ _)
  rw [el, er]

/-! The counts' contraction, likewise. -/

theorem lhs_cnts_0 (i : S64x1.Idx) (q : dot_S5000x64_S5000x1_S64x1_0_0_1_1_n_n.contr.Idx) :
    (dot_S5000x64_S5000x1_S64x1_0_0_1_1_n_n.lhsIdx i q 0).val = (q ⟨0, by decide⟩).val :=
  dot_S5000x64_S5000x1_S64x1_0_0_1_1_n_n.lhsIdx_val_of_single rfl i q
theorem lhs_cnts_1 (i : S64x1.Idx) (q : dot_S5000x64_S5000x1_S64x1_0_0_1_1_n_n.contr.Idx) :
    (dot_S5000x64_S5000x1_S64x1_0_0_1_1_n_n.lhsIdx i q 1).val = (i 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem rhs_cnts_0 (i : S64x1.Idx) (q : dot_S5000x64_S5000x1_S64x1_0_0_1_1_n_n.contr.Idx) :
    (dot_S5000x64_S5000x1_S64x1_0_0_1_1_n_n.rhsIdx i q 0).val = (q ⟨0, by decide⟩).val :=
  dot_S5000x64_S5000x1_S64x1_0_0_1_1_n_n.rhsIdx_val_of_single rfl i q
theorem rhs_cnts_1 (i : S64x1.Idx) (q : dot_S5000x64_S5000x1_S64x1_0_0_1_1_n_n.contr.Idx) :
    (dot_S5000x64_S5000x1_S64x1_0_0_1_1_n_n.rhsIdx i q 1).val = (i 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

theorem cnts_matmul_apply (oh : FVec Ideal S5000x64 .bf16) (hv : FVec Ideal S5000x1 .bf16) (g : Fin 64) :
    matmul dot_S5000x64_S5000x1_S64x1_0_0_1_1_n_n none oh hv (constant (F := Ideal) S64x1 .f32 0x00000000#32) (ix2 g (0 : Fin 1))
      = ∑ r : Fin 5000, oh (ix2 r g) * hv (ix2 r (0 : Fin 1)) := by
  refine (Ideal.matmul_constant_zero_apply dot_S5000x64_S5000x1_S64x1_0_0_1_1_n_n none oh hv (ix2 g (0 : Fin 1))).trans ?_
  rw [← Equiv.sum_comp (contrEquiv1 dot_S5000x64_S5000x1_S64x1_0_0_1_1_n_n 5000 rfl rfl).symm]
  refine Finset.sum_congr rfl fun k _ => ?_
  have hk := contrEquiv1_symm_val dot_S5000x64_S5000x1_S64x1_0_0_1_1_n_n 5000 rfl rfl k
  have el : dot_S5000x64_S5000x1_S64x1_0_0_1_1_n_n.lhsIdx (ix2 g (0 : Fin 1)) ((contrEquiv1 dot_S5000x64_S5000x1_S64x1_0_0_1_1_n_n 5000 rfl rfl).symm k) = ix2 k g := funext fun a => Fin.ext (by
    match a with
    | ⟨0, _⟩ => exact (lhs_cnts_0 _ _).trans hk
    | ⟨1, _⟩ => exact lhs_cnts_1 _ _)
  have er : dot_S5000x64_S5000x1_S64x1_0_0_1_1_n_n.rhsIdx (ix2 g (0 : Fin 1)) ((contrEquiv1 dot_S5000x64_S5000x1_S64x1_0_0_1_1_n_n 5000 rfl rfl).symm k) = ix2 k (0 : Fin 1) := funext fun a => Fin.ext (by
    match a with
    | ⟨0, _⟩ => exact (rhs_cnts_0 _ _).trans hk
    | ⟨1, _⟩ => exact rhs_cnts_1 _ _)
  rw [el, er]

/-- The new sums at (g, f): the old entry plus, over the block's rows with graph id g, max(x0 + bias, 0). -/
theorem pay5_apply (x0 : Vec Ideal S5000x128 .f32) (x1 : Vec Ideal S1x128 .f32) (x2 : Vec Ideal S5000x1 .i32) (s : Vec Ideal S64x128 .f32)
    (g : Fin 64) (f : Fin 128) :
    k3_pay5 (F := Ideal) x0 x1 x2 s (ix2 g f)
      = s (ix2 g f) + ∑ r : Fin 5000, (if x2 (ix2 r (0 : Fin 1)) = BitVec.ofNat 32 g.val then max (x0 (ix2 r f) + x1 (ix2 (0 : Fin 1) f)) 0 else 0) := by
  unfold k3_pay5
  simp only [shapeCast_self]
  rw [addf_apply]
  refine congrArg (s (ix2 g f) + ·) ?_
  refine (sums_matmul_apply _ _ g f).trans ?_
  refine Finset.sum_congr rfl fun r _ => ?_
  rw [onehot_apply, truncf_apply, maximumf_apply, addf_apply, broadcastTo_1b_ab_apply]
  have hz : broadcast S5000x128 (Scalar.ofBits (F := Ideal) .f32 0x00000000#32) (ix2 r f) = (0 : EReal) := Ideal.ofBits_zero_f32
  rw [hz]
  split
  · exact one_mul _
  · exact zero_mul _

/-- The new counts at g: the old entry plus the number of the block's rows with graph id g. -/
theorem pay6_apply (x2 : Vec Ideal S5000x1 .i32) (s : Vec Ideal S64x1 .f32) (g : Fin 64) :
    k3_pay6 (F := Ideal) x2 s (ix2 g (0 : Fin 1))
      = s (ix2 g (0 : Fin 1)) + ∑ r : Fin 5000, (if x2 (ix2 r (0 : Fin 1)) = BitVec.ofNat 32 g.val then (1 : EReal) else 0) := by
  unfold k3_pay6
  simp only [shapeCast_self]
  rw [addf_apply]
  refine congrArg (s (ix2 g (0 : Fin 1)) + ·) ?_
  refine (cnts_matmul_apply _ _ g).trans ?_
  refine Finset.sum_congr rfl fun r _ => ?_
  rw [onehot_apply]
  have ho : broadcast S5000x1 (Scalar.ofBits (F := Ideal) .bf16 0x3F80#16) (ix2 r (0 : Fin 1)) = (1 : EReal) := Ideal.ofBits_one_bf16
  rw [ho]
  exact mul_one _

/-- Before the first point the sums are zero, -/
theorem acc_pay2_apply (g : Fin 64) (f : Fin 128) : k3_pay2 (F := Ideal) (ix2 g f) = 0 := by
  unfold k3_pay2
  rw [shapeCast_self]
  exact Ideal.ofBits_zero_f32
/-- and so are the counts. -/
theorem pay3_apply (g : Fin 64) : k3_pay3 (F := Ideal) (ix2 g (0 : Fin 1)) = 0 := by
  unfold k3_pay3
  rw [shapeCast_self]
  exact Ideal.ofBits_zero_f32

/-! ## The blocks a point reads, as entries of the arrays -/

variable (V : (c : Dev nD) → (b : Ref sig .tc) → Buf (Elt Ideal) ((c : Thread nD τ).loc b))

/-- The windows' block indices at each point: the feature and graph-id blocks advance with the point, the bias block
    stays. -/
theorem acc3_blk_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem acc3_pt_lt (t : Fin cfg3.N) : t.val < 20 := lt_of_lt_of_eq t.isLt N_3

theorem acc3_read0 (c : Dev nD) (t : Fin cfg3.N) (r : Fin 5000) (f : Fin 128) (hr : 5000 * t.val + r.val < 100000) :
    iblk3 (F := Ideal) V c 0 t (ix2 r f) = V c main_v83 (ix2 ⟨5000 * t.val + r.val, hr⟩ f) := by
  obtain ⟨e0, e1, e2, e3, e4, e5⟩ := acc3_blk_idx t
  show V c main_v83 (((cfg3.win 0).blk t).view.emb (ix2 r f)) = V c main_v83 (ix2 ⟨5000 * t.val + r.val, hr⟩ f)
  refine congrArg (V c main_v83) (funext fun a => Fin.ext ?_)
  match a with
  | ⟨0, _⟩ => show win3_0.index t (0 : Fin 2) * 5000 + 1 * r.val = 5000 * t.val + r.val; omega
  | ⟨1, _⟩ => show win3_0.index t (1 : Fin 2) * 128 + 1 * f.val = f.val; omega

theorem acc3_read1 (c : Dev nD) (t : Fin cfg3.N) (f : Fin 128) :
    iblk3 (F := Ideal) V c 1 t (ix2 (0 : Fin 1) f) = V c main_v86 (ix2 (0 : Fin 1) f) := by
  obtain ⟨e0, e1, e2, e3, e4, e5⟩ := acc3_blk_idx t
  show V c main_v86 (((cfg3.win 1).blk t).view.emb (ix2 (0 : Fin 1) f)) = V c main_v86 (ix2 (0 : Fin 1) f)
  refine congrArg (V c main_v86) (funext fun a => Fin.ext ?_)
  match a with
  | ⟨0, _⟩ => show win3_1.index t (0 : Fin 2) * 1 + 1 * 0 = 0; omega
  | ⟨1, _⟩ => show win3_1.index t (1 : Fin 2) * 128 + 1 * f.val = f.val; omega

theorem acc3_read2 (c : Dev nD) (t : Fin cfg3.N) (r : Fin 5000) (hr : 5000 * t.val + r.val < 100000) :
    iblk3 (F := Ideal) V c 2 t (ix2 r (0 : Fin 1)) = V c main_v87 (ix2 ⟨5000 * t.val + r.val, hr⟩ (0 : Fin 1)) := by
  obtain ⟨e0, e1, e2, e3, e4, e5⟩ := acc3_blk_idx t
  show V c main_v87 (((cfg3.win 2).blk t).view.emb (ix2 r (0 : Fin 1))) = V c main_v87 (ix2 ⟨5000 * t.val + r.val, hr⟩ (0 : Fin 1))
  refine congrArg (V c main_v87) (funext fun a => Fin.ext ?_)
  match a with
  | ⟨0, _⟩ => show win3_2.index t (0 : Fin 2) * 5000 + 1 * r.val = 5000 * t.val + r.val; omega
  | ⟨1, _⟩ => show win3_2.index t (1 : Fin 2) * 1 + 1 * 0 = 0; omega

/-! ## Sums over the nodes, counted in order -/

/-- Node m's term of a sum over the nodes with graph id g (zero past the last node). -/
def nodeTerm (batch : (⟨2, ![100000, 1]⟩ : Shape).Idx → BitVec 32) (g : Fin 64) (val : Fin 100000 → EReal) (m : ℕ) : EReal :=
  if hm : m < 100000 then (if batch (ix2 ⟨m, hm⟩ (0 : Fin 1)) = BitVec.ofNat 32 g.val then val ⟨m, hm⟩ else 0) else 0

theorem sum_nodeTerm (batch : (⟨2, ![100000, 1]⟩ : Shape).Idx → BitVec 32) (g : Fin 64) (val : Fin 100000 → EReal) :
    ∑ m ∈ Finset.range 100000, nodeTerm batch g val m
      = ∑ n : Fin 100000, if batch (ix2 n (0 : Fin 1)) = BitVec.ofNat 32 g.val then val n else 0 := by
  rw [Finset.sum_range]
  refine Finset.sum_congr rfl fun n _ => ?_
  unfold nodeTerm
  rw [dif_pos n.isLt]

/-- The first 5000 (n + 1) terms are the first 5000 n and the next block of 5000. -/
theorem sum_nodeTerm_succ (T : ℕ → EReal) (n : ℕ) :
    ∑ m ∈ Finset.range (5000 * (n + 1)), T m = ∑ m ∈ Finset.range (5000 * n), T m + ∑ x ∈ Finset.range 5000, T (5000 * n + x) := by
  rw [show 5000 * (n + 1) = 5000 * n + 5000 from by ring, Finset.sum_range_add]

/-- One point adds its block's terms to the sums, -/
theorem point_sums (c : Dev nD) (t : Fin cfg3.N) (s : Vec Ideal S64x128 .f32) (g : Fin 64) (f : Fin 128) :
    k3_pay5 (F := Ideal) (iblk3 V c 0 t) (iblk3 V c 1 t) (iblk3 V c 2 t) s (ix2 g f)
      = s (ix2 g f) + ∑ x ∈ Finset.range 5000,
          nodeTerm (V c main_v87) g (fun k => Cert.Spec.reluBias (V c main_v83) (V c main_v86) (ix2 k f)) (5000 * t.val + x) := by
  refine (pay5_apply _ _ _ _ g f).trans ?_
  refine congrArg (s (ix2 g f) + ·) ?_
  rw [Finset.sum_range]
  refine Finset.sum_congr rfl fun r _ => ?_
  have ht := acc3_pt_lt t
  have hr : 5000 * t.val + r.val < 100000 := by have := r.isLt; omega
  unfold nodeTerm
  rw [dif_pos hr, acc3_read0 V c t r f hr, acc3_read1 V c t f, acc3_read2 V c t r hr]
  rfl

/-- and to the counts. -/
theorem point_cnts (c : Dev nD) (t : Fin cfg3.N) (s : Vec Ideal S64x1 .f32) (g : Fin 64) :
    k3_pay6 (F := Ideal) (iblk3 V c 2 t) s (ix2 g (0 : Fin 1))
      = s (ix2 g (0 : Fin 1)) + ∑ x ∈ Finset.range 5000, nodeTerm (V c main_v87) g (fun _ => 1) (5000 * t.val + x) := by
  refine (pay6_apply _ _ g).trans ?_
  refine congrArg (s (ix2 g (0 : Fin 1)) + ·) ?_
  rw [Finset.sum_range]
  refine Finset.sum_congr rfl fun r _ => ?_
  have ht := acc3_pt_lt t
  have hr : 5000 * t.val + r.val < 100000 := by have := r.isLt; omega
  unfold nodeTerm
  rw [dif_pos hr, acc3_read2 V c t r hr]

/-! ## After point n the buffers hold the first 5000 (n + 1) nodes' terms -/

theorem sums_upto (c : Dev nD) (g : Fin 64) (f : Fin 128) (n : ℕ) : ∀ h : n < cfg3.N,
    (outsAt3 (F := Ideal) V c n h).2.1 (ix2 g f)
      = ∑ m ∈ Finset.range (5000 * (n + 1)),
          nodeTerm (V c main_v87) g (fun k => Cert.Spec.reluBias (V c main_v83) (V c main_v86) (ix2 k f)) m := by
  induction n with
  | zero =>
    intro h
    have e := congrFun (congrArg (fun p => p.1) (outsAt3_zero (F := Ideal) V c h)) (ix2 g f)
    refine e.trans ?_
    refine (point_sums V c ⟨0, h⟩ _ g f).trans ?_
    rw [acc_pay2_apply, zero_add]
    refine Finset.sum_congr rfl fun x _ => ?_
    show nodeTerm _ g _ (5000 * 0 + x) = _
    rw [Nat.mul_zero, Nat.zero_add]
  | succ n ih =>
    intro h
    have e := congrFun (congrArg (fun p => p.1) (outsAt3_succ (F := Ideal) V c n h)) (ix2 g f)
    refine e.trans ?_
    refine (point_sums V c ⟨n + 1, h⟩ _ g f).trans ?_
    exact (congrArg (· + _) (ih (Nat.lt_of_succ_lt h))).trans (sum_nodeTerm_succ _ (n + 1)).symm

theorem cnts_upto (c : Dev nD) (g : Fin 64) (n : ℕ) : ∀ h : n < cfg3.N,
    (outsAt3 (F := Ideal) V c n h).2.2 (ix2 g (0 : Fin 1))
      = ∑ m ∈ Finset.range (5000 * (n + 1)), nodeTerm (V c main_v87) g (fun _ => 1) m := by
  induction n with
  | zero =>
    intro h
    have e := congrFun (congrArg (fun p => p.2) (outsAt3_zero (F := Ideal) V c h)) (ix2 g (0 : Fin 1))
    refine e.trans ?_
    refine (point_cnts V c ⟨0, h⟩ _ g).trans ?_
    rw [pay3_apply, zero_add]
    refine Finset.sum_congr rfl fun x _ => ?_
    show nodeTerm _ g _ (5000 * 0 + x) = _
    rw [Nat.mul_zero, Nat.zero_add]
  | succ n ih =>
    intro h
    have e := congrFun (congrArg (fun p => p.2) (outsAt3_succ (F := Ideal) V c n h)) (ix2 g (0 : Fin 1))
    refine e.trans ?_
    refine (point_cnts V c ⟨n + 1, h⟩ _ g).trans ?_
    exact (congrArg (· + _) (ih (Nat.lt_of_succ_lt h))).trans (sum_nodeTerm_succ _ (n + 1)).symm

/-! ## After the last point: the pooled sums and counts over all 100000 nodes -/

theorem acc_sum (c : Dev nD) (h : 19 < cfg3.N) (g : Fin 64) (f : Fin 128) :
    (outsAt3 (F := Ideal) V c 19 h).2.1 (ix2 g f) = Cert.Spec.poolSum (V c main_v87) (Cert.Spec.reluBias (V c main_v83) (V c main_v86)) g f :=
  (sums_upto V c g f 19 h).trans (sum_nodeTerm (V c main_v87) g (fun k => Cert.Spec.reluBias (V c main_v83) (V c main_v86) (ix2 k f)))

theorem acc_cnt (c : Dev nD) (h : 19 < cfg3.N) (g : Fin 64) :
    (outsAt3 (F := Ideal) V c 19 h).2.2 (ix2 g (0 : Fin 1)) = Cert.Spec.poolCnt (V c main_v87) g :=
  (cnts_upto V c g 19 h).trans (sum_nodeTerm (V c main_v87) g (fun _ => 1))

end Cert.KernelIdeal.Hand

end
-- ==== Proof.KI.Val3Arr.lean ====
/-
  Region 3's small operands and its result, as whole arrays: every window of the region but the two row blocks has
  ONE block, the whole array, so a point's block of it is the array itself; and the result's array after the region
  is what the last point wrote back.
-/
import proofs.«422429_j3118146257467_1_alg».proof.Proof.KI.Reg3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The index maps of the one-block windows, decided over the grid: block (0, 0) at every point. -/
theorem idx3_one_block : ∀ t : Fin cfg3.N, win3_1.index t (0 : Fin 2) = 0
    ∧ win3_1.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0 :=
  (by decide +kernel : ∀ t : Fin grid3.N, _)

/-- The grid has twenty points. -/
theorem N3_eq : cfg3.N = 20 := N_3

/-- Window 1's block at any point is its whole array. -/
theorem iblk3_1 (c : Dev nD) (t : Fin cfg3.N) : iblk3 V c 1 t = V c main_v86 := by
  obtain ⟨e1_0, e1_1, e3_0, e3_1, e4_0, e4_1, e5_0, e5_1, e6_0, e6_1, e7_0, e7_1⟩ := idx3_one_block t
  funext y
  show V c main_v86 (((cfg3.win 1).blk t).view.emb y) = V c main_v86 y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Window 3's block at any point is its whole array. -/
theorem iblk3_3 (c : Dev nD) (t : Fin cfg3.N) : iblk3 V c 3 t = V c main_arg5 := by
  obtain ⟨e1_0, e1_1, e3_0, e3_1, e4_0, e4_1, e5_0, e5_1, e6_0, e6_1, e7_0, e7_1⟩ := idx3_one_block t
  funext y
  show V c main_arg5 (((cfg3.win 3).blk t).view.emb y) = V c main_arg5 y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- Window 4's block at any point is its whole array. -/
theorem iblk3_4 (c : Dev nD) (t : Fin cfg3.N) : iblk3 V c 4 t = V c main_v88 := by
  obtain ⟨e1_0, e1_1, e3_0, e3_1, e4_0, e4_1, e5_0, e5_1, e6_0, e6_1, e7_0, e7_1⟩ := idx3_one_block t
  funext y
  show V c main_v88 (((cfg3.win 4).blk t).view.emb y) = V c main_v88 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5's block at any point is its whole array. -/
theorem iblk3_5 (c : Dev nD) (t : Fin cfg3.N) : iblk3 V c 5 t = V c main_arg7 := by
  obtain ⟨e1_0, e1_1, e3_0, e3_1, e4_0, e4_1, e5_0, e5_1, e6_0, e6_1, e7_0, e7_1⟩ := idx3_one_block t
  funext y
  show V c main_arg7 (((cfg3.win 5).blk t).view.emb y) = V c main_arg7 y
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 1 + 1 * (y 1).val = (y 1).val; omega

/-- Window 6's block at any point is its whole array. -/
theorem iblk3_6 (c : Dev nD) (t : Fin cfg3.N) : iblk3 V c 6 t = V c main_v89 := by
  obtain ⟨e1_0, e1_1, e3_0, e3_1, e4_0, e4_1, e5_0, e5_1, e6_0, e6_1, e7_0, e7_1⟩ := idx3_one_block t
  funext y
  show V c main_v89 (((cfg3.win 6).blk t).view.emb y) = V c main_v89 y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 1 + 1 * (y 1).val = (y 1).val; omega

/-- The only point that writes the result back is the last. -/
theorem flush3_7_last (t : Fin cfg3.N) (hf : (cfg3.win 7).flush t = true) : t.val = 19 := by
  have h1 := (flush3_7 t).mp hf
  have h2 := t.isLt
  have h3 := N3_eq
  omega

/-- What the last point writes back is the whole of what its staging buffer holds: the result's one block is the array. -/
theorem flushed3_7 (c : Dev nD) (h : 19 < cfg3.N) (t : Fin cfg3.N) (hf : (cfg3.win 7).flush t = true) :
    (dat3 V c).flushed 7 t = ((cfg3.win 7).blk t).view.read (Elt F) (outsAt3 V c 19 h).1 := by
  obtain ⟨n, hn⟩ := t
  have hn19 : n = 19 := flush3_7_last ⟨n, hn⟩ hf
  subst hn19
  obtain ⟨e1_0, e1_1, e3_0, e3_1, e4_0, e4_1, e5_0, e5_1, e6_0, e6_1, e7_0, e7_1⟩ := idx3_one_block ⟨19, hn⟩
  show (cfg3.win 7).cut (grid3.coords ⟨19, hn⟩) ((dat3 V c).after 7 ⟨19, hn⟩) = _
  rw [after3_7]
  funext y
  show (outsAt3 V c 19 hn).1 ((cfg3.win 7).xinj (grid3.coords ⟨19, hn⟩) y) = (outsAt3 V c 19 h).1 (((cfg3.win 7).blk ⟨19, hn⟩).view.emb y)
  refine congrArg _ (funext fun a => Fin.ext ?_)
  match a with
  | ⟨0, _⟩ => show (y 0).val = win3_7.index ⟨19, hn⟩ (0 : Fin 2) * 1 + 1 * (y 0).val; omega
  | ⟨1, _⟩ => show (y 1).val = win3_7.index ⟨19, hn⟩ (1 : Fin 2) * 64 + 1 * (y 1).val; omega

/-- Every index of the result's array is in the last point's block. -/
theorem cover3_7 (c : Dev nD) (h : 19 < cfg3.N) (i : (((cfg3.win 7).arr.view.loc (c : Thread nD τ)).2.ty.Idx)) :
    ∃ t : Fin cfg3.N, (cfg3.win 7).flush t = true ∧ i ∈ ((cfg3.win 7).blk t).view.set := by
  refine ⟨⟨19, h⟩, (flush3_7 ⟨19, h⟩).mpr rfl, ?_⟩
  obtain ⟨e1_0, e1_1, e3_0, e3_1, e4_0, e4_1, e5_0, e5_1, e6_0, e6_1, e7_0, e7_1⟩ := idx3_one_block ⟨19, h⟩
  show i ∈ ((View.whole main_v90).slice (win3_7.rect ⟨19, h⟩)).set
  rw [View.set_slice_whole, Rect.mem_set_unit]
  intro a
  match a with
  | ⟨0, _⟩ =>
    show win3_7.index ⟨19, h⟩ (0 : Fin 2) * 1 ≤ (i 0).val ∧ (i 0).val < win3_7.index ⟨19, h⟩ (0 : Fin 2) * 1 + 1
    have hi : (i 0).val < 1 := (i 0).isLt
    omega
  | ⟨1, _⟩ =>
    show win3_7.index ⟨19, h⟩ (1 : Fin 2) * 64 ≤ (i 1).val ∧ (i 1).val < win3_7.index ⟨19, h⟩ (1 : Fin 2) * 64 + 64
    have hi : (i 1).val < 64 := (i 1).isLt
    omega

/-- The result's array after the region is what the last point's staging buffer held. -/
theorem arr3_last (c : Dev nD) (h : 19 < cfg3.N) : (dat3 V c).arrAt 7 cfg3.N = (outsAt3 V c 19 h).1 :=
  (dat3 V c).arrAt_eq_of_cover 7 (outsAt3 V c 19 h).1 (fun t hf => flushed3_7 V c h t hf) (cover3_7 c h)

end Cert.KernelIdeal.Hand

end
-- ==== Proof.Spec.Head.lean ====
/-
  The head at one graph, over the extended reals: from the graph's 128 feature sums `s` and its node count `cnt`, the
  means s / max(cnt, 1), a dense layer of 128 units with bias and rectification, and a last dense layer with bias down to
  one number. Both programs' heads are this function of the pooled sums and counts.
-/
import Idealize.ShloMosaic.PureOps.Ideal
import Idealize.ShloMosaic.Lib.ValueIdx

noncomputable section

namespace Cert.Spec

open Idealize.ShloMosaic Idealize.ShloMosaic.ValueIdx

/-- max((s / max(cnt, 1)) · w1 + b1, 0) · w2 + b2 for one graph. The literals 1 and 0 stay as their f32 words. -/
def headAt (s : Fin 128 → EReal) (cnt : EReal) (w1 : (⟨2, ![128, 128]⟩ : Shape).Idx → EReal)
    (b1 : (⟨2, ![1, 128]⟩ : Shape).Idx → EReal) (w2 : (⟨2, ![128, 1]⟩ : Shape).Idx → EReal)
    (b2 : (⟨2, ![1, 1]⟩ : Shape).Idx → EReal) : EReal :=
  (∑ k : Fin 128,
      max ((∑ j : Fin 128, Ideal.div (s j) (max cnt (Ideal.ofBits .f32 0x3F800000#32)) * w1 (ix2 j k))
          + b1 (ix2 (0 : Fin 1) k)) (Ideal.ofBits .f32 0x00000000#32)
        * w2 (ix2 k (0 : Fin 1)))
    + b2 (ix2 (0 : Fin 1) (0 : Fin 1))

end Cert.Spec

end
-- ==== Proof.KI.Val3Pay.lean ====
/-
  The last grid point's payload of the pooling kernel, read at one graph: from the two accumulated scratch buffers (the
  per-graph feature sums and node counts) and the head's weights, the stored 1×64 row holds at graph g the head of that
  graph's sums and count.
-/
import proofs.«422429_j3118146257467_1_alg».proof.Proof.Gen.KernelIdeal.Skeleton
import proofs.«422429_j3118146257467_1_alg».proof.Proof.Spec.Head
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The two products' operand indices, axis by axis -/

theorem mmA_lhs_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem mmA_lhs_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem mmA_rhs_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem mmA_rhs_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

theorem mmB_lhs_0 (i : S64x1.Idx) (q : dot_S64x128_S128x1_S64x1_1_0_0_1_n_n.contr.Idx) :
    (dot_S64x128_S128x1_S64x1_1_0_0_1_n_n.lhsIdx i q 0).val = (i 0).val := by
  unfold DotDims.lhsIdx
  rw [dif_neg (show ¬(0 : Fin S64x128.rank) ∈ dot_S64x128_S128x1_S64x1_1_0_0_1_n_n.lhsBatch by decide), dif_pos (show (0 : Fin S64x128.rank) ∈ dot_S64x128_S128x1_S64x1_1_0_0_1_n_n.lhsNonContracting by decide)]
  rfl
theorem mmB_lhs_1 (i : S64x1.Idx) (q : dot_S64x128_S128x1_S64x1_1_0_0_1_n_n.contr.Idx) :
    (dot_S64x128_S128x1_S64x1_1_0_0_1_n_n.lhsIdx i q 1).val = (q ⟨0, by decide⟩).val :=
  dot_S64x128_S128x1_S64x1_1_0_0_1_n_n.lhsIdx_val_of_single rfl i q
theorem mmB_rhs_0 (i : S64x1.Idx) (q : dot_S64x128_S128x1_S64x1_1_0_0_1_n_n.contr.Idx) :
    (dot_S64x128_S128x1_S64x1_1_0_0_1_n_n.rhsIdx i q 0).val = (q ⟨0, by decide⟩).val :=
  dot_S64x128_S128x1_S64x1_1_0_0_1_n_n.rhsIdx_val_of_single rfl i q
theorem mmB_rhs_1 (i : S64x1.Idx) (q : dot_S64x128_S128x1_S64x1_1_0_0_1_n_n.contr.Idx) :
    (dot_S64x128_S128x1_S64x1_1_0_0_1_n_n.rhsIdx i q 1).val = (i 1).val := by
  unfold DotDims.rhsIdx
  rw [dif_neg (show ¬(1 : Fin S128x1.rank) ∈ dot_S64x128_S128x1_S64x1_1_0_0_1_n_n.rhsBatch by decide), dif_pos (show (1 : Fin S128x1.rank) ∈ dot_S64x128_S128x1_S64x1_1_0_0_1_n_n.rhsNonContracting by decide)]
  rfl

/-! ## The two products at an index -/

/-- The 64×128 by 128×128 product into the zero splat, at (g, k): the sum over the 128 shared coordinates. -/
theorem mmA_apply {φ₁ φ₂ : FTy} (x : FVec Ideal S64x128 φ₁) (w : FVec Ideal S128x128 φ₂) (g : Fin 64) (k : Fin 128) :
    matmul dot_S64x128_S128x128_S64x128_1_0_0_1_n_n none x w (constant (F := Ideal) S64x128 .f32 0x00000000#32) (ix2 g k)
      = ∑ j : Fin 128, x (ix2 g j) * w (ix2 j k) := by
  simp only [matmul]
  rw [Ideal.matmul_constant_zero_apply, ← Equiv.sum_comp (contrEquiv1 dot_S64x128_S128x128_S64x128_1_0_0_1_n_n 128 rfl rfl).symm]
  refine Finset.sum_congr rfl fun j _ => ?_
  have hj := contrEquiv1_symm_val dot_S64x128_S128x128_S64x128_1_0_0_1_n_n 128 rfl rfl j
  have el : dot_S64x128_S128x128_S64x128_1_0_0_1_n_n.lhsIdx (ix2 g k) ((contrEquiv1 dot_S64x128_S128x128_S64x128_1_0_0_1_n_n 128 rfl rfl).symm j) = ix2 g j := funext fun a => Fin.ext (by
    match a with
    | ⟨0, _⟩ => exact mmA_lhs_0 _ _
    | ⟨1, _⟩ => exact (mmA_lhs_1 _ _).trans hj)
  have er : dot_S64x128_S128x128_S64x128_1_0_0_1_n_n.rhsIdx (ix2 g k) ((contrEquiv1 dot_S64x128_S128x128_S64x128_1_0_0_1_n_n 128 rfl rfl).symm j) = ix2 j k := funext fun a => Fin.ext (by
    match a with
    | ⟨0, _⟩ => exact (mmA_rhs_0 _ _).trans hj
    | ⟨1, _⟩ => exact mmA_rhs_1 _ _)
  rw [el, er]

/-- The 64×128 by 128×1 product into the zero splat, at (g, 0). -/
theorem mmB_apply {φ₁ φ₂ : FTy} (x : FVec Ideal S64x128 φ₁) (w : FVec Ideal S128x1 φ₂) (g : Fin 64) :
    matmul dot_S64x128_S128x1_S64x1_1_0_0_1_n_n none x w (constant (F := Ideal) S64x1 .f32 0x00000000#32) (ix2 g (0 : Fin 1))
      = ∑ k : Fin 128, x (ix2 g k) * w (ix2 k (0 : Fin 1)) := by
  simp only [matmul]
  rw [Ideal.matmul_constant_zero_apply, ← Equiv.sum_comp (contrEquiv1 dot_S64x128_S128x1_S64x1_1_0_0_1_n_n 128 rfl rfl).symm]
  refine Finset.sum_congr rfl fun k _ => ?_
  have hk := contrEquiv1_symm_val dot_S64x128_S128x1_S64x1_1_0_0_1_n_n 128 rfl rfl k
  have el : dot_S64x128_S128x1_S64x1_1_0_0_1_n_n.lhsIdx (ix2 g (0 : Fin 1)) ((contrEquiv1 dot_S64x128_S128x1_S64x1_1_0_0_1_n_n 128 rfl rfl).symm k) = ix2 g k := funext fun a => Fin.ext (by
    match a with
    | ⟨0, _⟩ => exact mmB_lhs_0 _ _
    | ⟨1, _⟩ => exact (mmB_lhs_1 _ _).trans hk)
  have er : dot_S64x128_S128x1_S64x1_1_0_0_1_n_n.rhsIdx (ix2 g (0 : Fin 1)) ((contrEquiv1 dot_S64x128_S128x1_S64x1_1_0_0_1_n_n 128 rfl rfl).symm k) = ix2 k (0 : Fin 1) := funext fun a => Fin.ext (by
    match a with
    | ⟨0, _⟩ => exact (mmB_rhs_0 _ _).trans hk
    | ⟨1, _⟩ => exact mmB_rhs_1 _ _)
  rw [el, er]

/-! ## A column spread over the lanes -/

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payload at a graph -/

/-- The stored row at graph `g`: the head of that graph's accumulated sums and count. -/
theorem k3_pay1_apply (S : Vec Ideal S64x128 .f32) (C : Vec Ideal S64x1 .f32) (w1 : Vec Ideal S128x128 .f32)
    (b1 : Vec Ideal S1x128 .f32) (w2 : Vec Ideal S128x1 .f32) (b2 : Vec Ideal S1x1 .f32) (g : Fin 64) :
    k3_pay1 (F := Ideal) S C w1 b1 w2 b2 (ix2 (0 : Fin 1) g)
      = Cert.Spec.headAt (fun j => S (ix2 g j)) (C (ix2 g (0 : Fin 1))) w1 b1 w2 b2 := by
  unfold k3_pay1
  dsimp only
  rw [shapeCast_self b1, shapeCast_self b2, transpose_ix2_apply, addf_apply, mmB_apply, broadcastTo_1b_ab_apply]
  unfold Cert.Spec.headAt
  refine congrArg (· + b2 (ix2 (0 : Fin 1) (0 : Fin 1))) (Finset.sum_congr rfl fun k _ => ?_)
  rw [truncf_apply, truncf_apply, maximumf_apply, addf_apply, mmA_apply, broadcast_apply, broadcastTo_1b_ab_apply]
  refine congrArg (fun z => max (z + b1 (ix2 (0 : Fin 1) k)) (Ideal.ofBits .f32 0x00000000#32) * w2 (ix2 k (0 : Fin 1)))
    (Finset.sum_congr rfl fun j _ => ?_)
  rw [truncf_apply, truncf_apply, divf_apply, broadcastTo_a1_ab_apply, maximumf_apply, broadcast_apply]
  rfl

end Cert.KernelIdeal.Hand

end
-- ==== Proof.Ref.Pool.lean ====
/-
  The reference's pooling, index by index over the extended reals.

  An accumulating scatter at an element is that element of the operand plus the sum of the updates whose result index
  is the element. For a scatter along the leading axis by a column of index words (one word per update row, the row
  kept whole, or a single cell), an update's result index is its row's word read signed, with the update's own column:
  the start on the scattered axis is the word, the start on the kept axis is zero, the window coordinate is zero on
  the scattered axis and the update's column on the kept one. An update whose word is negative or not below the number
  of rows lands nowhere. So the scattered sum at (g, f) is the sum over the update rows n with word g of the update at
  (n, f); over a zero operand this is the pooled sum, and with updates all one it is the count. A word read signed is
  a natural g below 2^31 exactly when it is the 32-bit word of g. Last, the rectified biased features read at an index.
-/
import proofs.«422429_j3118146257467_1_alg».proof.Proof.Spec.Maps
import proofs.«422429_j3118146257467_1_alg».proof.Proof.Spec.Pool
import Idealize.ShloMosaic.Lib.IdealHost
import Idealize.ShloMosaic.Lib.ValueIdx

noncomputable section

namespace Cert.ReferenceIdeal.Hand

open Cert.ReferenceIdeal Cert.ReferenceIdeal.Facts₀ Cert.ReferenceIdeal.Facts
open Idealize.ShloMosaic Idealize.ShloMosaic.ValueIdx

/-- A 32-bit word read signed is a natural below 2^31 exactly when it is that natural's word. -/
theorem toInt_eq_natCast_iff (w : BitVec 32) (g : Nat) (hg : g < 2147483648) :
    w.toInt = (g : Int) ↔ w = BitVec.ofNat 32 g := by
  rw [← BitVec.toNat_inj, BitVec.toNat_ofNat, BitVec.toInt_eq_toNat_cond]
  have := w.isLt
  split <;> omega

section Rows

variable {G N C w : Nat}

/-- Row scatter: update row `n` (all its `C` columns) goes to the operand row the index column names at `n`. -/
abbrev rowsDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable (wf : ScatterDims.WF ⟨2, ![G, C]⟩ ⟨2, ![N, 1]⟩ ⟨2, ![N, C]⟩ [1] [0] [0] 1)

theorem rows_start0 (j : (⟨2, ![N, C]⟩ : Shape).Idx) (idx : IVec ⟨2, ![N, 1]⟩ w) :
    (rowsDims G N C wf).start j idx 0 = (idx (ix2 (j 0) (0 : Fin 1))).toInt := by
  unfold ScatterDims.start
  rw [dif_pos (show (0 : Fin 2) ∈ (rowsDims G N C wf).scatterDimsToOperandDims from List.mem_singleton.mpr rfl)]
  congr 2
  funext b; refine Fin.ext ?_
  match b with
  | ⟨0, _⟩ => rfl
  | ⟨1, _⟩ => rfl

theorem rows_start1 (j : (⟨2, ![N, C]⟩ : Shape).Idx) (idx : IVec ⟨2, ![N, 1]⟩ w) :
    (rowsDims G N C wf).start j idx 1 = 0 := by
  unfold ScatterDims.start
  rw [dif_neg (show ¬ (1 : Fin 2) ∈ (rowsDims G N C wf).scatterDimsToOperandDims from
    (by decide : ¬ (1 : Fin 2) ∈ ([0] : List (Fin 2))))]

theorem rows_window0 (j : (⟨2, ![N, C]⟩ : Shape).Idx) : (rowsDims G N C wf).window j 0 = 0 := by
  unfold ScatterDims.window
  rw [dif_neg (show ¬ (0 : Fin 2) ∈ (rowsDims G N C wf).sKept from
    (by decide : ¬ (0 : Fin 2) ∈ (List.finRange 2).filter (fun a => a ∉ ([0] : List (Fin 2)))))]

theorem rows_window1 (j : (⟨2, ![N, C]⟩ : Shape).Idx) : (rowsDims G N C wf).window j 1 = (j 1).val := by
  unfold ScatterDims.window
  rw [dif_pos (show (1 : Fin 2) ∈ (rowsDims G N C wf).sKept from
    (by decide : (1 : Fin 2) ∈ (List.finRange 2).filter (fun a => a ∉ ([0] : List (Fin 2)))))]
  rfl

theorem rows_resultIdx?_eq_some (j : (⟨2, ![N, C]⟩ : Shape).Idx) (idx : IVec ⟨2, ![N, 1]⟩ w)
    (i : (⟨2, ![G, C]⟩ : Shape).Idx) :
    (rowsDims G N C wf).resultIdx? j idx = some i ↔
      (idx (ix2 (j 0) (0 : Fin 1))).toInt = ((i 0).val : Int) ∧ (j 1).val = (i 1).val := by
  have h0 := rows_start0 wf j idx
  have h1 := rows_start1 wf j idx
  have w0 := rows_window0 wf j
  have w1 := rows_window1 wf j
  have hi0 : (i 0).val < G := idx2_lt0 i
  have hi1 : (i 1).val < C := idx2_lt1 i
  have hj1 : (j 1).val < C := idx2_lt1 j
  unfold ScatterDims.resultIdx?
  constructor
  · intro he
    split at he
    · rename_i hb
      have he' := Option.some.inj he
      have e0 : ((rowsDims G N C wf).start j idx 0 + ((rowsDims G N C wf).window j 0 : Nat)).toNat = (i 0).val :=
        congrArg Fin.val (congrFun he' 0)
      have e1 : ((rowsDims G N C wf).start j idx 1 + ((rowsDims G N C wf).window j 1 : Nat)).toNat = (i 1).val :=
        congrArg Fin.val (congrFun he' 1)
      have b0 := (hb 0).1
      rw [h0, w0] at e0 b0
      rw [h1, w1] at e1
      constructor <;> omega
    · exact absurd he (by simp)
  · rintro ⟨ha, hb⟩
    have hall : ∀ a, 0 ≤ (rowsDims G N C wf).start j idx a + ((rowsDims G N C wf).window j a : Nat) ∧
        (rowsDims G N C wf).start j idx a + ((rowsDims G N C wf).window j a : Nat) < ((⟨2, ![G, C]⟩ : Shape).size a : Nat) := by
      intro a
      match a with
      | ⟨0, _⟩ =>
        show 0 ≤ (rowsDims G N C wf).start j idx 0 + ((rowsDims G N C wf).window j 0 : Nat) ∧
          (rowsDims G N C wf).start j idx 0 + ((rowsDims G N C wf).window j 0 : Nat) < (G : Int)
        rw [h0, w0]; omega
      | ⟨1, _⟩ =>
        show 0 ≤ (rowsDims G N C wf).start j idx 1 + ((rowsDims G N C wf).window j 1 : Nat) ∧
          (rowsDims G N C wf).start j idx 1 + ((rowsDims G N C wf).window j 1 : Nat) < (C : Int)
        rw [h1, w1]; omega
    rw [dif_pos hall]
    congr 1
    funext a; refine Fin.ext ?_
    match a with
    | ⟨0, _⟩ =>
      show ((rowsDims G N C wf).start j idx 0 + ((rowsDims G N C wf).window j 0 : Nat)).toNat = (i 0).val
      rw [h0, w0]; omega
    | ⟨1, _⟩ =>
      show ((rowsDims G N C wf).start j idx 1 + ((rowsDims G N C wf).window j 1 : Nat)).toNat = (i 1).val
      rw [h1, w1]; omega

/-- The accumulating row scatter at an element: the operand's element plus the updates of that column over the rows
    whose index word, read signed, is the element's row. -/
theorem rows_hostScatterAdd (x : (⟨2, ![G, C]⟩ : Shape).Idx → EReal) (idx : IVec ⟨2, ![N, 1]⟩ w)
    (upd : (⟨2, ![N, C]⟩ : Shape).Idx → EReal) (g : Fin G) (f : Fin C) :
    Ideal.hostScatterAdd (rowsDims G N C wf) x idx upd (ix2 g f) =
      x (ix2 g f) + ∑ n : Fin N, if (idx (ix2 n (0 : Fin 1))).toInt = (g.val : Int) then upd (ix2 n f) else 0 := by
  unfold Ideal.hostScatterAdd
  congr 1
  rw [Finset.sum_filter, sum_idx2]
  refine Finset.sum_congr rfl fun n _ => ?_
  rw [Finset.sum_eq_single f]
  · refine if_congr ((rows_resultIdx?_eq_some wf _ idx _).trans ?_) rfl rfl
    exact ⟨fun h => h.1, fun h => ⟨h, rfl⟩⟩
  · intro b _ hbf
    rw [if_neg]
    rw [rows_resultIdx?_eq_some]
    exact fun h => hbf (Fin.ext h.2)
  · intro hf; exact absurd (Finset.mem_univ f) hf

end Rows

section Cells

variable {G N w : Nat}

/-- Cell scatter: update `n` goes to the operand cell the index column names at `n`. -/
abbrev cellsDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable (wf : ScatterDims.WF ⟨1, ![G]⟩ ⟨2, ![N, 1]⟩ ⟨1, ![N]⟩ [] [0] [0] 1)

theorem cells_start0 (j : (⟨1, ![N]⟩ : Shape).Idx) (idx : IVec ⟨2, ![N, 1]⟩ w) :
    (cellsDims G N wf).start j idx 0 = (idx (ix2 (j 0) (0 : Fin 1))).toInt := by
  unfold ScatterDims.start
  rw [dif_pos (show (0 : Fin 1) ∈ (cellsDims G N wf).scatterDimsToOperandDims from List.mem_singleton.mpr rfl)]
  congr 2
  funext b; refine Fin.ext ?_
  match b with
  | ⟨0, _⟩ => rfl
  | ⟨1, _⟩ => rfl

theorem cells_window0 (j : (⟨1, ![N]⟩ : Shape).Idx) : (cellsDims G N wf).window j 0 = 0 := by
  unfold ScatterDims.window
  rw [dif_neg (show ¬ (0 : Fin 1) ∈ (cellsDims G N wf).sKept from
    (by decide : ¬ (0 : Fin 1) ∈ (List.finRange 1).filter (fun a => a ∉ ([0] : List (Fin 1)))))]

theorem cells_resultIdx?_eq_some (j : (⟨1, ![N]⟩ : Shape).Idx) (idx : IVec ⟨2, ![N, 1]⟩ w)
    (i : (⟨1, ![G]⟩ : Shape).Idx) :
    (cellsDims G N wf).resultIdx? j idx = some i ↔ (idx (ix2 (j 0) (0 : Fin 1))).toInt = ((i 0).val : Int) := by
  have h0 := cells_start0 wf j idx
  have w0 := cells_window0 wf j
  have hi0 : (i 0).val < G := (i 0).isLt
  unfold ScatterDims.resultIdx?
  constructor
  · intro he
    split at he
    · rename_i hb
      have he' := Option.some.inj he
      have e0 : ((cellsDims G N wf).start j idx 0 + ((cellsDims G N wf).window j 0 : Nat)).toNat = (i 0).val :=
        congrArg Fin.val (congrFun he' 0)
      have b0 := (hb 0).1
      rw [h0, w0] at e0 b0
      omega
    · exact absurd he (by simp)
  · intro ha
    have hall : ∀ a, 0 ≤ (cellsDims G N wf).start j idx a + ((cellsDims G N wf).window j a : Nat) ∧
        (cellsDims G N wf).start j idx a + ((cellsDims G N wf).window j a : Nat) < ((⟨1, ![G]⟩ : Shape).size a : Nat) := by
      intro a
      match a with
      | ⟨0, _⟩ =>
        show 0 ≤ (cellsDims G N wf).start j idx 0 + ((cellsDims G N wf).window j 0 : Nat) ∧
          (cellsDims G N wf).start j idx 0 + ((cellsDims G N wf).window j 0 : Nat) < (G : Int)
        rw [h0, w0]; omega
    rw [dif_pos hall]
    congr 1
    funext a; refine Fin.ext ?_
    match a with
    | ⟨0, _⟩ =>
      show ((cellsDims G N wf).start j idx 0 + ((cellsDims G N wf).window j 0 : Nat)).toNat = (i 0).val
      rw [h0, w0]; omega

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The accumulating cell scatter at an element: the operand's element plus the updates whose index word, read
    signed, is the element. -/
theorem cells_hostScatterAdd (x : (⟨1, ![G]⟩ : Shape).Idx → EReal) (idx : IVec ⟨2, ![N, 1]⟩ w)
    (upd : (⟨1, ![N]⟩ : Shape).Idx → EReal) (g : Fin G) :
    Ideal.hostScatterAdd (cellsDims G N wf) x idx upd (ix1 g) =
      x (ix1 g) + ∑ n : Fin N, if (idx (ix2 n (0 : Fin 1))).toInt = (g.val : Int) then upd (ix1 n) else 0 := by
  unfold Ideal.hostScatterAdd
  congr 1
  rw [Finset.sum_filter, sum_idx1]
  exact Finset.sum_congr rfl fun n _ => if_congr (cells_resultIdx?_eq_some wf _ idx _) rfl rfl

end Cells

/-! ## The reference's pooling -/

/-- The scattered per-graph sums are the pooled sums. -/
theorem sumOf_apply (batch : IVec S100000x1 32) (h : FVec Ideal S100000x128 .f32) (g : Fin 64) (f : Fin 128) :
    Cert.Spec.sumOf (F := Ideal) batch h (ix2 g f) = Cert.Spec.poolSum batch h g f := by
  show Ideal.hostScatterAdd (rowsDims 64 100000 128 scatter_S64x128_S100000x1_S100000x128_1_0_0_1_wf) _ batch h (ix2 g f) = _
  rw [rows_hostScatterAdd, broadcastInDim_scalar_apply, constant_apply, Ideal.ofBits_zero_f32, zero_add]
  unfold Cert.Spec.poolSum
  exact Finset.sum_congr rfl fun n _ => if_congr (toInt_eq_natCast_iff _ _ (by have := g.isLt; omega)) rfl rfl

/-- The scattered ones are the node counts. -/
theorem cntOf_apply (batch : IVec S100000x1 32) (g : Fin 64) :
    Cert.Spec.cntOf (F := Ideal) batch (ix1 g) = Cert.Spec.poolCnt batch g := by
  show Ideal.hostScatterAdd (cellsDims 64 100000 scatter_S64_S100000x1_S100000_n_0_0_1_wf) _ batch _ (ix1 g) = _
  rw [cells_hostScatterAdd, broadcastInDim_scalar_apply, constant_apply, Ideal.ofBits_zero_f32, zero_add]
  unfold Cert.Spec.poolCnt
  refine Finset.sum_congr rfl fun n _ => ?_
  rw [broadcastInDim_scalar_apply, constant_apply, Ideal.ofBits_one_f32]
  exact if_congr (toInt_eq_natCast_iff _ _ (by have := g.isLt; omega)) rfl rfl

/-- The rectified biased features, index by index. -/
theorem rbias_eq (agg : FVec Ideal S100000x128 .f32) (b : FVec Ideal S1x128 .f32) :
    Cert.Spec.rbias (F := Ideal) agg b = Cert.Spec.reluBias agg b := by
  funext i
  unfold Cert.Spec.rbias Cert.Spec.reluBias
  rw [maximumf_apply, addf_apply, broadcastInDim_scalar_apply, constant_apply, Ideal.ofBits_zero_f32]
  congr 2
  unfold broadcastInDim
  congr 1
  funext a; refine Fin.ext ?_
  match a with
  | ⟨0, _⟩ => rfl
  | ⟨1, _⟩ => rfl

end Cert.ReferenceIdeal.Hand

end
-- ==== Proof.Ref.Head.lean ====
/-
  The reference's head read at one graph: the per-graph mean of the rectified biased features, the dense layer with bias
  and rectification and the last dense layer with bias, at graph g, is the head of that graph's scattered sums and count.
-/
import proofs.«422429_j3118146257467_1_alg».proof.Proof.Spec.Maps
import proofs.«422429_j3118146257467_1_alg».proof.Proof.Spec.Head
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Facts₀ Cert.ReferenceIdeal.Facts
open Idealize.ShloMosaic Idealize.ShloMosaic.ValueIdx

/-! ## The two products' operand indices, axis by axis -/

theorem dgA_lhs_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem dgA_lhs_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem dgA_rhs_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem dgA_rhs_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

theorem dgB_lhs_0 (i : S64x1.Idx) (q : dot_S64x128_S128x1_S64x1_1_0_0_1_n_n.contr.Idx) :
    (dot_S64x128_S128x1_S64x1_1_0_0_1_n_n.lhsIdx i q 0).val = (i 0).val := by
  unfold DotDims.lhsIdx
  rw [dif_neg (show ¬(0 : Fin S64x128.rank) ∈ dot_S64x128_S128x1_S64x1_1_0_0_1_n_n.lhsBatch by decide), dif_pos (show (0 : Fin S64x128.rank) ∈ dot_S64x128_S128x1_S64x1_1_0_0_1_n_n.lhsNonContracting by decide)]
  rfl
theorem dgB_lhs_1 (i : S64x1.Idx) (q : dot_S64x128_S128x1_S64x1_1_0_0_1_n_n.contr.Idx) :
    (dot_S64x128_S128x1_S64x1_1_0_0_1_n_n.lhsIdx i q 1).val = (q ⟨0, by decide⟩).val :=
  dot_S64x128_S128x1_S64x1_1_0_0_1_n_n.lhsIdx_val_of_single rfl i q
theorem dgB_rhs_0 (i : S64x1.Idx) (q : dot_S64x128_S128x1_S64x1_1_0_0_1_n_n.contr.Idx) :
    (dot_S64x128_S128x1_S64x1_1_0_0_1_n_n.rhsIdx i q 0).val = (q ⟨0, by decide⟩).val :=
  dot_S64x128_S128x1_S64x1_1_0_0_1_n_n.rhsIdx_val_of_single rfl i q
theorem dgB_rhs_1 (i : S64x1.Idx) (q : dot_S64x128_S128x1_S64x1_1_0_0_1_n_n.contr.Idx) :
    (dot_S64x128_S128x1_S64x1_1_0_0_1_n_n.rhsIdx i q 1).val = (i 1).val := by
  unfold DotDims.rhsIdx
  rw [dif_neg (show ¬(1 : Fin S128x1.rank) ∈ dot_S64x128_S128x1_S64x1_1_0_0_1_n_n.rhsBatch by decide), dif_pos (show (1 : Fin S128x1.rank) ∈ dot_S64x128_S128x1_S64x1_1_0_0_1_n_n.rhsNonContracting by decide)]
  rfl

/-! ## The two products at an index -/

/-- The 64×128 by 128×128 product at (g, k): the sum over the 128 shared coordinates. -/
theorem dgA_apply (x : FVec Ideal S64x128 .f32) (w : FVec Ideal S128x128 .f32) (g : Fin 64) (k : Fin 128) :
    Host.dotGeneral (F := Ideal) dot_S64x128_S128x128_S64x128_1_0_0_1_n_n none x w (ix2 g k)
      = ∑ j : Fin 128, x (ix2 g j) * w (ix2 j k) := by
  simp only [Host.dotGeneral]
  rw [Ideal.dotGeneral_apply, ← Equiv.sum_comp (contrEquiv1 dot_S64x128_S128x128_S64x128_1_0_0_1_n_n 128 rfl rfl).symm]
  refine Finset.sum_congr rfl fun j _ => ?_
  have hj := contrEquiv1_symm_val dot_S64x128_S128x128_S64x128_1_0_0_1_n_n 128 rfl rfl j
  have el : dot_S64x128_S128x128_S64x128_1_0_0_1_n_n.lhsIdx (ix2 g k) ((contrEquiv1 dot_S64x128_S128x128_S64x128_1_0_0_1_n_n 128 rfl rfl).symm j) = ix2 g j := funext fun a => Fin.ext (by
    match a with
    | ⟨0, _⟩ => exact dgA_lhs_0 _ _
    | ⟨1, _⟩ => exact (dgA_lhs_1 _ _).trans hj)
  have er : dot_S64x128_S128x128_S64x128_1_0_0_1_n_n.rhsIdx (ix2 g k) ((contrEquiv1 dot_S64x128_S128x128_S64x128_1_0_0_1_n_n 128 rfl rfl).symm j) = ix2 j k := funext fun a => Fin.ext (by
    match a with
    | ⟨0, _⟩ => exact (dgA_rhs_0 _ _).trans hj
    | ⟨1, _⟩ => exact dgA_rhs_1 _ _)
  rw [el, er]

/-- The 64×128 by 128×1 product at (g, 0). -/
theorem dgB_apply (x : FVec Ideal S64x128 .f32) (w : FVec Ideal S128x1 .f32) (g : Fin 64) :
    Host.dotGeneral (F := Ideal) dot_S64x128_S128x1_S64x1_1_0_0_1_n_n none x w (ix2 g (0 : Fin 1))
      = ∑ k : Fin 128, x (ix2 g k) * w (ix2 k (0 : Fin 1)) := by
  simp only [Host.dotGeneral]
  rw [Ideal.dotGeneral_apply, ← Equiv.sum_comp (contrEquiv1 dot_S64x128_S128x1_S64x1_1_0_0_1_n_n 128 rfl rfl).symm]
  refine Finset.sum_congr rfl fun k _ => ?_
  have hk := contrEquiv1_symm_val dot_S64x128_S128x1_S64x1_1_0_0_1_n_n 128 rfl rfl k
  have el : dot_S64x128_S128x1_S64x1_1_0_0_1_n_n.lhsIdx (ix2 g (0 : Fin 1)) ((contrEquiv1 dot_S64x128_S128x1_S64x1_1_0_0_1_n_n 128 rfl rfl).symm k) = ix2 g k := funext fun a => Fin.ext (by
    match a with
    | ⟨0, _⟩ => exact dgB_lhs_0 _ _
    | ⟨1, _⟩ => exact (dgB_lhs_1 _ _).trans hk)
  have er : dot_S64x128_S128x1_S64x1_1_0_0_1_n_n.rhsIdx (ix2 g (0 : Fin 1)) ((contrEquiv1 dot_S64x128_S128x1_S64x1_1_0_0_1_n_n 128 rfl rfl).symm k) = ix2 k (0 : Fin 1) := funext fun a => Fin.ext (by
    match a with
    | ⟨0, _⟩ => exact (dgB_rhs_0 _ _).trans hk
    | ⟨1, _⟩ => exact dgB_rhs_1 _ _)
  rw [el, er]

/-! ## The broadcasts at an index -/

theorem bc_b1_apply (b1 : FVec Ideal S1x128 .f32) (g : Fin 64) (k : Fin 128) :
    broadcastInDim S64x128 ![0, 1] bcast_S1x128_S64x128_0_1 b1 (ix2 g k) = b1 (ix2 (0 : Fin 1) k) :=
  broadcastInDim_apply _ bcast_S1x128_S64x128_0_1 b1 (ix2 g k) (ix2 (0 : Fin 1) k) (fun a => match a with
    | ⟨0, _⟩ => by show 0 = if (1 : Nat) = 1 then 0 else g.val; rw [if_pos rfl]
    | ⟨1, _⟩ => by show k.val = if (128 : Nat) = 1 then 0 else k.val; rw [if_neg (by decide)])

theorem bc_b2_apply (b2 : FVec Ideal S1x1 .f32) (g : Fin 64) :
    broadcastInDim S64x1 ![0, 1] bcast_S1x1_S64x1_0_1 b2 (ix2 g (0 : Fin 1)) = b2 (ix2 (0 : Fin 1) (0 : Fin 1)) :=
  broadcastInDim_apply _ bcast_S1x1_S64x1_0_1 b2 (ix2 g (0 : Fin 1)) (ix2 (0 : Fin 1) (0 : Fin 1)) (fun a => match a with
    | ⟨0, _⟩ => by show 0 = if (1 : Nat) = 1 then 0 else g.val; rw [if_pos rfl]
    | ⟨1, _⟩ => by show 0 = if (1 : Nat) = 1 then 0 else 0; rw [if_pos rfl])

theorem bc_zero_apply (i : S64x128.Idx) :
    broadcastInDim S64x128 ![] bcast_S_S64x128 (constant (F := Ideal) S_ .f32 0x00000000#32) i = Ideal.ofBits .f32 0x00000000#32 :=
  broadcastInDim_apply _ bcast_S_S64x128 (constant (F := Ideal) S_ .f32 0x00000000#32) i ix0 (fun a => a.elim0)

theorem bc_one_apply (i : S64.Idx) :
    broadcastInDim S64 ![] bcast_S_S64 (constant (F := Ideal) S_ .f32 0x3F800000#32) i = Ideal.ofBits .f32 0x3F800000#32 :=
  broadcastInDim_apply _ bcast_S_S64 (constant (F := Ideal) S_ .f32 0x3F800000#32) i ix0 (fun a => a.elim0)

theorem bc_col_apply (y : FVec Ideal S64x1 .f32) (g : Fin 64) (j : Fin 128) :
    broadcastInDim S64x128 ![0, 1] bcast_S64x1_S64x128_0_1 y (ix2 g j) = y (ix2 g (0 : Fin 1)) :=
  broadcastInDim_apply _ bcast_S64x1_S64x128_0_1 y (ix2 g j) (ix2 g (0 : Fin 1)) (fun a => match a with
    | ⟨0, _⟩ => by show g.val = if (64 : Nat) = 1 then 0 else g.val; rw [if_neg (by decide)]
    | ⟨1, _⟩ => by show 0 = if (1 : Nat) = 1 then 0 else j.val; rw [if_pos rfl])

theorem bc_keep_apply (z : FVec Ideal S64 .f32) (g : Fin 64) :
    broadcastInDim S64x1 ![0] bcast_S64_S64x1_0 z (ix2 g (0 : Fin 1)) = z (ix1 g) :=
  broadcastInDim_apply _ bcast_S64_S64x1_0 z (ix2 g (0 : Fin 1)) (ix1 g) (fun a => match a with
    | ⟨0, _⟩ => by show g.val = if (64 : Nat) = 1 then 0 else g.val; rw [if_neg (by decide)])

/-! ## The head at a graph -/

/-- The two dense layers on per-graph means `m`, at graph `g`. -/
theorem mlpOf_apply (m : FVec Ideal S64x128 .f32) (w1 : FVec Ideal S128x128 .f32) (b1 : FVec Ideal S1x128 .f32)
    (w2 : FVec Ideal S128x1 .f32) (b2 : FVec Ideal S1x1 .f32) (g : Fin 64) :
    Cert.Spec.mlpOf (F := Ideal) m w1 b1 w2 b2 (ix2 g (0 : Fin 1))
      = (∑ k : Fin 128, max ((∑ j : Fin 128, m (ix2 g j) * w1 (ix2 j k)) + b1 (ix2 (0 : Fin 1) k))
            (Ideal.ofBits .f32 0x00000000#32) * w2 (ix2 k (0 : Fin 1)))
          + b2 (ix2 (0 : Fin 1) (0 : Fin 1)) := by
  unfold Cert.Spec.mlpOf
  rw [addf_apply, dgB_apply, bc_b2_apply]
  refine congrArg (· + b2 (ix2 (0 : Fin 1) (0 : Fin 1))) (Finset.sum_congr rfl fun k _ => ?_)
  rw [maximumf_apply, addf_apply, dgA_apply, bc_b1_apply, bc_zero_apply]

/-- The per-graph means at (g, j): the scattered sum over max(count, 1). -/
theorem meanOf_apply (batch : IVec S100000x1 32) (h : FVec Ideal S100000x128 .f32) (g : Fin 64) (j : Fin 128) :
    Cert.Spec.meanOf (F := Ideal) batch h (ix2 g j)
      = Ideal.div (Cert.Spec.sumOf (F := Ideal) batch h (ix2 g j))
          (max (Cert.Spec.cntOf (F := Ideal) batch (ix1 g)) (Ideal.ofBits .f32 0x3F800000#32)) := by
  unfold Cert.Spec.meanOf
  show FloatOps.hostDivf _ _ = _
  rw [Ideal.hostDivf_def, bc_col_apply, bc_keep_apply, maximumf_apply, bc_one_apply]

/-- THE REFERENCE'S HEAD at graph `g` is the head of that graph's scattered sums and count. -/
theorem headOf_apply (agg : FVec Ideal S100000x128 .f32) (b : FVec Ideal S1x128 .f32) (batch : IVec S100000x1 32)
    (w1 : FVec Ideal S128x128 .f32) (b1 : FVec Ideal S1x128 .f32) (w2 : FVec Ideal S128x1 .f32) (b2 : FVec Ideal S1x1 .f32)
    (g : Fin 64) :
    Cert.Spec.headOf (F := Ideal) agg b batch w1 b1 w2 b2 (ix1 g)
      = Cert.Spec.headAt (fun j => Cert.Spec.sumOf (F := Ideal) batch (Cert.Spec.rbias (F := Ideal) agg b) (ix2 g j))
          (Cert.Spec.cntOf (F := Ideal) batch (ix1 g)) w1 b1 w2 b2 := by
  unfold Cert.Spec.headOf
  rw [shapeCast_apply _ shapeCasts_S64x1_S64 (ix1 g) (ix2 g (0 : Fin 1)) (by
    rw [Shape.rowMajor_val_two, Shape.rowMajor_val_one]
    show g.val * 1 + 0 = g.val
    omega)]
  rw [mlpOf_apply]
  unfold Cert.Spec.headAt
  refine congrArg (· + b2 (ix2 (0 : Fin 1) (0 : Fin 1))) (Finset.sum_congr rfl fun k _ => ?_)
  refine congrArg (fun z => max (z + b1 (ix2 (0 : Fin 1) k)) (Ideal.ofBits .f32 0x00000000#32) * w2 (ix2 k (0 : Fin 1)))
    (Finset.sum_congr rfl fun j _ => ?_)
  rw [meanOf_apply]

end Cert.ReferenceIdeal.Hand

end
-- ==== Proof.KI.Val3.lean ====
/-
  The pooled head after the last region: the 1×64 output array, read as 64 numbers, is the reference's head of the last
  layer's aggregated features, bias, graph ids and the head's weights — graph by graph both are the head of the pooled
  sums and counts.
-/
import proofs.«422429_j3118146257467_1_alg».proof.Proof.KI.Reg3
import proofs.«422429_j3118146257467_1_alg».proof.Proof.KI.Val3Acc
import proofs.«422429_j3118146257467_1_alg».proof.Proof.KI.Val3Arr
import proofs.«422429_j3118146257467_1_alg».proof.Proof.KI.Val3Pay
import proofs.«422429_j3118146257467_1_alg».proof.Proof.Ref.Pool
import proofs.«422429_j3118146257467_1_alg».proof.Proof.Ref.Head
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The output array after the region, at graph `g`, is the last point's payload there. -/
theorem out3_apply (c : Dev nD) (h : 19 < cfg3.N) (g : Fin 64) :
    shapeCast S64 ((dat3 (F := Ideal) V c).arrAt 7 cfg3.N) shapeCasts_S1x64_S64 (ix1 g)
      = k3_pay1 (F := Ideal) (outsAt3 (F := Ideal) V c 19 h).2.1 (outsAt3 (F := Ideal) V c 19 h).2.2
          (V c main_arg5) (V c main_v88) (V c main_arg7) (V c main_v89) (ix2 (0 : Fin 1) g) := by
  rw [arr3_last V c h, outsAt3_last V c h, iblk3_3, iblk3_4, iblk3_5, iblk3_6]
  exact shapeCast_1a_a_apply _ shapeCasts_S1x64_S64 g

/-- THE POOLED HEAD: the output array read as 64 numbers is the reference's head. -/
theorem final3 (c : Dev nD) : shapeCast S64 ((dat3 (F := Ideal) V c).arrAt 7 cfg3.N) shapeCasts_S1x64_S64
      = Cert.Spec.headOf (F := Ideal) (V c main_v83) (V c main_v86) (V c main_v87) (V c main_arg5) (V c main_v88) (V c main_arg7) (V c main_v89) := by
  have h19 : 19 < cfg3.N := by decide
  funext i
  obtain ⟨g, rfl⟩ : ∃ g : Fin 64, i = ix1 g := ⟨i 0, eq_ix1 i⟩
  refine (out3_apply V c h19 g).trans ?_
  refine (k3_pay1_apply (outsAt3 (F := Ideal) V c 19 h19).2.1 (outsAt3 (F := Ideal) V c 19 h19).2.2
    (V c main_arg5) (V c main_v88) (V c main_arg7) (V c main_v89) g).trans ?_
  refine Eq.trans ?_ (Cert.ReferenceIdeal.Hand.headOf_apply (V c main_v83) (V c main_v86) (V c main_v87) (V c main_arg5)
    (V c main_v88) (V c main_arg7) (V c main_v89) g).symm
  have es : (fun j : Fin 128 => (outsAt3 (F := Ideal) V c 19 h19).2.1 (ix2 g j))
      = fun j : Fin 128 => Cert.Spec.sumOf (F := Ideal) (V c main_v87)
          (Cert.Spec.rbias (F := Ideal) (V c main_v83) (V c main_v86)) (ix2 g j) := funext fun j => by
    rw [acc_sum V c h19 g j, Cert.ReferenceIdeal.Hand.sumOf_apply, Cert.ReferenceIdeal.Hand.rbias_eq]
  have ec : (outsAt3 (F := Ideal) V c 19 h19).2.2 (ix2 g (0 : Fin 1)) = Cert.Spec.cntOf (F := Ideal) (V c main_v87) (ix1 g) := by
    rw [acc_cnt V c h19 g, Cert.ReferenceIdeal.Hand.cntOf_apply]
  rw [es, ec]

end Cert.KernelIdeal.Hand

end
-- ==== Proof.Spec.Net.lean ====
/-
  The whole network as one function of the nine arguments, composed of the shared host functions (Spec/Chain.lean) and
  the regions' maps (Spec/Maps.lean): three rounds of "multiply by the layer's weights, pass messages along the edges",
  the bias and rectification of a round applied at the start of the next, then the pooled head.
-/
import proofs.«422429_j3118146257467_1_alg».proof.Proof.Spec.Chain
import proofs.«422429_j3118146257467_1_alg».proof.Proof.Spec.Maps

noncomputable section

namespace Cert.Spec

open Cert.KernelIdeal Cert.KernelIdeal.Facts₀ Cert.KernelIdeal.Facts Idealize.ShloMosaic

variable {F : FTy → Type} [FloatOps F]

/-- The result, one number per graph, from the node features `x`, the edges `e`, the graph ids `batch`, the stacked
    layer weights `cw` and biases `cb`, and the head's two dense layers. -/
def netOf (x : FVec F S100000x128 .f32) (e : IVec S2x1600000 32) (batch : IVec S100000 32) (cw : FVec F S3x128x128 .f32)
    (cb : FVec F S3x128 .f32) (l1 : FVec F S128x128 .f32) (lb1 : FVec F S128 .f32) (l2 : FVec F S128x1 .f32)
    (lb2 : FVec F S1 .f32) : FVec F S64 .f32 :=
  headOf
    (layer e (mm (rbias (layer e (mm (rbias (layer e (mm x (w0Of cw))) (b0Of cb)) (w1Of cw))) (b1Of cb)) (w2Of cw)))
    (b2Of cb)
    (shapeCast S100000x1 batch shapeCasts_S100000_S100000x1)
    l1 (shapeCast S1x128 lb1 shapeCasts_S128_S1x128) l2 (shapeCast S1x1 lb2 shapeCasts_S1_S1x1)

end Cert.Spec

end
-- ==== Proof.KI.KerVal.lean ====
/-
  The kernel program's result as the network function of its nine arguments: the value left at the returned buffer is
  followed backwards through the final reshape, the pooled head of the last region, and the three rounds "dense
  product of a region, message passing of the host stretch after it", each buffer read at a boundary being the
  function the host stretch or the region before it computes of the buffers it found.
-/
import proofs.«422429_j3118146257467_1_alg».proof.Proof.KI.Fold
import proofs.«422429_j3118146257467_1_alg».proof.Proof.KI.HostReads
import proofs.«422429_j3118146257467_1_alg».proof.Proof.KI.Val0
import proofs.«422429_j3118146257467_1_alg».proof.Proof.KI.Val1
import proofs.«422429_j3118146257467_1_alg».proof.Proof.KI.Val2
import proofs.«422429_j3118146257467_1_alg».proof.Proof.KI.Val3
import proofs.«422429_j3118146257467_1_alg».proof.Proof.Spec.Net
import Idealize.ShloMosaic.PureOps.Ideal
set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

/-! ## The kernel program's result -/

section Assembly
variable (m : (ℓ : Loc nD τ sig) → Buf (Elt Ideal) ℓ) (c : Dev nD)

/-- Region 0 leaves the first layer's dense product. -/
theorem val4 : W4 m c (Proc.devRef .tc main_v35)
    = Cert.Spec.mm (F := Ideal) (m ((c.tc : Thread nD τ).loc main_arg0))
        (Cert.Spec.w0Of (m ((c.tc : Thread nD τ).loc main_arg3))) := by
  have h : W4 m c (Proc.devRef .tc main_v35)
      = Cert.Spec.mm (F := Ideal) (W3 m c (Proc.devRef .tc main_arg0)) (W3 m c (Proc.devRef .tc main_v34)) :=
    (W4_arr m c 2).trans (final0 (V3 m) c)
  rw [h, W3_arg0, W3_v34]

/-- The first round's messages. -/
theorem val5 : W5 m c (Proc.devRef .tc main_v47)
    = Cert.Spec.layer (m ((c.tc : Thread nD τ).loc main_arg1))
        (Cert.Spec.mm (F := Ideal) (m ((c.tc : Thread nD τ).loc main_arg0))
          (Cert.Spec.w0Of (m ((c.tc : Thread nD τ).loc main_arg3)))) := by
  rw [W5_v47, val4]

/-- Region 1 leaves the second layer's dense product of the rectified biased first round. -/
theorem val6 : W6 m c (Proc.devRef .tc main_v53)
    = Cert.Spec.mm (F := Ideal)
        (Cert.Spec.rbias (F := Ideal)
          (Cert.Spec.layer (m ((c.tc : Thread nD τ).loc main_arg1))
            (Cert.Spec.mm (F := Ideal) (m ((c.tc : Thread nD τ).loc main_arg0))
              (Cert.Spec.w0Of (m ((c.tc : Thread nD τ).loc main_arg3)))))
          (Cert.Spec.b0Of (m ((c.tc : Thread nD τ).loc main_arg4))))
        (Cert.Spec.w1Of (m ((c.tc : Thread nD τ).loc main_arg3))) := by
  have h : W6 m c (Proc.devRef .tc main_v53)
      = Cert.Spec.mm (F := Ideal)
          (Cert.Spec.rbias (F := Ideal) (W5 m c (Proc.devRef .tc main_v47)) (W5 m c (Proc.devRef .tc main_v50)))
          (W5 m c (Proc.devRef .tc main_v52)) :=
    (W6_arr m c 3).trans (final1 (V5 m) c)
  rw [h, val5, W5_v50, W5_v52]

/-- The second round's messages. -/
theorem val7 : W7 m c (Proc.devRef .tc main_v65)
    = Cert.Spec.layer (m ((c.tc : Thread nD τ).loc main_arg1))
        (Cert.Spec.mm (F := Ideal)
          (Cert.Spec.rbias (F := Ideal)
            (Cert.Spec.layer (m ((c.tc : Thread nD τ).loc main_arg1))
              (Cert.Spec.mm (F := Ideal) (m ((c.tc : Thread nD τ).loc main_arg0))
                (Cert.Spec.w0Of (m ((c.tc : Thread nD τ).loc main_arg3)))))
            (Cert.Spec.b0Of (m ((c.tc : Thread nD τ).loc main_arg4))))
          (Cert.Spec.w1Of (m ((c.tc : Thread nD τ).loc main_arg3)))) := by
  rw [W7_v65, val6]

/-- Region 2 leaves the third layer's dense product of the rectified biased second round. -/
theorem val8 : W8 m c (Proc.devRef .tc main_v71)
    = Cert.Spec.mm (F := Ideal)
        (Cert.Spec.rbias (F := Ideal)
          (Cert.Spec.layer (m ((c.tc : Thread nD τ).loc main_arg1))
            (Cert.Spec.mm (F := Ideal)
              (Cert.Spec.rbias (F := Ideal)
                (Cert.Spec.layer (m ((c.tc : Thread nD τ).loc main_arg1))
                  (Cert.Spec.mm (F := Ideal) (m ((c.tc : Thread nD τ).loc main_arg0))
                    (Cert.Spec.w0Of (m ((c.tc : Thread nD τ).loc main_arg3)))))
                (Cert.Spec.b0Of (m ((c.tc : Thread nD τ).loc main_arg4))))
              (Cert.Spec.w1Of (m ((c.tc : Thread nD τ).loc main_arg3)))))
          (Cert.Spec.b1Of (m ((c.tc : Thread nD τ).loc main_arg4))))
        (Cert.Spec.w2Of (m ((c.tc : Thread nD τ).loc main_arg3))) := by
  have h : W8 m c (Proc.devRef .tc main_v71)
      = Cert.Spec.mm (F := Ideal)
          (Cert.Spec.rbias (F := Ideal) (W7 m c (Proc.devRef .tc main_v65)) (W7 m c (Proc.devRef .tc main_v68)))
          (W7 m c (Proc.devRef .tc main_v70)) :=
    (W8_arr m c 3).trans (final2 (V7 m) c)
  rw [h, val7, W7_v68, W7_v70]

/-- The kernel program's result is the network function of the nine arguments. -/
theorem ker_val : W11 (F := Ideal) m c (Proc.devRef .tc main_v91)
    = Cert.Spec.netOf (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) := by
  have h10 : W10 m c (Proc.devRef .tc main_v90) = (dat3 (V9 m) c).arrAt 7 cfg3.N := W10_arr m c 7
  have h : shapeCast S64 (W10 m c (Proc.devRef .tc main_v90)) shapeCasts_S1x64_S64
      = Cert.Spec.headOf (F := Ideal) (W9 m c (Proc.devRef .tc main_v83)) (W9 m c (Proc.devRef .tc main_v86))
          (W9 m c (Proc.devRef .tc main_v87)) (W9 m c (Proc.devRef .tc main_arg5)) (W9 m c (Proc.devRef .tc main_v88))
          (W9 m c (Proc.devRef .tc main_arg7)) (W9 m c (Proc.devRef .tc main_v89)) := by
    rw [h10]; exact final3 (V9 m) c
  rw [W11_v91, h, W9_v83, val8, W9_v86, W9_v87, W9_arg5, W9_v88, W9_arg7, W9_v89]
  rfl

end Assembly

end Cert.KernelIdeal.Hand

end
-- ==== Proof.Ref.Net.lean ====
/-
  The reference program's result as the network function.
  The reference's composed term and the network function apply the same host operations to the same arguments, except
  where the reference spreads a vector along the one axis that is not of extent one (a bias vector of 128 to one row of
  128, the graph ids to one column, the last bias to a 1 x 1 matrix) and the network function reshapes it. A spread and
  a reshape of that kind read the same element at every index, so they are equal as arrays; with those rewritten, the
  two terms agree by unfolding the named host functions.
-/
import proofs.«422429_j3118146257467_1_alg».proof.Proof.RefRunP
import proofs.«422429_j3118146257467_1_alg».proof.Proof.Spec.Net
import Idealize.ShloMosaic.Lib.Pipeline.Value
import Idealize.ShloMosaic.Lib.ValueIdx
import Idealize.ShloMosaic.Lib.ValueLayout

noncomputable section

namespace Cert.ReferenceIdeal.Hand

open Idealize.ShloMosaic Idealize.ShloMosaic.ValueIdx

section Spread
variable {α : Type}

/-- A vector of `a` elements spread along the second axis of a `1 x a` matrix is the vector reshaped to `1 x a`:
    both read element `i` at `(u, i)` (if `a = 1` the only element). -/
theorem spread_row_eq_reshape {a : ℕ} (x : (⟨1, ![a]⟩ : Shape).Idx → α)
    (hb : (⟨1, ![a]⟩ : Shape).BroadcastsInDim ⟨2, ![1, a]⟩ ![1])
    (hs : (⟨1, ![a]⟩ : Shape).ShapeCasts ⟨2, ![1, a]⟩) :
    broadcastInDim ⟨2, ![1, a]⟩ ![1] hb x = shapeCast ⟨2, ![1, a]⟩ x hs := by
  funext j
  obtain ⟨u, i, rfl⟩ : ∃ u i, j = ix2 u i := ⟨j 0, j 1, eq_ix2 j⟩
  rw [shapeCast_a_1a_apply]
  refine broadcastInDim_apply _ hb x _ _ (fun t => ?_)
  match t with
  | ⟨0, _⟩ =>
    show i.val = if a = 1 then 0 else i.val
    have hi := i.isLt
    split <;> omega

/-- A vector of `a` elements spread along the first axis of an `a x 1` matrix is the vector reshaped to `a x 1`:
    both read element `i` at `(i, u)`. -/
theorem spread_col_eq_reshape {a : ℕ} (x : (⟨1, ![a]⟩ : Shape).Idx → α)
    (hb : (⟨1, ![a]⟩ : Shape).BroadcastsInDim ⟨2, ![a, 1]⟩ ![0])
    (hs : (⟨1, ![a]⟩ : Shape).ShapeCasts ⟨2, ![a, 1]⟩) :
    broadcastInDim ⟨2, ![a, 1]⟩ ![0] hb x = shapeCast ⟨2, ![a, 1]⟩ x hs := by
  funext j
  obtain ⟨i, u, rfl⟩ : ∃ i u, j = ix2 i u := ⟨j 0, j 1, eq_ix2 j⟩
  have hu : u.val = 0 := by omega
  rw [shapeCast_apply x hs (ix2 i u) (ix1 i) (by
    rw [Shape.rowMajor_val_one, Shape.rowMajor_val_two]
    show i.val = i.val * 1 + u.val
    omega)]
  refine broadcastInDim_apply _ hb x _ _ (fun t => ?_)
  match t with
  | ⟨0, _⟩ =>
    show i.val = if a = 1 then 0 else i.val
    have hi := i.isLt
    split <;> omega

end Spread

section Net

open Cert.ReferenceIdeal Cert.ReferenceIdeal.Gen
open Idealize.ShloMosaic.TcCoe Idealize.SL.Sem

variable {F : FTy → Type} [FloatOps F]

/-- A bias vector of 128 spread to one row, as the reference writes it, is the vector reshaped to one row. -/
theorem spread_S128 {α : Type} (v : S128.Idx → α) :
    broadcastInDim S1x128 ![1] bcast_S128_S1x128_1 v
      = shapeCast Cert.KernelIdeal.S1x128 v Cert.KernelIdeal.Facts₀.shapeCasts_S128_S1x128 :=
  spread_row_eq_reshape v _ _

/-- The last bias (one number) spread to a 1 x 1 matrix is the number reshaped to 1 x 1. -/
theorem spread_S1 {α : Type} (v : S1.Idx → α) :
    broadcastInDim S1x1 ![1] bcast_S1_S1x1_1 v
      = shapeCast Cert.KernelIdeal.S1x1 v Cert.KernelIdeal.Facts₀.shapeCasts_S1_S1x1 :=
  spread_row_eq_reshape v _ _

/-- The graph ids spread to one column are the ids reshaped to one column. -/
theorem spread_S100000 {α : Type} (v : S100000.Idx → α) :
    broadcastInDim S100000x1 ![0] bcast_S100000_S100000x1_0 v
      = shapeCast Cert.KernelIdeal.S100000x1 v Cert.KernelIdeal.Facts₀.shapeCasts_S100000_S100000x1 :=
  spread_col_eq_reshape v _ _

set_option maxRecDepth 8192 in
/-- The reference's result is the network function of the nine arguments' launch contents. -/
theorem ref_net (m : (ℓ : Loc nD τ sig) → Buf (Elt F) ℓ) (c : Dev nD) :
    Cert.ReferenceIdeal.ValueP.res_main_v117 (F := F) m c
      = Cert.Spec.netOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.ValueP.res_main_v117
  rw [spread_S100000, spread_S1, spread_S128, spread_S128, spread_S128, spread_S128]
  rfl

end Net

end Cert.ReferenceIdeal.Hand

end
-- ==== Proof.Alg.lean ====
/-
  The two idealized programs agree: run from memories that agree on the nine arguments, the kernel program's result
  buffer and the reference's both end holding the network function of those arguments — three rounds of "multiply by the
  layer's weights, pass messages along the edges with the symmetric normalisation", then the per-graph mean and the
  two-layer head. The kernel side is its launch with every buffer named, the regions' arrays read as whole-array
  functions; the reference side is its run read back.
-/
import proofs.«422429_j3118146257467_1_alg».proof.Defs
import proofs.«422429_j3118146257467_1_alg».proof.Proof.KI.Run
import proofs.«422429_j3118146257467_1_alg».proof.Proof.KI.KerVal
import proofs.«422429_j3118146257467_1_alg».proof.Proof.Ref.Net
import proofs.«422429_j3118146257467_1_alg».proof.Proof.Gen.Pre_finite_inputs

noncomputable section

namespace Cert.Proof

open Idealize.ShloMosaic Idealize.ShloMosaic.TcCoe Idealize.SL.Sem

theorem algebraic : Cert.algebraic_KernelIdeal_ReferenceIdeal := by
  intro m ρ m' ρ' _ hagree
  refine ⟨fun c => Cert.KernelIdeal.Hand.W11 (F := Ideal) m c (Proc.devRef .tc Cert.KernelIdeal.main_v91),
    Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.Hand.ref_net (F := Ideal) m' c).trans ?_
  refine Eq.trans ?_ (Cert.KernelIdeal.Hand.ker_val m c).symm
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

end Cert.Proof

end
-- ==== Proof.lean ====
/-
  The certificate of the three-layer graph convolution with mean pooling and a two-layer head: the kernel program
  (four pipelined kernel regions between stretches of host operations) against its plain reference.
  Frames: each of the two kernel programs runs to the end with its arguments unchanged — the launch over @main's
  eleven items, each region's body proved at every grid point (three regions keep the class invariant; the pooling
  region carries its two accumulators from point to point); the reference's frame is its run read back.
  Values: the two idealized programs end with the same result as extended reals (Proof/Alg.lean).
-/
import proofs.«422429_j3118146257467_1_alg».proof.Defs
import proofs.«422429_j3118146257467_1_alg».proof.Proof.Gen.Kernel
import proofs.«422429_j3118146257467_1_alg».proof.Proof.Gen.KernelIdeal
import proofs.«422429_j3118146257467_1_alg».proof.Proof.Gen.ReferenceIdeal
import proofs.«422429_j3118146257467_1_alg».proof.Proof.Gen.Pre_finite_inputs
import proofs.«422429_j3118146257467_1_alg».proof.Proof.K.Run
import proofs.«422429_j3118146257467_1_alg».proof.Proof.KI.Run
import proofs.«422429_j3118146257467_1_alg».proof.Proof.RefRunP
import proofs.«422429_j3118146257467_1_alg».proof.Proof.Alg

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
